-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S8x4096 : Shape := ⟨2, ![8, 4096]⟩
abbrev S4096x8 : Shape := ⟨2, ![4096, 8]⟩
abbrev S16x4096 : Shape := ⟨2, ![16, 4096]⟩
abbrev S4096x16 : Shape := ⟨2, ![4096, 16]⟩
abbrev S32x4096 : Shape := ⟨2, ![32, 4096]⟩
abbrev S4096x32 : Shape := ⟨2, ![4096, 32]⟩
abbrev S3 : Shape := ⟨1, ![3]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S8x4096 : S_.BroadcastsInDim S8x4096 (![] : Fin 0 → Fin S8x4096.rank)
  reducesTo_S8x4096_S_d0_1 : S8x4096.ReducesTo [0, 1] S_
  bcast_S_S4096x8 : S_.BroadcastsInDim S4096x8 (![] : Fin 0 → Fin S4096x8.rank)
  reducesTo_S4096x8_S_d0_1 : S4096x8.ReducesTo [0, 1] S_
  bcast_S_S16x4096 : S_.BroadcastsInDim S16x4096 (![] : Fin 0 → Fin S16x4096.rank)
  reducesTo_S16x4096_S_d0_1 : S16x4096.ReducesTo [0, 1] S_
  bcast_S_S4096x16 : S_.BroadcastsInDim S4096x16 (![] : Fin 0 → Fin S4096x16.rank)
  reducesTo_S4096x16_S_d0_1 : S4096x16.ReducesTo [0, 1] S_
  bcast_S_S32x4096 : S_.BroadcastsInDim S32x4096 (![] : Fin 0 → Fin S32x4096.rank)
  reducesTo_S32x4096_S_d0_1 : S32x4096.ReducesTo [0, 1] S_
  bcast_S_S4096x32 : S_.BroadcastsInDim S4096x32 (![] : Fin 0 → Fin S4096x32.rank)
  reducesTo_S4096x32_S_d0_1 : S4096x32.ReducesTo [0, 1] S_
  bcast_S_S3 : S_.BroadcastsInDim S3 (![] : Fin 0 → Fin S3.rank)
  reducesTo_S3_S_d0 : S3.ReducesTo [0] S_

variable [Facts]

def fn_part2 {F : FTy → Type} [FloatOps F] (main_arg7 : FVec F S4096x32 .f32) (main_arg8 : FVec F S3 .f32) (main_v33 : IVec S_ 1) : IVec S_ 1 :=
  let main_v34 : FVec F S4096x32 .f32 := Host.absf main_arg7
  let main_cst_12 : FVec F S_ .f32 := constant S_ .f32 0x7F800000#32
  let main_v35 : FVec F S4096x32 .f32 := broadcastInDim S4096x32 ![] bcast_S_S4096x32 main_cst_12
  let main_v36 : IVec S4096x32 1 := cmpf .olt main_v34 main_v35
  let main_c_13 : IVec S_ 1 := constantI S_ 1 1#1
  let main_v37 : IVec S_ 1 := (fun x v => Host.reduce IntOp.andi x v reducesTo_S4096x32_S_d0_1 h_S_) main_v36 main_c_13
  let main_v38 : IVec S_ 1 := andi main_v33 main_v37
  let main_v39 : FVec F S3 .f32 := Host.absf main_arg8
  let main_cst_14 : FVec F S_ .f32 := constant S_ .f32 0x7F800000#32
  let main_v40 : FVec F S3 .f32 := broadcastInDim S3 ![] bcast_S_S3 main_cst_14
  let main_v41 : IVec S3 1 := cmpf .olt main_v39 main_v40
  let main_c_15 : IVec S_ 1 := constantI S_ 1 1#1
  let main_v42 : IVec S_ 1 := (fun x v => Host.reduce IntOp.andi x v reducesTo_S3_S_d0 h_S_) main_v41 main_c_15
  let main_v43 : IVec S_ 1 := andi main_v38 main_v42
  main_v43

def fn_part1 {F : FTy → Type} [FloatOps F] (main_arg4 : FVec F S16x4096 .f32) (main_arg5 : FVec F S4096x16 .f32) (main_arg6 : FVec F S32x4096 .f32) (main_arg7 : FVec F S4096x32 .f32) (main_arg8 : FVec F S3 .f32) (main_v13 : IVec S_ 1) (main_v16 : IVec S4096x8 1) : IVec S_ 1 :=
  let main_c_5 : IVec S_ 1 := constantI S_ 1 1#1
  let main_v17 : IVec S_ 1 := (fun x v => Host.reduce IntOp.andi x v reducesTo_S4096x8_S_d0_1 h_S_) main_v16 main_c_5
  let main_v18 : IVec S_ 1 := andi main_v13 main_v17
  let main_v19 : FVec F S16x4096 .f32 := Host.absf main_arg4
  let main_cst_6 : FVec F S_ .f32 := constant S_ .f32 0x7F800000#32
  let main_v20 : FVec F S16x4096 .f32 := broadcastInDim S16x4096 ![] bcast_S_S16x4096 main_cst_6
  let main_v21 : IVec S16x4096 1 := cmpf .olt main_v19 main_v20
  let main_c_7 : IVec S_ 1 := constantI S_ 1 1#1
  let main_v22 : IVec S_ 1 := (fun x v => Host.reduce IntOp.andi x v reducesTo_S16x4096_S_d0_1 h_S_) main_v21 main_c_7
  let main_v23 : IVec S_ 1 := andi main_v18 main_v22
  let main_v24 : FVec F S4096x16 .f32 := Host.absf main_arg5
  let main_cst_8 : FVec F S_ .f32 := constant S_ .f32 0x7F800000#32
  let main_v25 : FVec F S4096x16 .f32 := broadcastInDim S4096x16 ![] bcast_S_S4096x16 main_cst_8
  let main_v26 : IVec S4096x16 1 := cmpf .olt main_v24 main_v25
  let main_c_9 : IVec S_ 1 := constantI S_ 1 1#1
  let main_v27 : IVec S_ 1 := (fun x v => Host.reduce IntOp.andi x v reducesTo_S4096x16_S_d0_1 h_S_) main_v26 main_c_9
  let main_v28 : IVec S_ 1 := andi main_v23 main_v27
  let main_v29 : FVec F S32x4096 .f32 := Host.absf main_arg6
  let main_cst_10 : FVec F S_ .f32 := constant S_ .f32 0x7F800000#32
  let main_v30 : FVec F S32x4096 .f32 := broadcastInDim S32x4096 ![] bcast_S_S32x4096 main_cst_10
  let main_v31 : IVec S32x4096 1 := cmpf .olt main_v29 main_v30
  let main_c_11 : IVec S_ 1 := constantI S_ 1 1#1
  let main_v32 : IVec S_ 1 := (fun x v => Host.reduce IntOp.andi x v reducesTo_S32x4096_S_d0_1 h_S_) main_v31 main_c_11
  let main_v33 : IVec S_ 1 := andi main_v28 main_v32
  fn_part2 (F := F) main_arg7 main_arg8 main_v33

def fn {F : FTy → Type} [FloatOps F] (main_arg0 : FVec F S4x2048x4096 .f32) (main_arg1 : FVec F S4096x4096 .f32) (main_arg2 : FVec F S8x4096 .f32) (main_arg3 : FVec F S4096x8 .f32) (main_arg4 : FVec F S16x4096 .f32) (main_arg5 : FVec F S4096x16 .f32) (main_arg6 : FVec F S32x4096 .f32) (main_arg7 : FVec F S4096x32 .f32) (main_arg8 : FVec F S3 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S8x4096 .f32 := Host.absf main_arg2
  let main_cst_2 : FVec F S_ .f32 := constant S_ .f32 0x7F800000#32
  let main_v10 : FVec F S8x4096 .f32 := broadcastInDim S8x4096 ![] bcast_S_S8x4096 main_cst_2
  let main_v11 : IVec S8x4096 1 := cmpf .olt main_v9 main_v10
  let main_c_3 : IVec S_ 1 := constantI S_ 1 1#1
  let main_v12 : IVec S_ 1 := (fun x v => Host.reduce IntOp.andi x v reducesTo_S8x4096_S_d0_1 h_S_) main_v11 main_c_3
  let main_v13 : IVec S_ 1 := andi main_v8 main_v12
  let main_v14 : FVec F S4096x8 .f32 := Host.absf main_arg3
  let main_cst_4 : FVec F S_ .f32 := constant S_ .f32 0x7F800000#32
  let main_v15 : FVec F S4096x8 .f32 := broadcastInDim S4096x8 ![] bcast_S_S4096x8 main_cst_4
  let main_v16 : IVec S4096x8 1 := cmpf .olt main_v14 main_v15
  fn_part1 (F := F) main_arg4 main_arg5 main_arg6 main_arg7 main_arg8 main_v13 main_v16
-- ==== Kernel.lean ====
abbrev S4x2048x4096 : Shape := ⟨3, ![4, 2048, 4096]⟩
abbrev S4096x4096 : Shape := ⟨2, ![4096, 4096]⟩
abbrev S8x4096 : Shape := ⟨2, ![8, 4096]⟩
abbrev S4096x8 : Shape := ⟨2, ![4096, 8]⟩
abbrev S16x4096 : Shape := ⟨2, ![16, 4096]⟩
abbrev S4096x16 : Shape := ⟨2, ![4096, 16]⟩
abbrev S32x4096 : Shape := ⟨2, ![32, 4096]⟩
abbrev S4096x32 : Shape := ⟨2, ![4096, 32]⟩
abbrev S3 : Shape := ⟨1, ![3]⟩
abbrev S8192x4096 : Shape := ⟨2, ![8192, 4096]⟩
abbrev S56x4096 : Shape := ⟨2, ![56, 4096]⟩
abbrev S4096x56 : Shape := ⟨2, ![4096, 56]⟩
abbrev S1 : Shape := ⟨1, ![1]⟩
abbrev S_ : Shape := ⟨0, ![]⟩
abbrev S8 : Shape := ⟨1, ![8]⟩
abbrev S16 : Shape := ⟨1, ![16]⟩
abbrev S32 : Shape := ⟨1, ![32]⟩
abbrev S56 : Shape := ⟨1, ![56]⟩
abbrev S1x56 : Shape := ⟨2, ![1, 56]⟩
abbrev S8192x56 : Shape := ⟨2, ![8192, 56]⟩
abbrev S1024x1024 : Shape := ⟨2, ![1024, 1024]⟩
abbrev S56x1024 : Shape := ⟨2, ![56, 1024]⟩
abbrev S1024x56 : Shape := ⟨2, ![1024, 56]⟩

abbrev nBuf : Space → Nat
  | .hbm => 32
  | .vmem => 19
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S8x4096, .f32⟩
  | .hbm, ⟨3, _⟩ => ⟨S4096x8, .f32⟩
  | .hbm, ⟨4, _⟩ => ⟨S16x4096, .f32⟩
  | .hbm, ⟨5, _⟩ => ⟨S4096x16, .f32⟩
  | .hbm, ⟨6, _⟩ => ⟨S32x4096, .f32⟩
  | .hbm, ⟨7, _⟩ => ⟨S4096x32, .f32⟩
  | .hbm, ⟨8, _⟩ => ⟨S3, .f32⟩
  | .hbm, ⟨9, _⟩ => ⟨S8192x4096, .f32⟩
  | .hbm, ⟨10, _⟩ => ⟨S56x4096, .f32⟩
  | .hbm, ⟨11, _⟩ => ⟨S4096x56, .f32⟩
  | .hbm, ⟨12, _⟩ => ⟨S1, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S8, .f32⟩
  | .hbm, ⟨17, _⟩ => ⟨S1, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S16, .f32⟩
  | .hbm, ⟨22, _⟩ => ⟨S1, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S32, .f32⟩
  | .hbm, ⟨27, _⟩ => ⟨S56, .f32⟩
  | .hbm, ⟨28, _⟩ => ⟨S1x56, .f32⟩
  | .hbm, ⟨29, _⟩ => ⟨S8192x56, .f32⟩
  | .hbm, ⟨30, _⟩ => ⟨S8192x4096, .f32⟩
  | .hbm, ⟨31, _⟩ => ⟨S4x2048x4096, .f32⟩
  | .local _ .vmem, ⟨0, _⟩ => ⟨S1024x1024, .f32⟩
  | .local _ .vmem, ⟨1, _⟩ => ⟨S1024x1024, .f32⟩
  | .local _ .vmem, ⟨2, _⟩ => ⟨S56x1024, .f32⟩
  | .local _ .vmem, ⟨3, _⟩ => ⟨S56x1024, .f32⟩
  | .local _ .vmem, ⟨4, _⟩ => ⟨S1x56, .f32⟩
  | .local _ .vmem, ⟨5, _⟩ => ⟨S1024x56, .f32⟩
  | .local _ .vmem, ⟨6, _⟩ => ⟨S1024x56, .f32⟩
  | .local _ .vmem, ⟨7, _⟩ => ⟨S1024x56, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | .local _ .vmem, ⟨12, _⟩ => ⟨S1024x56, .f32⟩
  | .local _ .vmem, ⟨13, _⟩ => ⟨S1024x56, .f32⟩
  | .local _ .vmem, ⟨14, _⟩ => ⟨S1024x56, .f32⟩
  | .local _ .vmem, ⟨15, _⟩ => ⟨S1024x56, .f32⟩
  | .local _ .vmem, ⟨16, _⟩ => ⟨S1024x1024, .f32⟩
  | .local _ .vmem, ⟨17, _⟩ => ⟨S1024x1024, .f32⟩
  | .local _ .vmem, ⟨18, _⟩ => ⟨S1024x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc1_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem3_1 : DmaSem sig := 14
abbrev cc1_sem4_0 : DmaSem sig := 15
abbrev cc1_sem4_1 : DmaSem sig := 16

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v15 : BitVec 1 := Scalar.cmpi .eq arg1 c3_i32
  let v16 : BitVec 32 := Scalar.extui v15
  let c0_i32_8 : BitVec 32 := 0#32
  let v17 : BitVec 1 := Scalar.cmpi .ne v16 c0_i32_8
  v17

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S56x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x56 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x56 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨3, ![8, 4, 4], ![false, false, false]⟩

def k1_cond2 (i : grid1.Coords) : BitVec 1 :=
  let arg2 : BitVec 32 := BitVec.ofNat 32 (i 2).val
  let c3_i32 : BitVec 32 := 3#32
  let v14 : BitVec 1 := Scalar.cmpi .eq arg2 c3_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x56 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, false]

abbrev stage1_3 : Fin 2 → Memref sig .tc .vmem S1024x56 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true, false]

abbrev stage1_4 : Fin 2 → Memref sig .tc .vmem S1024x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, false]

class Facts₀ : Prop where
  shapeCasts_S4x2048x4096_S8192x4096 : S4x2048x4096.ShapeCasts S8192x4096
  concatenates_S8x4096_S16x4096_S32x4096_S56x4096_d0 : Shape.Concatenates [S8x4096, S16x4096, S32x4096] S56x4096 0
  concatenates_S4096x8_S4096x16_S4096x32_S4096x56_d1 : Shape.Concatenates [S4096x8, S4096x16, S4096x32] S4096x56 1
  slices_S3_S1_0 : S3.Slices ![0] S1
  shapeCasts_S1_S_ : S1.ShapeCasts S_
  bcast_S_S8 : S_.BroadcastsInDim S8 (![] : Fin 0 → Fin S8.rank)
  slices_S3_S1_1 : S3.Slices ![1] S1
  bcast_S_S16 : S_.BroadcastsInDim S16 (![] : Fin 0 → Fin S16.rank)
  slices_S3_S1_2 : S3.Slices ![2] S1
  bcast_S_S32 : S_.BroadcastsInDim S32 (![] : Fin 0 → Fin S32.rank)
  concatenates_S8_S16_S32_S56_d0 : Shape.Concatenates [S8, S16, S32] S56 0
  shapeCasts_S56_S1x56 : S56.ShapeCasts S1x56
  inb_S1024x56_S1024x56_0_0 : ∀ a, (![0, 0] : Fin 2 → Nat) a + S1024x56.size a ≤ S1024x56.size a
  h_S1024x56 : 0 < S1024x56.numel
  shapeCasts_S1024x56_S1024x56 : S1024x56.ShapeCasts S1024x56
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  bitsLt_bf16_f32 : FTy.bits .bf16 < FTy.bits .f32
  inb_S56x1024_S56x1024_0_0 : ∀ a, (![0, 0] : Fin 2 → Nat) a + S56x1024.size a ≤ S56x1024.size a
  h_S56x1024 : 0 < S56x1024.numel
  shapeCasts_S56x1024_S56x1024 : S56x1024.ShapeCasts S56x1024
  inb_S1x56_S1x56_0_0 : ∀ a, (![0, 0] : Fin 2 → Nat) a + S1x56.size a ≤ S1x56.size a
  h_S1x56 : 0 < S1x56.numel
  shapeCasts_S1x56_S1x56 : S1x56.ShapeCasts S1x56
  broadcasts_S1x56_S1024x56 : S1x56.Broadcasts S1024x56
  shapeCasts_S8192x4096_S4x2048x4096 : S8192x4096.ShapeCasts S4x2048x4096
  dot_S1024x1024_S56x1024_S1024x56_1_1_0_0_n_n_wf : DotDims.WF S1024x1024 S56x1024 S1024x56 [1] [1] [0] [0] [] []
  dot_S1024x1024_S1024x1024_S1024x1024_1_1_0_0_n_n_wf : DotDims.WF S1024x1024 S1024x1024 S1024x1024 [1] [1] [0] [0] [] []
  dot_S1024x56_S1024x56_S1024x1024_1_1_0_0_n_n_wf : DotDims.WF S1024x56 S1024x56 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x4096.size a
  hwx0_0 : ∀ i : grid0.Coords, EltTy.bits .f32 = 32 ∨ (Rect.block (s := S8192x4096) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S56x1024.size a ≤ S56x4096.size a
  hwx0_1 : ∀ i : grid0.Coords, EltTy.bits .f32 = 32 ∨ (Rect.block (s := S56x4096) S56x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x56.size a ≤ S1x56.size a
  hwx0_2 : ∀ i : grid0.Coords, EltTy.bits .f32 = 32 ∨ (Rect.block (s := S1x56) S1x56.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x56.size a ≤ S8192x56.size a
  hwx0_3 : ∀ i : grid0.Coords, EltTy.bits .f32 = 32 ∨ (Rect.block (s := S8192x56) S1024x56.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x4096.size a
  hwx1_0 : ∀ i : grid1.Coords, EltTy.bits .f32 = 32 ∨ (Rect.block (s := S8192x4096) S1024x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S4096x4096.size a
  hwx1_1 : ∀ i : grid1.Coords, EltTy.bits .f32 = 32 ∨ (Rect.block (s := S4096x4096) S1024x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x56.size a ≤ S8192x56.size a
  hwx1_2 : ∀ i : grid1.Coords, EltTy.bits .f32 = 32 ∨ (Rect.block (s := S8192x56) S1024x56.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x56.size a ≤ S4096x56.size a
  hwx1_3 : ∀ i : grid1.Coords, EltTy.bits .f32 = 32 ∨ (Rect.block (s := S4096x56) S1024x56.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x1024.size a ≤ S8192x4096.size a
  hwx1_4 : ∀ i : grid1.Coords, EltTy.bits .f32 = 32 ∨ (Rect.block (s := S8192x4096) S1024x1024.size (cc1_transform_4 i) (hinb1_4 i)).WholeWords (EltTy.packing .f32)

variable [Facts₀]

def dot_S1024x1024_S56x1024_S1024x56_1_1_0_0_n_n : DotDims S1024x1024 S56x1024 S1024x56 where
  lhsContracting := [1]
  rhsContracting := [1]
  lhsNonContracting := [0]
  rhsNonContracting := [0]
  lhsBatch := []
  rhsBatch := []
  wf := dot_S1024x1024_S56x1024_S1024x56_1_1_0_0_n_n_wf
def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf
def dot_S1024x56_S1024x56_S1024x1024_1_1_0_0_n_n : DotDims S1024x56 S1024x56 S1024x1024 where
  lhsContracting := [1]
  rhsContracting := [1]
  lhsNonContracting := [0]
  rhsNonContracting := [0]
  lhsBatch := []
  rhsBatch := []
  wf := dot_S1024x56_S1024x56_S1024x1024_1_1_0_0_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S56x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16) S1x56.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v17) S1024x56.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v0) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v17) S1024x56.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v2) S1024x56.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v18) S1024x1024.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S8x4096 : Shape := ⟨2, ![8, 4096]⟩
abbrev S4096x8 : Shape := ⟨2, ![4096, 8]⟩
abbrev S16x4096 : Shape := ⟨2, ![16, 4096]⟩
abbrev S4096x16 : Shape := ⟨2, ![4096, 16]⟩
abbrev S32x4096 : Shape := ⟨2, ![32, 4096]⟩
abbrev S4096x32 : Shape := ⟨2, ![4096, 32]⟩
abbrev S3 : Shape := ⟨1, ![3]⟩
abbrev S_ : Shape := ⟨0, ![]⟩
abbrev S4x2048x8 : Shape := ⟨3, ![4, 2048, 8]⟩
abbrev S1 : Shape := ⟨1, ![1]⟩
abbrev S4x2048x16 : Shape := ⟨3, ![4, 2048, 16]⟩
abbrev S4x2048x32 : Shape := ⟨3, ![4, 2048, 32]⟩

abbrev nBuf : Space → Nat
  | .hbm => 37
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S8x4096, .f32⟩
  | .hbm, ⟨3, _⟩ => ⟨S4096x8, .f32⟩
  | .hbm, ⟨4, _⟩ => ⟨S16x4096, .f32⟩
  | .hbm, ⟨5, _⟩ => ⟨S4096x16, .f32⟩
  | .hbm, ⟨6, _⟩ => ⟨S32x4096, .f32⟩
  | .hbm, ⟨7, _⟩ => ⟨S4096x32, .f32⟩
  | .hbm, ⟨8, _⟩ => ⟨S3, .f32⟩
  | .hbm, ⟨9, _⟩ => ⟨S4x2048x4096, .f32⟩
  | .hbm, ⟨10, _⟩ => ⟨S_, .f32⟩
  | .hbm, ⟨11, _⟩ => ⟨S4x2048x4096, .f32⟩
  | .hbm, ⟨12, _⟩ => ⟨S4x2048x8, .f32⟩
  | .hbm, ⟨13, _⟩ => ⟨S4x2048x4096, .f32⟩
  | .hbm, ⟨14, _⟩ => ⟨S1, .f32⟩
  | .hbm, ⟨15, _⟩ => ⟨S_, .f32⟩
  | .hbm, ⟨16, _⟩ => ⟨S4x2048x4096, .f32⟩
  | .hbm, ⟨17, _⟩ => ⟨S4x2048x4096, .f32⟩
  | .hbm, ⟨18, _⟩ => ⟨S4x2048x4096, .f32⟩
  | .hbm, ⟨19, _⟩ => ⟨S4x2048x16, .f32⟩
  | .hbm, ⟨20, _⟩ => ⟨S4x2048x4096, .f32⟩
  | .hbm, ⟨21, _⟩ => ⟨S1, .f32⟩
  | .hbm, ⟨22, _⟩ => ⟨S_, .f32⟩
  | .hbm, ⟨23, _⟩ => ⟨S4x2048x4096, .f32⟩
  | .hbm, ⟨24, _⟩ => ⟨S4x2048x4096, .f32⟩
  | .hbm, ⟨25, _⟩ => ⟨S4x2048x4096, .f32⟩
  | .hbm, ⟨26, _⟩ => ⟨S4x2048x32, .f32⟩
  | .hbm, ⟨27, _⟩ => ⟨S4x2048x4096, .f32⟩
  | .hbm, ⟨28, _⟩ => ⟨S1, .f32⟩
  | .hbm, ⟨29, _⟩ => ⟨S_, .f32⟩
  | .hbm, ⟨30, _⟩ => ⟨S4x2048x4096, .f32⟩
  | .hbm, ⟨31, _⟩ => ⟨S4x2048x4096, .f32⟩
  | .hbm, ⟨32, _⟩ => ⟨S4x2048x4096, .f32⟩
  | .hbm, ⟨33, _⟩ => ⟨S_, .f32⟩
  | .hbm, ⟨34, _⟩ => ⟨S4x2048x4096, .f32⟩
  | .hbm, ⟨35, _⟩ => ⟨S4x2048x4096, .f32⟩
  | .hbm, ⟨36, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_0 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩

abbrev nD : Nat := 1
abbrev τ : Topo := Topo.v7x

variable {F : FTy → Type} [FloatOps F]

class Facts₀ : Prop where
  bcast_S_S4x2048x4096 : S_.BroadcastsInDim S4x2048x4096 (![] : Fin 0 → Fin S4x2048x4096.rank)
  slices_S3_S1_0 : S3.Slices ![0] S1
  shapeCasts_S1_S_ : S1.ShapeCasts S_
  slices_S3_S1_1 : S3.Slices ![1] S1
  slices_S3_S1_2 : S3.Slices ![2] S1
  dot_S4x2048x4096_S4096x4096_S4x2048x4096_2_1_01_0_n_n_wf : DotDims.WF S4x2048x4096 S4096x4096 S4x2048x4096 [2] [1] [0, 1] [0] [] []
  dot_S4x2048x4096_S8x4096_S4x2048x8_2_1_01_0_n_n_wf : DotDims.WF S4x2048x4096 S8x4096 S4x2048x8 [2] [1] [0, 1] [0] [] []
  dot_S4x2048x8_S4096x8_S4x2048x4096_2_1_01_0_n_n_wf : DotDims.WF S4x2048x8 S4096x8 S4x2048x4096 [2] [1] [0, 1] [0] [] []
  dot_S4x2048x4096_S16x4096_S4x2048x16_2_1_01_0_n_n_wf : DotDims.WF S4x2048x4096 S16x4096 S4x2048x16 [2] [1] [0, 1] [0] [] []
  dot_S4x2048x16_S4096x16_S4x2048x4096_2_1_01_0_n_n_wf : DotDims.WF S4x2048x16 S4096x16 S4x2048x4096 [2] [1] [0, 1] [0] [] []
  dot_S4x2048x4096_S32x4096_S4x2048x32_2_1_01_0_n_n_wf : DotDims.WF S4x2048x4096 S32x4096 S4x2048x32 [2] [1] [0, 1] [0] [] []
  dot_S4x2048x32_S4096x32_S4x2048x4096_2_1_01_0_n_n_wf : DotDims.WF S4x2048x32 S4096x32 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf
def dot_S4x2048x4096_S8x4096_S4x2048x8_2_1_01_0_n_n : DotDims S4x2048x4096 S8x4096 S4x2048x8 where
  lhsContracting := [2]
  rhsContracting := [1]
  lhsNonContracting := [0, 1]
  rhsNonContracting := [0]
  lhsBatch := []
  rhsBatch := []
  wf := dot_S4x2048x4096_S8x4096_S4x2048x8_2_1_01_0_n_n_wf
def dot_S4x2048x8_S4096x8_S4x2048x4096_2_1_01_0_n_n : DotDims S4x2048x8 S4096x8 S4x2048x4096 where
  lhsContracting := [2]
  rhsContracting := [1]
  lhsNonContracting := [0, 1]
  rhsNonContracting := [0]
  lhsBatch := []
  rhsBatch := []
  wf := dot_S4x2048x8_S4096x8_S4x2048x4096_2_1_01_0_n_n_wf
def dot_S4x2048x4096_S16x4096_S4x2048x16_2_1_01_0_n_n : DotDims S4x2048x4096 S16x4096 S4x2048x16 where
  lhsContracting := [2]
  rhsContracting := [1]
  lhsNonContracting := [0, 1]
  rhsNonContracting := [0]
  lhsBatch := []
  rhsBatch := []
  wf := dot_S4x2048x4096_S16x4096_S4x2048x16_2_1_01_0_n_n_wf
def dot_S4x2048x16_S4096x16_S4x2048x4096_2_1_01_0_n_n : DotDims S4x2048x16 S4096x16 S4x2048x4096 where
  lhsContracting := [2]
  rhsContracting := [1]
  lhsNonContracting := [0, 1]
  rhsNonContracting := [0]
  lhsBatch := []
  rhsBatch := []
  wf := dot_S4x2048x16_S4096x16_S4x2048x4096_2_1_01_0_n_n_wf
def dot_S4x2048x4096_S32x4096_S4x2048x32_2_1_01_0_n_n : DotDims S4x2048x4096 S32x4096 S4x2048x32 where
  lhsContracting := [2]
  rhsContracting := [1]
  lhsNonContracting := [0, 1]
  rhsNonContracting := [0]
  lhsBatch := []
  rhsBatch := []
  wf := dot_S4x2048x4096_S32x4096_S4x2048x32_2_1_01_0_n_n_wf
def dot_S4x2048x32_S4096x32_S4x2048x4096_2_1_01_0_n_n : DotDims S4x2048x32 S4096x32 S4x2048x4096 where
  lhsContracting := [2]
  rhsContracting := [1]
  lhsNonContracting := [0, 1]
  rhsNonContracting := [0]
  lhsBatch := []
  rhsBatch := []
  wf := dot_S4x2048x32_S4096x32_S4x2048x4096_2_1_01_0_n_n_wf

class Facts : Prop extends Facts₀ where

variable [Facts]
-- ==== Proof.Region0B.lean ====
/-
  The first kernel (the scaled low-rank projection) as a pipeline region: what its accumulator holds after
  every grid point, the invariant that carries it from point to point, the body's run in each of its three
  cases, and the body obligation at every point.

  The grid is 8 row blocks × 4 reduction steps, the reduction step k = t mod 4 innermost. At k = 0 the body zeroes
  the accumulator; at every k it adds x-block · A-blockᵀ; at k = 3 it multiplies by the scale row and stores the
  result block, which the pipeline writes back exactly there. Everything is stated at the contents `V` the region is
  entered from, and for any float instance.
-/
import proofs.«106228_j62697932587275_1_alg».proof.Proof.Gen.Kernel.Launch
import proofs.«106228_j62697932587275_1_alg».proof.Proof.Gen.Kernel.Skeleton
import proofs.«106228_j62697932587275_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two branches, decided over the grid -/

/-- The accumulator is zeroed where the reduction coordinate is 0, -/
abbrev cond0_0 (i : grid0.Coords) : Prop := (Scalar.cmpi .ne (Scalar.extui (Scalar.cmpi .eq (BitVec.ofNat 32 (i 1).val) 0#32)) 0#32) = 1#1
/-- and the result block is stored where it is the last one, 3. -/
abbrev cond0_1 (i : grid0.Coords) : Prop := k0_cond2 i = 1#1
/-- In point numbers (the reduction coordinate is the point number mod 4): -/
theorem hcond0_0 : ∀ t : Fin cfg0.N, cond0_0 (grid0.coords t) ↔ t.val % 4 = 0 :=
  (by decide +kernel : ∀ t : Fin grid0.N, cond0_0 (grid0.coords t) ↔ t.val % 4 = 0)
theorem hcond0_1 : ∀ t : Fin cfg0.N, cond0_1 (grid0.coords t) ↔ t.val % 4 = 3 :=
  (by decide +kernel : ∀ t : Fin grid0.N, cond0_1 (grid0.coords t) ↔ t.val % 4 = 3)
/-- The result window is idle, and not written back, exactly at the points that do not store it. -/
theorem idle0_3 : ∀ t : Fin cfg0.N, ¬t.val % 4 = 3 → cfg0.idle 3 (grid0.coords t) = true :=
  (by decide +kernel : ∀ t : Fin grid0.N, ¬t.val % 4 = 3 → cfg0.idle 3 (grid0.coords t) = true)
theorem noflush0_3 : ∀ t : Fin cfg0.N, ¬t.val % 4 = 3 → (cfg0.win 3).flush t = false :=
  (by decide +kernel : ∀ t : Fin grid0.N, ¬t.val % 4 = 3 → win0_3.flush t = false)
theorem live0_3 : ∀ t : Fin cfg0.N, t.val % 4 = 3 → cfg0.idle 3 (grid0.coords t) = false :=
  (by decide +kernel : ∀ t : Fin grid0.N, t.val % 4 = 3 → cfg0.idle 3 (grid0.coords t) = false)

/-! ## The body's run, case by case

On whole staging memrefs at named contents. The accumulator `arg6` is loaded and stored whole, so each case leaves
in it one payload of what it held; the result buffer `arg5` is stored, whole, in the last case only. -/

set_option maxHeartbeats 1000000 in
/-- Reduction step 0: the accumulator, whatever it held, ends at the product added to the zero block; the result
    buffer is untouched. -/
theorem run0_first (c : Dev nD) (E : Set ℕ) (i : grid0.Coords)
    (arg2 : Memref sig .tc .vmem S1024x1024 .f32) (harg2 : arg2.IsWhole) (arg3 : Memref sig .tc .vmem S56x1024 .f32) (harg3 : arg3.IsWhole)
    (arg4 : Memref sig .tc .vmem S1x56 .f32) (harg4 : arg4.IsWhole) (arg5 : Memref sig .tc .vmem S1024x56 .f32) (harg5 : arg5.IsWhole)
    (arg6 : Memref sig .tc .vmem S1024x56 .f32) (harg6 : arg6.IsWhole)
    (hc0 : cond0_0 i) (hc1 : ¬cond0_1 i)
    (x : Vec F S1024x1024 .f32) (a : Vec F S56x1024 .f32) (s : Vec F S1x56 .f32) (o : Vec F S1024x56 .f32)
    (K : PUnit → sProp 𝕄) :
    iprop(owns (c : Thread nD τ) arg2 fullShare x ∗ owns (c : Thread nD τ) arg3 fullShare a ∗ owns (c : Thread nD τ) arg4 fullShare s
        ∗ owns (c : Thread nD τ) arg5 fullShare o ∗ (∃ d, owns (c : Thread nD τ) arg6 fullShare d)
        ∗ (iprop(owns (c : Thread nD τ) arg2 fullShare x ∗ owns (c : Thread nD τ) arg3 fullShare a ∗ owns (c : Thread nD τ) arg4 fullShare s
            ∗ owns (c : Thread nD τ) arg5 fullShare o ∗ owns (c : Thread nD τ) arg6 fullShare (k0_pay2 x a k0_pay1)) -∗ K ⟨⟩))
      ⊢ wp frame (wpE (defs₀ (F := F)) Variants.none c none) E (cc0_lowrank_kernel i arg2 harg2 arg3 harg3 arg4 harg4 arg5 harg5 arg6 harg6) K := by
  simp only [cc0_lowrank_kernel_eq_skeleton]; unfold cc0_lowrank_kernel_skel
  unfold owns
  iintro ⟨⟨%f2, %hf2, H2⟩, ⟨%f3, %hf3, H3⟩, ⟨%f4, %hf4, H4⟩, ⟨%f5, %hf5, H5⟩, ⟨%d6, %f6, -, H6⟩, Hk⟩
  obtain rfl := harg2.eq_unread hf2; obtain rfl := harg3.eq_unread hf3; obtain rfl := harg4.eq_unread hf4
  obtain rfl := harg5.eq_unread hf5
  sl_exec (disch := first | exact hc0 | exact hc1)
  sl_step
  iapply Hk
  have hz : (![0, 0] : Fin 2 → Nat) = fun _ => 0 := by funext a; match a with | ⟨0, _⟩ => rfl | ⟨1, _⟩ => rfl
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  iexists _; isplitr
  swap; · iexact H6
  ipureintro
  sl_unfold_words
  refine (View.read_writes_eq_canon _ _ _ (fun y => ⟨_, List.mem_cons_self .., View.mem_set_unit_zero hz inb_S1024x56_S1024x56_0_0 y⟩)).trans ?_
  rw [View.canon_cons_unit_zero (S := S1024x56) hz]
  simp only [View.readAt_eq_ld, Memref.IsWhole.read_unread, View.ld_unit_zero (S := S1024x1024) hz, View.ld_unit_zero (S := S56x1024) hz,
    View.ld_unit_zero (S := S1024x56) hz, View.readCov_unit_zero (S := S1024x56) _ hz]

set_option maxHeartbeats 1000000 in
/-- Reduction steps 1 and 2: the accumulator ends at the product added to what it held; the result buffer is
    untouched. -/
theorem run0_mid (c : Dev nD) (E : Set ℕ) (i : grid0.Coords)
    (arg2 : Memref sig .tc .vmem S1024x1024 .f32) (harg2 : arg2.IsWhole) (arg3 : Memref sig .tc .vmem S56x1024 .f32) (harg3 : arg3.IsWhole)
    (arg4 : Memref sig .tc .vmem S1x56 .f32) (harg4 : arg4.IsWhole) (arg5 : Memref sig .tc .vmem S1024x56 .f32) (harg5 : arg5.IsWhole)
    (arg6 : Memref sig .tc .vmem S1024x56 .f32) (harg6 : arg6.IsWhole)
    (hc0 : ¬cond0_0 i) (hc1 : ¬cond0_1 i)
    (x : Vec F S1024x1024 .f32) (a : Vec F S56x1024 .f32) (s : Vec F S1x56 .f32) (o : Vec F S1024x56 .f32) (acc : Vec F S1024x56 .f32)
    (K : PUnit → sProp 𝕄) :
    iprop(owns (c : Thread nD τ) arg2 fullShare x ∗ owns (c : Thread nD τ) arg3 fullShare a ∗ owns (c : Thread nD τ) arg4 fullShare s
        ∗ owns (c : Thread nD τ) arg5 fullShare o ∗ owns (c : Thread nD τ) arg6 fullShare acc
        ∗ (iprop(owns (c : Thread nD τ) arg2 fullShare x ∗ owns (c : Thread nD τ) arg3 fullShare a ∗ owns (c : Thread nD τ) arg4 fullShare s
            ∗ owns (c : Thread nD τ) arg5 fullShare o ∗ owns (c : Thread nD τ) arg6 fullShare (k0_pay2 x a acc)) -∗ K ⟨⟩))
      ⊢ wp frame (wpE (defs₀ (F := F)) Variants.none c none) E (cc0_lowrank_kernel i arg2 harg2 arg3 harg3 arg4 harg4 arg5 harg5 arg6 harg6) K := by
  simp only [cc0_lowrank_kernel_eq_skeleton]; unfold cc0_lowrank_kernel_skel
  unfold owns
  iintro ⟨⟨%f2, %hf2, H2⟩, ⟨%f3, %hf3, H3⟩, ⟨%f4, %hf4, H4⟩, ⟨%f5, %hf5, H5⟩, ⟨%f6, %hf6, H6⟩, Hk⟩
  obtain rfl := harg2.eq_unread hf2; obtain rfl := harg3.eq_unread hf3; obtain rfl := harg4.eq_unread hf4
  obtain rfl := harg5.eq_unread hf5; obtain rfl := harg6.eq_unread hf6
  sl_exec (disch := first | exact hc0 | exact hc1)
  sl_step
  iapply Hk
  have hz : (![0, 0] : Fin 2 → Nat) = fun _ => 0 := by funext a; match a with | ⟨0, _⟩ => rfl | ⟨1, _⟩ => rfl
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  iexists _; isplitr
  swap; · iexact H6
  ipureintro
  refine (View.read_writes_eq_canon _ _ _ (fun y => ⟨_, List.mem_singleton_self _, View.mem_set_unit_zero hz inb_S1024x56_S1024x56_0_0 y⟩)).trans ?_
  rw [View.canon_unit_zero hz]
  simp only [View.readAt_eq_ld, Memref.IsWhole.read_unread, View.ld_unit_zero (S := S1024x1024) hz, View.ld_unit_zero (S := S56x1024) hz, View.ld_unit_zero (S := S1024x56) hz]
set_option maxHeartbeats 1000000 in
/-- Reduction step 3: the accumulator as before, and the result buffer, whatever it held, ends at the accumulator
    times the scale row. -/
theorem run0_last (c : Dev nD) (E : Set ℕ) (i : grid0.Coords)
    (arg2 : Memref sig .tc .vmem S1024x1024 .f32) (harg2 : arg2.IsWhole) (arg3 : Memref sig .tc .vmem S56x1024 .f32) (harg3 : arg3.IsWhole)
    (arg4 : Memref sig .tc .vmem S1x56 .f32) (harg4 : arg4.IsWhole) (arg5 : Memref sig .tc .vmem S1024x56 .f32) (harg5 : arg5.IsWhole)
    (arg6 : Memref sig .tc .vmem S1024x56 .f32) (harg6 : arg6.IsWhole)
    (hc0 : ¬cond0_0 i) (hc1 : cond0_1 i)
    (x : Vec F S1024x1024 .f32) (a : Vec F S56x1024 .f32) (s : Vec F S1x56 .f32) (acc : Vec F S1024x56 .f32)
    (K : PUnit → sProp 𝕄) :
    iprop(owns (c : Thread nD τ) arg2 fullShare x ∗ owns (c : Thread nD τ) arg3 fullShare a ∗ owns (c : Thread nD τ) arg4 fullShare s
        ∗ (∃ d, owns (c : Thread nD τ) arg5 fullShare d) ∗ owns (c : Thread nD τ) arg6 fullShare acc
        ∗ (iprop(owns (c : Thread nD τ) arg2 fullShare x ∗ owns (c : Thread nD τ) arg3 fullShare a ∗ owns (c : Thread nD τ) arg4 fullShare s
            ∗ owns (c : Thread nD τ) arg5 fullShare (k0_pay3 (k0_pay2 x a acc) s) ∗ owns (c : Thread nD τ) arg6 fullShare (k0_pay2 x a acc)) -∗ K ⟨⟩))
      ⊢ wp frame (wpE (defs₀ (F := F)) Variants.none c none) E (cc0_lowrank_kernel i arg2 harg2 arg3 harg3 arg4 harg4 arg5 harg5 arg6 harg6) K := by
  simp only [cc0_lowrank_kernel_eq_skeleton]; unfold cc0_lowrank_kernel_skel
  unfold owns
  iintro ⟨⟨%f2, %hf2, H2⟩, ⟨%f3, %hf3, H3⟩, ⟨%f4, %hf4, H4⟩, ⟨%d5, %f5, -, H5⟩, ⟨%f6, %hf6, H6⟩, Hk⟩
  obtain rfl := harg2.eq_unread hf2; obtain rfl := harg3.eq_unread hf3; obtain rfl := harg4.eq_unread hf4
  obtain rfl := harg6.eq_unread hf6
  sl_exec (disch := first | exact hc0 | exact hc1)
  sl_step
  iapply Hk
  have hz : (![0, 0] : Fin 2 → Nat) = fun _ => 0 := by funext a; match a with | ⟨0, _⟩ => rfl | ⟨1, _⟩ => rfl
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    sl_unfold_words
    refine (View.read_writes_eq_canon _ _ _ (fun y => ⟨_, List.mem_singleton_self _, View.mem_set_unit_zero hz inb_S1024x56_S1024x56_0_0 y⟩)).trans ?_
    rw [View.canon_unit_zero (S := S1024x56) hz]
    simp only [View.readAt_eq_ld, Memref.IsWhole.read_unread, View.ld_unit_zero (S := S1024x1024) hz, View.ld_unit_zero (S := S56x1024) hz,
      View.ld_unit_zero (S := S1024x56) hz, View.ld_unit_zero (S := S1x56) hz, View.readCov_unit_zero (S := S1024x56) _ hz]
  iexists _; isplitr
  swap; · iexact H6
  ipureintro
  sl_unfold_words
  refine (View.read_writes_eq_canon _ _ _ (fun y => ⟨_, List.mem_singleton_self _, View.mem_set_unit_zero hz inb_S1024x56_S1024x56_0_0 y⟩)).trans ?_
  rw [View.canon_unit_zero (S := S1024x56) hz]
  simp only [View.readAt_eq_ld, Memref.IsWhole.read_unread, View.ld_unit_zero (S := S1024x1024) hz, View.ld_unit_zero (S := S56x1024) hz,
    View.ld_unit_zero (S := S1024x56) hz]

section Region0

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, whether the pipeline fetched it there or the
    block index did not move since the last fetch. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The three input blocks at a point, at their literal types: the x block [1024,1024], the A block [56,1024],
    the scale row [1,56]. -/
abbrev xb0 (c : Dev nD) (t : Fin cfg0.N) : Vec F S1024x1024 .f32 := iblk0 V c 0 t
abbrev ab0 (c : Dev nD) (t : Fin cfg0.N) : Vec F S56x1024 .f32 := iblk0 V c 1 t
abbrev sb0 (c : Dev nD) (t : Fin cfg0.N) : Vec F S1x56 .f32 := iblk0 V c 2 t

/-! ## The accumulation -/

/-- What the accumulator holds after the body at point `n`: at a point with reduction step 0 the product added to
    the zero block, at any other the product added to what the point before left. -/
def acc0 (c : Dev nD) : (n : ℕ) → n < cfg0.N → Vec F S1024x56 .f32
  | 0, h => k0_pay2 (xb0 V c ⟨0, h⟩) (ab0 V c ⟨0, h⟩) k0_pay1
  | n + 1, h =>
    if (n + 1) % 4 = 0 then k0_pay2 (xb0 V c ⟨n + 1, h⟩) (ab0 V c ⟨n + 1, h⟩) k0_pay1
    else k0_pay2 (xb0 V c ⟨n + 1, h⟩) (ab0 V c ⟨n + 1, h⟩) (acc0 c n (Nat.lt_of_succ_lt h))

/-- At a point whose reduction step is 0 the accumulator restarts from zero. -/
theorem acc0_reset (c : Dev nD) (t : Fin cfg0.N) (h0 : t.val % 4 = 0) :
    acc0 V c t.val t.isLt = k0_pay2 (xb0 V c t) (ab0 V c t) k0_pay1 := by
  obtain ⟨n, hn⟩ := t
  cases n with
  | zero => rfl
  | succ n => exact (if_pos h0)

/-- At any other point it continues from what the point before left. -/
theorem acc0_step (c : Dev nD) (t : Fin cfg0.N) (h0 : ¬t.val % 4 = 0) :
    acc0 V c t.val t.isLt = k0_pay2 (xb0 V c t) (ab0 V c t) (acc0 V c (t.val - 1) (Nat.lt_of_le_of_lt (Nat.sub_le _ _) t.isLt)) := by
  obtain ⟨n, hn⟩ := t
  cases n with
  | zero => exact absurd (Nat.zero_mod _) h0
  | succ n => exact (if_neg h0)

/-! ## The scratch accumulator and the invariant -/

/-- The kernel's scratch accumulator, a whole scoped buffer of its own. -/
abbrev scM0 : Memref sig .tc .vmem S1024x56 .f32 := Memref.whole cc0_scratch0

/-- The scoped buffers the first kernel neither stages nor uses as scratch, each at some contents. -/
abbrev rest0 (c : Dev nD) : sProp 𝕄 :=
  Pipeline.scopedRestBut (Ix := Unit) (Name := ℕ) (U := UR sig nD τ) (Lvl := ℕ) (Val := Elt F) spec0 c [cc0_scratch0]

/-- The scoped rest with the scratch accumulator split off as an owned memref. -/
theorem PhiA0_eq (c : Dev nD) :
    (Pipeline.ΦA spec0 c : sProp 𝕄)
      = iprop(((∃ d, owns (c : Thread nD τ) scM0 fullShare d) ∗ rest0 c) ∗ (∃ r, prngReg c r)) := by
  unfold Pipeline.ΦA
  rw [Pipeline.scopedRest_split_of_list spec0 c [cc0_scratch0] (by decide) (by decide)]
  simp only [scM0, owns_whole, bigSepL]
  rfl

/-- The invariant before position `n`: before the first point every scoped buffer is at anything; afterwards the
    accumulator holds what the point before left in it. -/
def Phi0 (c : Dev nD) : (n : ℕ) → n ≤ cfg0.N → sProp 𝕄
  | 0, _ => Pipeline.ΦA spec0 c
  | n + 1, hn => iprop((owns (c : Thread nD τ) scM0 fullShare (acc0 V c n hn) ∗ rest0 c) ∗ (∃ r, prngReg c r))

theorem Phi0_zero (c : Dev nD) (n : ℕ) (h : n ≤ cfg0.N) (hz : n = 0) : Phi0 V c n h = Pipeline.ΦA spec0 c := by
  subst hz; rfl
theorem Phi0_succ (c : Dev nD) (n : ℕ) (hn : n < cfg0.N) :
    Phi0 V c (n + 1) hn = iprop((owns (c : Thread nD τ) scM0 fullShare (acc0 V c n hn) ∗ rest0 c) ∗ (∃ r, prngReg c r)) := rfl
theorem Phi0_pos (c : Dev nD) (n : ℕ) (h : n ≤ cfg0.N) (hz : n ≠ 0) :
    Phi0 V c n h = iprop((owns (c : Thread nD τ) scM0 fullShare (acc0 V c (n - 1) (by omega)) ∗ rest0 c) ∗ (∃ r, prngReg c r)) := by
  cases n with
  | zero => exact absurd rfl hz
  | succ n => rfl

/-! ## The proof data -/

/-- The first kernel's proof data on core `c`: the arrays as the region finds them; after the body each input's buffer
    at its block, the result's at the accumulator times the scale row (read only at the points that store it); the
    invariant `Phi0`; nothing owed, full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => k0_pay3 (acc0 V c t.val t.isLt) (sb0 V c t)
  Φ t := Phi0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = k0_pay3 (acc0 V c t.val t.isLt) (sb0 V c t) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem Phi0_castSucc (c : Dev nD) (t : Fin cfg0.N) :
    (dat0 V c).Φ t.castSucc = Phi0 V c t.val (Nat.le_of_lt t.isLt) := by
  dsimp only [dat0]; simp only [Fin.coe_castSucc]

/-! ## The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t ∗ (dat0 V c).leavesExact 3 t)

set_option maxHeartbeats 4000000 in
/-- The body at any point. The inputs' buffers hold their blocks; the point number mod 4 says which case runs; the
    invariant hands the accumulator over at what the point before left (at anything before the first point) and
    takes it back at this point's contents; an idle result buffer goes back as it came. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = Phi0 V c (t.val + 1) t.isLt from rfl, Phi0_succ]
  rw [show (dat0 V c).leavesExact 0 t = owns (c : Thread nD τ) (st0_0 t) fullShare ((dat0 V c).after 0 t) from rfl, after0_0,
    show (dat0 V c).leavesExact 1 t = owns (c : Thread nD τ) (st0_1 t) fullShare ((dat0 V c).after 1 t) from rfl, after0_1,
    show (dat0 V c).leavesExact 2 t = owns (c : Thread nD τ) (st0_2 t) fullShare ((dat0 V c).after 2 t) from rfl, after0_2]
  by_cases h0 : t.val % 4 = 0
  · have h1 : ¬t.val % 4 = 3 := by omega
    rw [Dat.leavesExact_idle (dat0 V c) 3 t (idle0_3 t h1) (noflush0_3 t h1), acc0_reset V c t h0]
    by_cases hz : t.val = 0
    · rw [Phi0_castSucc V c t, Phi0_zero V c _ _ hz, PhiA0_eq]
      iintro ⟨⟨⟨HS, Hrest⟩, Hg⟩, Ho, ⟨%d0, H0⟩, ⟨%d1, H1⟩, ⟨%d2, H2⟩, ⟨%d3, H3⟩⟩
      iapply (run0_first c Set.univ (grid0.coords t) _ _ _ _ _ _ _ _ _ _ ((hcond0_0 t).mpr h0) (fun h => h1 ((hcond0_1 t).mp h))
        (xb0 V c t) (ab0 V c t) (sb0 V c t) _ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      isplitl [H2]; · iexact H2
      iexists _; iexact H3
    · rw [Phi0_castSucc V c t, Phi0_pos V c _ _ hz]
      iintro ⟨⟨⟨HS, Hrest⟩, Hg⟩, Ho, ⟨%d0, H0⟩, ⟨%d1, H1⟩, ⟨%d2, H2⟩, ⟨%d3, H3⟩⟩
      iapply (run0_first c Set.univ (grid0.coords t) _ _ _ _ _ _ _ _ _ _ ((hcond0_0 t).mpr h0) (fun h => h1 ((hcond0_1 t).mp h))
        (xb0 V c t) (ab0 V c t) (sb0 V c t) _ _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h1 : t.val % 4 = 3
    · rw [show (dat0 V c).leavesExact 3 t = owns (c : Thread nD τ) (st0_3 t) fullShare ((dat0 V c).after 3 t) from by
        unfold Dat.leavesExact; rw [live0_3 t h1], after0_3, acc0_step V c t h0]
      rw [Phi0_castSucc V c t, Phi0_pos V c _ _ hz]
      iintro ⟨⟨⟨HS, Hrest⟩, Hg⟩, Ho, ⟨%d0, H0⟩, ⟨%d1, H1⟩, ⟨%d2, H2⟩, ⟨%d3, H3⟩⟩
      iapply (run0_last c Set.univ (grid0.coords t) _ _ _ _ _ _ _ _ _ _ (fun h => h0 ((hcond0_0 t).mp h)) ((hcond0_1 t).mpr h1)
        (xb0 V c t) (ab0 V c t) (sb0 V c t) _ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      isplitl [H2]; · iexact H2
      iexact H3
    · rw [Dat.leavesExact_idle (dat0 V c) 3 t (idle0_3 t h1) (noflush0_3 t h1), acc0_step V c t h0]
      rw [Phi0_castSucc V c t, Phi0_pos V c _ _ hz]
      iintro ⟨⟨⟨HS, Hrest⟩, Hg⟩, Ho, ⟨%d0, H0⟩, ⟨%d1, H1⟩, ⟨%d2, H2⟩, ⟨%d3, H3⟩⟩
      iapply (run0_mid c Set.univ (grid0.coords t) _ _ _ _ _ _ _ _ _ _ (fun h => h0 ((hcond0_0 t).mp h)) (fun h => h1 ((hcond0_1 t).mp h))
        (xb0 V c t) (ab0 V c t) (sb0 V c t) _ _ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      isplitl [H2]; · iexact H2
      iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the region is entered with is the invariant before the first point, -/
theorem hin0 (c : Dev nD) : Pipeline.ΦA spec0 c ⊢ (dat0 V c).Φ 0 := by
  rw [show (dat0 V c).Φ 0 = Phi0 V c 0 (Nat.zero_le _) from rfl, Phi0_zero V c 0 _ rfl]

/-- and after the last point the invariant gives it back, the accumulator's contents forgotten. -/
theorem hout0 (c : Dev nD) : (dat0 V c).Φ (Fin.last cfg0.N) ⊢ Pipeline.ΦA spec0 c := by
  rw [show (dat0 V c).Φ (Fin.last cfg0.N) = Phi0 V c (Fin.last cfg0.N).val (Nat.le_of_lt_succ (Fin.last cfg0.N).isLt) from rfl,
    Phi0_pos V c _ _ (by rw [Fin.val_last]; have : cfg0.N = 32 := N_0; omega), PhiA0_eq]
  iintro ⟨⟨HS, Hrest⟩, Hg⟩
  isplitl [HS Hrest]
  · isplitl [HS]; · iexists _; iexact HS
    iexact Hrest
  iexact Hg

end Region0

end Cert.Kernel.Gen

end
-- ==== Proof.Region1B.lean ====
/-
  The second kernel (the base product plus the rank-56 correction) as a pipeline region: what its accumulator
  holds after every grid point, the invariant that carries it, the body's run in each of its three cases, and the
  body obligation at every point.

  The grid is 8 row blocks × 4 column blocks × 4 reduction steps, the reduction step k = t mod 4 innermost. At
  k = 0 the body zeroes the accumulator; at every k it adds x-block · W-blockᵀ; at k = 3 it then adds
  low-block · B-blockᵀ and copies the accumulator into the result block, which the pipeline writes back exactly
  there. Everything is stated at the contents `V` the region is entered from, and for any float instance.
-/
import proofs.«106228_j62697932587275_1_alg».proof.Proof.Gen.Kernel.Launch
import proofs.«106228_j62697932587275_1_alg».proof.Proof.Gen.Kernel.Skeleton
import proofs.«106228_j62697932587275_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A load through the whole-shape rectangle of what a list of stores left whose LAST store went through that
    rectangle reads that store's payload, whatever the earlier stores were. -/
theorem View.readCov_cons_unit_zero {Val : EltTy → Type} [∀ e, Nonempty (Val e)] {S : Shape} {e : EltTy} {sig : RefSig} {κ : Kind} {sp : Space}
    (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self .., by
    show y ∈ (Rect.whole S).set; rw [Rect.set_whole]; exact Finset.mem_univ y⟩), View.canon_cons_unit_zero rfl, View.ld_unit_zero rfl]

/-! ## The body's two branches, decided over the grid -/

/-- The accumulator is zeroed where the reduction coordinate is 0, -/
abbrev cond1_0 (i : grid1.Coords) : Prop := (Scalar.cmpi .ne (Scalar.extui (Scalar.cmpi .eq (BitVec.ofNat 32 (i 2).val) 0#32)) 0#32) = 1#1
/-- and the correction is added and the result block stored where it is the last one, 3. -/
abbrev cond1_1 (i : grid1.Coords) : Prop := k1_cond2 i = 1#1
/-- In point numbers (the reduction coordinate is the point number mod 4): -/
theorem hcond1_0 : ∀ t : Fin cfg1.N, cond1_0 (grid1.coords t) ↔ t.val % 4 = 0 :=
  (by decide +kernel : ∀ t : Fin grid1.N, cond1_0 (grid1.coords t) ↔ t.val % 4 = 0)
theorem hcond1_1 : ∀ t : Fin cfg1.N, cond1_1 (grid1.coords t) ↔ t.val % 4 = 3 :=
  (by decide +kernel : ∀ t : Fin grid1.N, cond1_1 (grid1.coords t) ↔ t.val % 4 = 3)
/-- The result window is idle, and not written back, exactly at the points that do not store it. -/
theorem idle1_4 : ∀ t : Fin cfg1.N, ¬t.val % 4 = 3 → cfg1.idle 4 (grid1.coords t) = true :=
  (by decide +kernel : ∀ t : Fin grid1.N, ¬t.val % 4 = 3 → cfg1.idle 4 (grid1.coords t) = true)
theorem noflush1_4 : ∀ t : Fin cfg1.N, ¬t.val % 4 = 3 → (cfg1.win 4).flush t = false :=
  (by decide +kernel : ∀ t : Fin grid1.N, ¬t.val % 4 = 3 → win1_4.flush t = false)
theorem live1_4 : ∀ t : Fin cfg1.N, t.val % 4 = 3 → cfg1.idle 4 (grid1.coords t) = false :=
  (by decide +kernel : ∀ t : Fin grid1.N, t.val % 4 = 3 → cfg1.idle 4 (grid1.coords t) = false)

/-! ## The body's run, case by case

On whole staging memrefs at named contents. The accumulator `arg8` is loaded and stored whole, so each case leaves
in it a payload of what it held; the result buffer `arg7` is stored, whole, in the last case only. -/

set_option maxHeartbeats 1000000 in
/-- Reduction step 0: the accumulator, whatever it held, ends at the product added to the zero block; the result
    buffer is untouched. -/
theorem run1_first (c : Dev nD) (E : Set ℕ) (i : grid1.Coords)
    (arg3 : Memref sig .tc .vmem S1024x1024 .f32) (harg3 : arg3.IsWhole) (arg4 : Memref sig .tc .vmem S1024x1024 .f32) (harg4 : arg4.IsWhole)
    (arg5 : Memref sig .tc .vmem S1024x56 .f32) (harg5 : arg5.IsWhole) (arg6 : Memref sig .tc .vmem S1024x56 .f32) (harg6 : arg6.IsWhole)
    (arg7 : Memref sig .tc .vmem S1024x1024 .f32) (harg7 : arg7.IsWhole) (arg8 : Memref sig .tc .vmem S1024x1024 .f32) (harg8 : arg8.IsWhole)
    (hc0 : cond1_0 i) (hc1 : ¬cond1_1 i)
    (x : Vec F S1024x1024 .f32) (w : Vec F S1024x1024 .f32) (lo : Vec F S1024x56 .f32) (bb : Vec F S1024x56 .f32) (o : Vec F S1024x1024 .f32)
    (K : PUnit → sProp 𝕄) :
    iprop(owns (c : Thread nD τ) arg3 fullShare x ∗ owns (c : Thread nD τ) arg4 fullShare w ∗ owns (c : Thread nD τ) arg5 fullShare lo
        ∗ owns (c : Thread nD τ) arg6 fullShare bb ∗ owns (c : Thread nD τ) arg7 fullShare o ∗ (∃ d, owns (c : Thread nD τ) arg8 fullShare d)
        ∗ (iprop(owns (c : Thread nD τ) arg3 fullShare x ∗ owns (c : Thread nD τ) arg4 fullShare w ∗ owns (c : Thread nD τ) arg5 fullShare lo
            ∗ owns (c : Thread nD τ) arg6 fullShare bb ∗ owns (c : Thread nD τ) arg7 fullShare o
            ∗ owns (c : Thread nD τ) arg8 fullShare (k1_pay2 x w k1_pay1)) -∗ K ⟨⟩))
      ⊢ wp frame (wpE (defs₀ (F := F)) Variants.none c none) E
          (cc1_main_kernel i arg3 harg3 arg4 harg4 arg5 harg5 arg6 harg6 arg7 harg7 arg8 harg8) K := by
  simp only [cc1_main_kernel_eq_skeleton]; unfold cc1_main_kernel_skel
  unfold owns
  iintro ⟨⟨%f3, %hf3, H3⟩, ⟨%f4, %hf4, H4⟩, ⟨%f5, %hf5, H5⟩, ⟨%f6, %hf6, H6⟩, ⟨%f7, %hf7, H7⟩, ⟨%d8, %f8, -, H8⟩, Hk⟩
  obtain rfl := harg3.eq_unread hf3; obtain rfl := harg4.eq_unread hf4; obtain rfl := harg5.eq_unread hf5
  obtain rfl := harg6.eq_unread hf6; obtain rfl := harg7.eq_unread hf7
  sl_exec (disch := first | exact hc0 | exact hc1)
  sl_step
  iapply Hk
  have hz : (![0, 0] : Fin 2 → Nat) = fun _ => 0 := by funext a; match a with | ⟨0, _⟩ => rfl | ⟨1, _⟩ => rfl
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  iexists _; isplitr
  swap; · iexact H8
  ipureintro
  sl_unfold_words
  refine (View.read_writes_eq_canon _ _ _ (fun y => ⟨_, List.mem_cons_self .., View.mem_set_unit_zero hz inb_S1024x1024_S1024x1024_0_0 y⟩)).trans ?_
  rw [View.canon_cons_unit_zero (S := S1024x1024) hz]
  simp only [View.readAt_eq_ld, Memref.IsWhole.read_unread, View.ld_unit_zero (S := S1024x1024) hz,
    View.readCov_unit_zero (S := S1024x1024) _ hz]

set_option maxHeartbeats 1000000 in
/-- Reduction steps 1 and 2: the accumulator ends at the product added to what it held; the result buffer is
    untouched. -/
theorem run1_mid (c : Dev nD) (E : Set ℕ) (i : grid1.Coords)
    (arg3 : Memref sig .tc .vmem S1024x1024 .f32) (harg3 : arg3.IsWhole) (arg4 : Memref sig .tc .vmem S1024x1024 .f32) (harg4 : arg4.IsWhole)
    (arg5 : Memref sig .tc .vmem S1024x56 .f32) (harg5 : arg5.IsWhole) (arg6 : Memref sig .tc .vmem S1024x56 .f32) (harg6 : arg6.IsWhole)
    (arg7 : Memref sig .tc .vmem S1024x1024 .f32) (harg7 : arg7.IsWhole) (arg8 : Memref sig .tc .vmem S1024x1024 .f32) (harg8 : arg8.IsWhole)
    (hc0 : ¬cond1_0 i) (hc1 : ¬cond1_1 i)
    (x : Vec F S1024x1024 .f32) (w : Vec F S1024x1024 .f32) (lo : Vec F S1024x56 .f32) (bb : Vec F S1024x56 .f32) (o : Vec F S1024x1024 .f32)
    (acc : Vec F S1024x1024 .f32) (K : PUnit → sProp 𝕄) :
    iprop(owns (c : Thread nD τ) arg3 fullShare x ∗ owns (c : Thread nD τ) arg4 fullShare w ∗ owns (c : Thread nD τ) arg5 fullShare lo
        ∗ owns (c : Thread nD τ) arg6 fullShare bb ∗ owns (c : Thread nD τ) arg7 fullShare o ∗ owns (c : Thread nD τ) arg8 fullShare acc
        ∗ (iprop(owns (c : Thread nD τ) arg3 fullShare x ∗ owns (c : Thread nD τ) arg4 fullShare w ∗ owns (c : Thread nD τ) arg5 fullShare lo
            ∗ owns (c : Thread nD τ) arg6 fullShare bb ∗ owns (c : Thread nD τ) arg7 fullShare o
            ∗ owns (c : Thread nD τ) arg8 fullShare (k1_pay2 x w acc)) -∗ K ⟨⟩))
      ⊢ wp frame (wpE (defs₀ (F := F)) Variants.none c none) E
          (cc1_main_kernel i arg3 harg3 arg4 harg4 arg5 harg5 arg6 harg6 arg7 harg7 arg8 harg8) K := by
  simp only [cc1_main_kernel_eq_skeleton]; unfold cc1_main_kernel_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg3.eq_unread hf3; obtain rfl := harg4.eq_unread hf4; obtain rfl := harg5.eq_unread hf5
  obtain rfl := harg6.eq_unread hf6; obtain rfl := harg7.eq_unread hf7; obtain rfl := harg8.eq_unread hf8
  sl_exec (disch := first | exact hc0 | exact hc1)
  sl_step
  iapply Hk
  have hz : (![0, 0] : Fin 2 → Nat) = fun _ => 0 := by funext a; match a with | ⟨0, _⟩ => rfl | ⟨1, _⟩ => rfl
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  iexists _; isplitr
  swap; · iexact H8
  ipureintro
  sl_unfold_words
  refine (View.read_writes_eq_canon _ _ _ (fun y => ⟨_, List.mem_singleton_self _, View.mem_set_unit_zero hz inb_S1024x1024_S1024x1024_0_0 y⟩)).trans ?_
  rw [View.canon_unit_zero (S := S1024x1024) hz]
  simp only [View.readAt_eq_ld, Memref.IsWhole.read_unread, View.ld_unit_zero (S := S1024x1024) hz]

set_option maxHeartbeats 1000000 in
/-- Reduction step 3: the accumulator ends at the rank-56 correction added to the product added to what it held,
    and the result buffer, whatever it held, ends at the same block. -/
theorem run1_last (c : Dev nD) (E : Set ℕ) (i : grid1.Coords)
    (arg3 : Memref sig .tc .vmem S1024x1024 .f32) (harg3 : arg3.IsWhole) (arg4 : Memref sig .tc .vmem S1024x1024 .f32) (harg4 : arg4.IsWhole)
    (arg5 : Memref sig .tc .vmem S1024x56 .f32) (harg5 : arg5.IsWhole) (arg6 : Memref sig .tc .vmem S1024x56 .f32) (harg6 : arg6.IsWhole)
    (arg7 : Memref sig .tc .vmem S1024x1024 .f32) (harg7 : arg7.IsWhole) (arg8 : Memref sig .tc .vmem S1024x1024 .f32) (harg8 : arg8.IsWhole)
    (hc0 : ¬cond1_0 i) (hc1 : cond1_1 i)
    (x : Vec F S1024x1024 .f32) (w : Vec F S1024x1024 .f32) (lo : Vec F S1024x56 .f32) (bb : Vec F S1024x56 .f32)
    (acc : Vec F S1024x1024 .f32) (K : PUnit → sProp 𝕄) :
    iprop(owns (c : Thread nD τ) arg3 fullShare x ∗ owns (c : Thread nD τ) arg4 fullShare w ∗ owns (c : Thread nD τ) arg5 fullShare lo
        ∗ owns (c : Thread nD τ) arg6 fullShare bb ∗ (∃ d, owns (c : Thread nD τ) arg7 fullShare d) ∗ owns (c : Thread nD τ) arg8 fullShare acc
        ∗ (iprop(owns (c : Thread nD τ) arg3 fullShare x ∗ owns (c : Thread nD τ) arg4 fullShare w ∗ owns (c : Thread nD τ) arg5 fullShare lo
            ∗ owns (c : Thread nD τ) arg6 fullShare bb ∗ owns (c : Thread nD τ) arg7 fullShare (k1_pay3 lo bb (k1_pay2 x w acc))
            ∗ owns (c : Thread nD τ) arg8 fullShare (k1_pay3 lo bb (k1_pay2 x w acc))) -∗ K ⟨⟩))
      ⊢ wp frame (wpE (defs₀ (F := F)) Variants.none c none) E
          (cc1_main_kernel i arg3 harg3 arg4 harg4 arg5 harg5 arg6 harg6 arg7 harg7 arg8 harg8) K := by
  simp only [cc1_main_kernel_eq_skeleton]; unfold cc1_main_kernel_skel
  unfold owns
  iintro ⟨⟨%f3, %hf3, H3⟩, ⟨%f4, %hf4, H4⟩, ⟨%f5, %hf5, H5⟩, ⟨%f6, %hf6, H6⟩, ⟨%d7, %f7, -, H7⟩, ⟨%f8, %hf8, H8⟩, Hk⟩
  obtain rfl := harg3.eq_unread hf3; obtain rfl := harg4.eq_unread hf4; obtain rfl := harg5.eq_unread hf5
  obtain rfl := harg6.eq_unread hf6; obtain rfl := harg8.eq_unread hf8
  sl_exec (disch := first | exact hc0 | exact hc1)
  sl_step
  iapply Hk
  have hz : (![0, 0] : Fin 2 → Nat) = fun _ => 0 := by funext a; match a with | ⟨0, _⟩ => rfl | ⟨1, _⟩ => rfl
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr
    swap; · iexact H7
    ipureintro
    sl_unfold_words
    refine (View.read_writes_eq_canon _ _ _ (fun y => ⟨_, List.mem_singleton_self _, View.mem_set_unit_zero hz inb_S1024x1024_S1024x1024_0_0 y⟩)).trans ?_
    rw [View.canon_unit_zero (S := S1024x1024) hz]
    simp only [View.readAt_eq_ld, Memref.IsWhole.read_unread, View.ld_unit_zero (S := S1024x1024) hz, View.ld_unit_zero (S := S1024x56) hz,
      View.readCov_unit_zero (S := S1024x1024) _ hz, View.readCov_cons_unit_zero (S := S1024x1024) _ hz]
  iexists _; isplitr
  swap; · iexact H8
  ipureintro
  sl_unfold_words
  refine (View.read_writes_eq_canon _ _ _ (fun y => ⟨_, List.mem_cons_self .., View.mem_set_unit_zero hz inb_S1024x1024_S1024x1024_0_0 y⟩)).trans ?_
  rw [View.canon_cons_unit_zero (S := S1024x1024) hz]
  simp only [View.readAt_eq_ld, Memref.IsWhole.read_unread, View.ld_unit_zero (S := S1024x1024) hz, View.ld_unit_zero (S := S1024x56) hz,
    View.readCov_unit_zero (S := S1024x1024) _ hz, View.readCov_cons_unit_zero (S := S1024x1024) _ hz]

section Region1

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, whether the pipeline fetched it there or the
    block index did not move since the last fetch. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- The four input blocks at a point, at their literal types: the x block and the W block [1024,1024], the low block
    and the B block [1024,56]. -/
abbrev xb1 (c : Dev nD) (t : Fin cfg1.N) : Vec F S1024x1024 .f32 := iblk1 V c 0 t
abbrev wb1 (c : Dev nD) (t : Fin cfg1.N) : Vec F S1024x1024 .f32 := iblk1 V c 1 t
abbrev lb1 (c : Dev nD) (t : Fin cfg1.N) : Vec F S1024x56 .f32 := iblk1 V c 2 t
abbrev bb1 (c : Dev nD) (t : Fin cfg1.N) : Vec F S1024x56 .f32 := iblk1 V c 3 t

/-! ## The accumulation -/

/-- One point's step on what the accumulator held: the product added, and at reduction step 3 the rank-56
    correction added on top. -/
def step1 (c : Dev nD) (n : ℕ) (h : n < cfg1.N) (s : Vec F S1024x1024 .f32) : Vec F S1024x1024 .f32 :=
  if n % 4 = 3 then k1_pay3 (lb1 V c ⟨n, h⟩) (bb1 V c ⟨n, h⟩) (k1_pay2 (xb1 V c ⟨n, h⟩) (wb1 V c ⟨n, h⟩) s)
  else k1_pay2 (xb1 V c ⟨n, h⟩) (wb1 V c ⟨n, h⟩) s

/-- What the accumulator holds after the body at point `n`: at a point with reduction step 0 the step from the zero
    block, at any other the step from what the point before left. -/
def acc1 (c : Dev nD) : (n : ℕ) → n < cfg1.N → Vec F S1024x1024 .f32
  | 0, h => k1_pay2 (xb1 V c ⟨0, h⟩) (wb1 V c ⟨0, h⟩) k1_pay1
  | n + 1, h =>
    if (n + 1) % 4 = 0 then k1_pay2 (xb1 V c ⟨n + 1, h⟩) (wb1 V c ⟨n + 1, h⟩) k1_pay1
    else step1 V c (n + 1) h (acc1 c n (Nat.lt_of_succ_lt h))

theorem acc1_reset (c : Dev nD) (t : Fin cfg1.N) (h0 : t.val % 4 = 0) :
    acc1 V c t.val t.isLt = k1_pay2 (xb1 V c t) (wb1 V c t) k1_pay1 := by
  obtain ⟨n, hn⟩ := t
  cases n with
  | zero => rfl
  | succ n => exact (if_pos h0)

theorem acc1_step (c : Dev nD) (t : Fin cfg1.N) (h0 : ¬t.val % 4 = 0) :
    acc1 V c t.val t.isLt = step1 V c t.val t.isLt (acc1 V c (t.val - 1) (Nat.lt_of_le_of_lt (Nat.sub_le _ _) t.isLt)) := by
  obtain ⟨n, hn⟩ := t
  cases n with
  | zero => exact absurd (Nat.zero_mod _) h0
  | succ n => exact (if_neg h0)

theorem step1_mid (c : Dev nD) (t : Fin cfg1.N) (h1 : ¬t.val % 4 = 3) (s : Vec F S1024x1024 .f32) :
    step1 V c t.val t.isLt s = k1_pay2 (xb1 V c t) (wb1 V c t) s := if_neg h1
theorem step1_last (c : Dev nD) (t : Fin cfg1.N) (h1 : t.val % 4 = 3) (s : Vec F S1024x1024 .f32) :
    step1 V c t.val t.isLt s = k1_pay3 (lb1 V c t) (bb1 V c t) (k1_pay2 (xb1 V c t) (wb1 V c t) s) := if_pos h1

/-! ## The scratch accumulator and the invariant -/

/-- The kernel's scratch accumulator, a whole scoped buffer of its own. -/
abbrev scM1 : Memref sig .tc .vmem S1024x1024 .f32 := Memref.whole cc1_scratch0

/-- The scoped buffers the second kernel neither stages nor uses as scratch, each at some contents. -/
abbrev rest1 (c : Dev nD) : sProp 𝕄 :=
  Pipeline.scopedRestBut (Ix := Unit) (Name := ℕ) (U := UR sig nD τ) (Lvl := ℕ) (Val := Elt F) spec1 c [cc1_scratch0]

/-- The scoped rest with the scratch accumulator split off as an owned memref. -/
theorem PhiA1_eq (c : Dev nD) :
    (Pipeline.ΦA spec1 c : sProp 𝕄)
      = iprop(((∃ d, owns (c : Thread nD τ) scM1 fullShare d) ∗ rest1 c) ∗ (∃ r, prngReg c r)) := by
  unfold Pipeline.ΦA
  rw [Pipeline.scopedRest_split_of_list spec1 c [cc1_scratch0] (by decide) (by decide)]
  simp only [scM1, owns_whole, bigSepL]
  rfl

/-- The invariant before position `n`: before the first point every scoped buffer is at anything; afterwards the
    accumulator holds what the point before left in it. -/
def Phi1 (c : Dev nD) : (n : ℕ) → n ≤ cfg1.N → sProp 𝕄
  | 0, _ => Pipeline.ΦA spec1 c
  | n + 1, hn => iprop((owns (c : Thread nD τ) scM1 fullShare (acc1 V c n hn) ∗ rest1 c) ∗ (∃ r, prngReg c r))

theorem Phi1_zero (c : Dev nD) (n : ℕ) (h : n ≤ cfg1.N) (hz : n = 0) : Phi1 V c n h = Pipeline.ΦA spec1 c := by
  subst hz; rfl
theorem Phi1_succ (c : Dev nD) (n : ℕ) (hn : n < cfg1.N) :
    Phi1 V c (n + 1) hn = iprop((owns (c : Thread nD τ) scM1 fullShare (acc1 V c n hn) ∗ rest1 c) ∗ (∃ r, prngReg c r)) := rfl
theorem Phi1_pos (c : Dev nD) (n : ℕ) (h : n ≤ cfg1.N) (hz : n ≠ 0) :
    Phi1 V c n h = iprop((owns (c : Thread nD τ) scM1 fullShare (acc1 V c (n - 1) (by omega)) ∗ rest1 c) ∗ (∃ r, prngReg c r)) := by
  cases n with
  | zero => exact absurd rfl hz
  | succ n => rfl

/-! ## The proof data -/

/-- The second kernel's proof data on core `c`: the arrays as the region finds them; after the body each input's
    buffer at its block, the result's at the accumulator (read only at the points that store it); the invariant
    `Phi1`; nothing owed, full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => acc1 V c t.val t.isLt
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = acc1 V c t.val t.isLt := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem Phi1_castSucc (c : Dev nD) (t : Fin cfg1.N) :
    (dat1 V c).Φ t.castSucc = Phi1 V c t.val (Nat.le_of_lt t.isLt) := by
  dsimp only [dat1]; simp only [Fin.coe_castSucc]

/-! ## The body obligation -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t ∗ (dat1 V c).leavesExact 3 t
    ∗ (dat1 V c).leavesExact 4 t)

set_option maxHeartbeats 4000000 in
/-- The body at any point. The inputs' buffers hold their blocks; the point number mod 4 says which case runs; the
    invariant hands the accumulator over at what the point before left (at anything before the first point) and
    takes it back at this point's contents; an idle result buffer goes back as it came. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = Phi1 V c (t.val + 1) t.isLt from rfl, Phi1_succ]
  rw [show (dat1 V c).leavesExact 0 t = owns (c : Thread nD τ) (st1_0 t) fullShare ((dat1 V c).after 0 t) from rfl, after1_0,
    show (dat1 V c).leavesExact 1 t = owns (c : Thread nD τ) (st1_1 t) fullShare ((dat1 V c).after 1 t) from rfl, after1_1,
    show (dat1 V c).leavesExact 2 t = owns (c : Thread nD τ) (st1_2 t) fullShare ((dat1 V c).after 2 t) from rfl, after1_2,
    show (dat1 V c).leavesExact 3 t = owns (c : Thread nD τ) (st1_3 t) fullShare ((dat1 V c).after 3 t) from rfl, after1_3]
  by_cases h0 : t.val % 4 = 0
  · have h1 : ¬t.val % 4 = 3 := by omega
    rw [Dat.leavesExact_idle (dat1 V c) 4 t (idle1_4 t h1) (noflush1_4 t h1), acc1_reset V c t h0]
    by_cases hz : t.val = 0
    · rw [Phi1_castSucc V c t, Phi1_zero V c _ _ hz, PhiA1_eq]
      iintro ⟨⟨⟨HS, Hrest⟩, Hg⟩, Ho, ⟨%d0, H0⟩, ⟨%d1, H1⟩, ⟨%d2, H2⟩, ⟨%d3, H3⟩, ⟨%d4, H4⟩⟩
      iapply (run1_first c Set.univ (grid1.coords t) _ _ _ _ _ _ _ _ _ _ _ _ ((hcond1_0 t).mpr h0) (fun h => h1 ((hcond1_1 t).mp h))
        (xb1 V c t) (wb1 V c t) (lb1 V c t) (bb1 V c t) _ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      isplitl [H2]; · iexact H2
      isplitl [H3]; · iexact H3
      iexists _; iexact H4
    · rw [Phi1_castSucc V c t, Phi1_pos V c _ _ hz]
      iintro ⟨⟨⟨HS, Hrest⟩, Hg⟩, Ho, ⟨%d0, H0⟩, ⟨%d1, H1⟩, ⟨%d2, H2⟩, ⟨%d3, H3⟩, ⟨%d4, H4⟩⟩
      iapply (run1_first c Set.univ (grid1.coords t) _ _ _ _ _ _ _ _ _ _ _ _ ((hcond1_0 t).mpr h0) (fun h => h1 ((hcond1_1 t).mp h))
        (xb1 V c t) (wb1 V c t) (lb1 V c t) (bb1 V c t) _ _)
      isplitl [H0]; · iexact H0
      isplitl [H1]; · iexact H1
      isplitl [H2]; · iexact H2
      isplitl [H3]; · iexact H3
      isplitl [H4]; · iexact H4
      isplitl [HS]; · iexists _; iexact HS
      iintro ⟨H0, H1, H2, H3, H4, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun e => h0 (by rw [e])
    by_cases h1 : t.val % 4 = 3
    · rw [show (dat1 V c).leavesExact 4 t = owns (c : Thread nD τ) (st1_4 t) fullShare ((dat1 V c).after 4 t) from by
        unfold Dat.leavesExact; rw [live1_4 t h1], after1_4, acc1_step V c t h0, step1_last V c t h1]
      rw [Phi1_castSucc V c t, Phi1_pos V c _ _ hz]
      iintro ⟨⟨⟨HS, Hrest⟩, Hg⟩, Ho, ⟨%d0, H0⟩, ⟨%d1, H1⟩, ⟨%d2, H2⟩, ⟨%d3, H3⟩, ⟨%d4, H4⟩⟩
      iapply (run1_last c Set.univ (grid1.coords t) _ _ _ _ _ _ _ _ _ _ _ _ (fun h => h0 ((hcond1_0 t).mp h)) ((hcond1_1 t).mpr h1)
        (xb1 V c t) (wb1 V c t) (lb1 V c t) (bb1 V c t) _ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      isplitl [H2]; · iexact H2
      isplitl [H3]; · iexact H3
      iexact H4
    · rw [Dat.leavesExact_idle (dat1 V c) 4 t (idle1_4 t h1) (noflush1_4 t h1), acc1_step V c t h0, step1_mid V c t h1]
      rw [Phi1_castSucc V c t, Phi1_pos V c _ _ hz]
      iintro ⟨⟨⟨HS, Hrest⟩, Hg⟩, Ho, ⟨%d0, H0⟩, ⟨%d1, H1⟩, ⟨%d2, H2⟩, ⟨%d3, H3⟩, ⟨%d4, H4⟩⟩
      iapply (run1_mid c Set.univ (grid1.coords t) _ _ _ _ _ _ _ _ _ _ _ _ (fun h => h0 ((hcond1_0 t).mp h)) (fun h => h1 ((hcond1_1 t).mp h))
        (xb1 V c t) (wb1 V c t) (lb1 V c t) (bb1 V c t) _ _ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the region is entered with is the invariant before the first point, -/
theorem hin1 (c : Dev nD) : Pipeline.ΦA spec1 c ⊢ (dat1 V c).Φ 0 := by
  rw [show (dat1 V c).Φ 0 = Phi1 V c 0 (Nat.zero_le _) from rfl, Phi1_zero V c 0 _ rfl]

/-- and after the last point the invariant gives it back, the accumulator's contents forgotten. -/
theorem hout1 (c : Dev nD) : (dat1 V c).Φ (Fin.last cfg1.N) ⊢ Pipeline.ΦA spec1 c := by
  rw [show (dat1 V c).Φ (Fin.last cfg1.N) = Phi1 V c (Fin.last cfg1.N).val (Nat.le_of_lt_succ (Fin.last cfg1.N).isLt) from rfl,
    Phi1_pos V c _ _ (by rw [Fin.val_last]; have : cfg1.N = 128 := N_1; omega), PhiA1_eq]
  iintro ⟨⟨HS, Hrest⟩, Hg⟩
  isplitl [HS Hrest]
  · isplitl [HS]; · iexists _; iexact HS
    iexact Hrest
  iexact Hg

end Region1

end Cert.Kernel.Gen

end
-- ==== Proof.RunB.lean ====
/-
  The kernel program's run: @main is twenty host operations, the first kernel's region, the second kernel's region,
  and one last reshape. The buffers' contents at each boundary are named by a fold from the launch memory — a host
  stretch's operations applied, a region's arrays at what its write-backs leave — and the run is launched over
  those four segments. Every weakly fair execution terminates with every unscoped buffer at the last boundary's
  contents; the arguments are read back through the fold to their launch contents, and the result buffer to the
  reshape of what the second region leaves in its output array.
-/
import proofs.«106228_j62697932587275_1_alg».proof.Proof.Region0B
import proofs.«106228_j62697932587275_1_alg».proof.Proof.Region1B
import proofs.«106228_j62697932587275_1_alg».proof.Proof.Gen.Kernel.Regions
import Idealize.ShloMosaic.Lib.StableHlo.Run

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => (s₀ m ρ).mem ((c : Dev nD), b)
/-- After the host operations before the first region. -/
abbrev W1 : Dev nD → Valuation τ sig (Elt F) := fun c => StableHlo.after hostOps0 (W0 m ρ c)
/-- The same read at the TensorCore's references: what the first region's proof data take. -/
abbrev A1 : (c : Dev nD) → (b : Ref sig .tc) → Buf (Elt F) ((c : Thread nD τ).loc b) := fun c b => W1 m ρ c b
/-- At the first region's exit: its arrays at what its write-backs leave, every other buffer as entered. -/
def W2 (c : Dev nD) : Valuation τ sig (Elt F) :=
  Pipeline.withArrays spec0 c (W1 m ρ c) fun w => (dat0 (A1 m ρ) c).arrAt w cfg0.N
theorem W2_arr (c : Dev nD) (w : Fin cfg0.W) :
    W2 m ρ c (Proc.devRef .tc (Pipeline.arrRef spec0 w)) = (dat0 (A1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references: what the second region's proof data take. -/
abbrev A2 : (c : Dev nD) → (b : Ref sig .tc) → Buf (Elt F) ((c : Thread nD τ).loc b) := fun c b => W2 m ρ c b
theorem hF0 (c : Dev nD) (w : Fin cfg0.W) : (dat0 (A1 m ρ) c).arrAt w cfg0.N = A2 m ρ c (Pipeline.arrRef spec0 w) :=
  (W2_arr m ρ c w).symm
theorem hrest0 (c : Dev nD) : ∀ b, b ∉ Finset.univ.image (Pipeline.arrRef spec0) → A2 m ρ c b = A1 m ρ c b :=
  fun b hb => W2_of_ne m ρ c b fun w e => hb (Finset.mem_image.mpr ⟨w, Finset.mem_univ _, e⟩)

/-- At the second region's exit: its arrays at what its write-backs leave, every other buffer as entered. -/
def W3 (c : Dev nD) : Valuation τ sig (Elt F) :=
  Pipeline.withArrays spec1 c (W2 m ρ c) fun w => (dat1 (A2 m ρ) c).arrAt w cfg1.N
theorem W3_arr (c : Dev nD) (w : Fin cfg1.W) :
    W3 m ρ c (Proc.devRef .tc (Pipeline.arrRef spec1 w)) = (dat1 (A2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev A3 : (c : Dev nD) → (b : Ref sig .tc) → Buf (Elt F) ((c : Thread nD τ).loc b) := fun c b => W3 m ρ c b
theorem hF1 (c : Dev nD) (w : Fin cfg1.W) : (dat1 (A2 m ρ) c).arrAt w cfg1.N = A3 m ρ c (Pipeline.arrRef spec1 w) :=
  (W3_arr m ρ c w).symm
theorem hrest1 (c : Dev nD) : ∀ b, b ∉ Finset.univ.image (Pipeline.arrRef spec1) → A3 m ρ c b = A2 m ρ c b :=
  fun b hb => W3_of_ne m ρ c b fun w e => hb (Finset.mem_image.mpr ⟨w, Finset.mem_univ _, e⟩)

/-- After the last host operation: the end. -/
abbrev W4 : Dev nD → Valuation τ sig (Elt F) := fun c => StableHlo.after hostOps2 (W3 m ρ c)

/-! ## What each boundary keeps -/

/-- A buffer no operation of the first host stretch writes is as launched after it, -/
theorem W1_keep (c : Dev nD) (r : Ref sig .tc) (h : r ∉ hostOps0_W) : W1 m ρ c (Proc.devRef .tc r) = W0 m ρ c (Proc.devRef .tc r) :=
  StableHlo.after_of_writes_sub hostOps0 _ hostOps0_writes h
/-- and one the last reshape does not write is unchanged by it. -/
theorem W4_keep (c : Dev nD) (r : Ref sig .tc) (h : r ∉ hostOps2_W) : W4 m ρ c (Proc.devRef .tc r) = W3 m ρ c (Proc.devRef .tc r) :=
  StableHlo.after_of_writes_sub hostOps2 _ hostOps2_writes h

/-- An argument that is no window's array of either region reaches the end as launched. -/
theorem W4_arg (c : Dev nD) (r : Ref sig .tc) (h2 : r ∉ hostOps2_W) (h1 : ∀ w, Pipeline.arrRef spec1 w ≠ r)
    (h0 : ∀ w, Pipeline.arrRef spec0 w ≠ r) (hh : r ∉ hostOps0_W) :
    W4 m ρ c (Proc.devRef .tc r) = m ((c : Thread nD τ).loc r) :=
  (W4_keep m ρ c r h2).trans <| (W3_of_ne m ρ c r h1).trans <| (W2_of_ne m ρ c r h0).trans <| (W1_keep m ρ c r hh).trans rfl

theorem W4_main_arg0 (c : Dev nD) : W4 m ρ c (Proc.devRef .tc main_arg0) = m ((c : Thread nD τ).loc main_arg0) :=
  W4_arg m ρ c main_arg0 (by decide) (by decide) (by decide) (by decide)
/-- The base weight is the second region's window 1, an input: the region leaves it as it found it. -/
theorem W4_main_arg1 (c : Dev nD) : W4 m ρ c (Proc.devRef .tc main_arg1) = m ((c : Thread nD τ).loc main_arg1) :=
  (W4_keep m ρ c main_arg1 (by decide)).trans <|
    ((W3_arr m ρ c 1).trans (((dat1 (A2 m ρ) c).arrAt_in 1 rfl _).trans (A_eq1 (A2 m ρ) c 1))).trans <|
    (W2_of_ne m ρ c main_arg1 (by decide)).trans <| (W1_keep m ρ c main_arg1 (by decide)).trans rfl
theorem W4_main_arg2 (c : Dev nD) : W4 m ρ c (Proc.devRef .tc main_arg2) = m ((c : Thread nD τ).loc main_arg2) :=
  W4_arg m ρ c main_arg2 (by decide) (by decide) (by decide) (by decide)
theorem W4_main_arg3 (c : Dev nD) : W4 m ρ c (Proc.devRef .tc main_arg3) = m ((c : Thread nD τ).loc main_arg3) :=
  W4_arg m ρ c main_arg3 (by decide) (by decide) (by decide) (by decide)
theorem W4_main_arg4 (c : Dev nD) : W4 m ρ c (Proc.devRef .tc main_arg4) = m ((c : Thread nD τ).loc main_arg4) :=
  W4_arg m ρ c main_arg4 (by decide) (by decide) (by decide) (by decide)
theorem W4_main_arg5 (c : Dev nD) : W4 m ρ c (Proc.devRef .tc main_arg5) = m ((c : Thread nD τ).loc main_arg5) :=
  W4_arg m ρ c main_arg5 (by decide) (by decide) (by decide) (by decide)
theorem W4_main_arg6 (c : Dev nD) : W4 m ρ c (Proc.devRef .tc main_arg6) = m ((c : Thread nD τ).loc main_arg6) :=
  W4_arg m ρ c main_arg6 (by decide) (by decide) (by decide) (by decide)
theorem W4_main_arg7 (c : Dev nD) : W4 m ρ c (Proc.devRef .tc main_arg7) = m ((c : Thread nD τ).loc main_arg7) :=
  W4_arg m ρ c main_arg7 (by decide) (by decide) (by decide) (by decide)
theorem W4_main_arg8 (c : Dev nD) : W4 m ρ c (Proc.devRef .tc main_arg8) = m ((c : Thread nD τ).loc main_arg8) :=
  W4_arg m ρ c main_arg8 (by decide) (by decide) (by decide) (by decide)

/-- The result buffer ends at the reshape to [4,2048,4096] of what the second region leaves in its output array. -/
theorem W4_result (c : Dev nD) :
    (W4 m ρ c (Proc.devRef .tc main_v19) : S4x2048x4096.Idx → Elt F .f32)
      = shapeCast S4x2048x4096 ((dat1 (A2 m ρ) c).arrAt 4 cfg1.N : S8192x4096.Idx → Elt F .f32) shapeCasts_S8192x4096_S4x2048x4096 := by
  rw [← W3_arr m ρ c 4]
  show StableHlo.after hostOps2 (W3 m ρ c) (Proc.devRef .tc main_v19) = _
  after_results
  rfl

/-! ## The proof data family and the thread state -/

/-- Each region's proof data at its entry contents. -/
def pdats : (p : Fin 2) → (c : Dev nD) → Dat τ (Elt F) Unit ℕ (UR sig nD τ) ℕ (Pipeline.pin (pcfgs (F := F)) adm p) c
  | ⟨0, _⟩ => fun c => dat0 (A1 m ρ) c
  | ⟨1, _⟩ => fun c => dat1 (A2 m ρ) c
abbrev noVar : Variants := Variants.none
/-- No core owes another anything: no level is assigned. -/
abbrev L0 : GSem nD τ sig → Finset Unit := fun _ => ∅
abbrev lv0 : GSem nD τ sig → Unit → ℕ := fun _ _ => 0
/-- What rides beside the buffers through every segment: the generator register at some state, and the core owing
    nothing. -/
abbrev Rr (c : Dev nD) : sProp 𝕄 := iprop((∃ r, prngReg c r) ∗ ∃ W, owes (c : Thread nD τ) (0 : CellTallies nD τ sig Unit) W)
/-- A host stretch as a segment over the unscoped references, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ noVar L0 lv0 :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rr
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tend (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- The first region: entered from every unscoped buffer at `W1`, left at `W2`. Its arrays are split out of the
    unscoped buffers and put back at the exit contents; the generator register goes into the invariant and comes
    out; nothing is owed; the kernel has no semaphore of its own. -/
def reg0 : Pipeline.RegionSeg (pcfgs (F := F)) adm (pdats m ρ) () defs₀ noVar L0 lv0 0 where
  win := launch0.win.to₀
  block_pos := launch0.block_pos
  stage_whole := launch0.stage_whole
  K := PEmpty
  osem k := k.elim
  ho := Pipeline.OwnSemFacts.none _
  hbody c := (body_obligation0 (A1 m ρ) c).loose
  hwaits := Pipeline.hwaits_of_owed_zero _ _ _ _ L0 lv0 0 fun _ _ => rfl
  pre c := iprop(StableHlo.held (c : Thread nD τ) (Pipeline.ucRefs τ sig) (W1 m ρ c) ∗ Rr c)
  post c := iprop(StableHlo.held (c : Thread nD τ) (Pipeline.ucRefs τ sig) (W2 m ρ c) ∗ Rr c)
  X c := iprop(∃ r, prngReg c r)
  Y c := iprop(∃ r, prngReg c r)
  Z c := Pipeline.unscopedRest (Ix := Unit) (Name := ℕ) (U := UR sig nD τ) (Lvl := ℕ) spec0 c (A1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (A1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine Idealize.SL.BI.BIBase.Entails.trans ?_ (hin0 (A1 m ρ) c)
    unfold Pipeline.ΦA
    iintro ⟨Hp, -, Hr⟩
    isplitl [Hr]; · iexact Hr
    iexact Hp
  hout c := by
    rw [Pipeline.ownSems0_none]
    refine Idealize.SL.BI.BIBase.Entails.trans (hout0 (A1 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (A1 m ρ c) (A2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered from every unscoped buffer at `W2`, left at `W3`, in the same way. -/
def reg1 : Pipeline.RegionSeg (pcfgs (F := F)) adm (pdats m ρ) () defs₀ noVar L0 lv0 1 where
  win := launch1.win.to₀
  block_pos := launch1.block_pos
  stage_whole := launch1.stage_whole
  K := PEmpty
  osem k := k.elim
  ho := Pipeline.OwnSemFacts.none _
  hbody c := (body_obligation1 (A2 m ρ) c).loose
  hwaits := Pipeline.hwaits_of_owed_zero _ _ _ _ L0 lv0 1 fun _ _ => rfl
  pre c := iprop(StableHlo.held (c : Thread nD τ) (Pipeline.ucRefs τ sig) (W2 m ρ c) ∗ Rr c)
  post c := iprop(StableHlo.held (c : Thread nD τ) (Pipeline.ucRefs τ sig) (W3 m ρ c) ∗ Rr c)
  X c := iprop(∃ r, prngReg c r)
  Y c := iprop(∃ r, prngReg c r)
  Z c := Pipeline.unscopedRest (Ix := Unit) (Name := ℕ) (U := UR sig nD τ) (Lvl := ℕ) spec1 c (A2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (A2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine Idealize.SL.BI.BIBase.Entails.trans ?_ (hin1 (A2 m ρ) c)
    unfold Pipeline.ΦA
    iintro ⟨Hp, -, Hr⟩
    isplitl [Hr]; · iexact Hr
    iexact Hp
  hout c := by
    rw [Pipeline.ownSems0_none]
    refine Idealize.SL.BI.BIBase.Entails.trans (hout1 (A2 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (A2 m ρ c) (A3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's four segments in order. -/
abbrev items : List (Pipeline.Seg (pcfgs (F := F)) adm (pdats m ρ) () defs₀ noVar L0 lv0) :=
  [ .host (hseg hostOps0 hostOps0_sub hostOps0_fresh (W0 m ρ)),
    .region (reg0 m ρ),
    .region (reg1 m ρ),
    .host (hseg hostOps2 hostOps2_sub hostOps2_fresh (W3 m ρ)) ]
/-- @main is the run of the segments. -/
theorem main_run (c : Dev nD) : main (F := F) c = Pipeline.Seg.run (items m ρ) := (main_chain c).trans (by chain_rfl)

set_option backward.isDefEq.respectTransparency.types false in
/-- THE RUN. From any memory with zero counters, every weakly fair execution of @main on the TensorCores terminates,
    nothing faulting, and in every final state every unscoped buffer holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ noVar L0 lv0 m ρ main (items m ρ)
    (fun c Q => by rw [main_run m ρ c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ Rr c)) (Tₙ := Tend m ρ)
    (hch := ⟨fun _ => .rfl, fun _ => .rfl, fun _ => .rfl, fun _ => .rfl, fun c => by
      show iprop(StableHlo.held (c : Thread nD τ) (Pipeline.ucRefs τ sig) (W4 m ρ c) ∗ Rr c)
        ⊢ iprop(Tend m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L0 lv0 fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- THE FRAME: every argument array ends holding its launch contents. -/
theorem frame_run : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c),
     (h c _ (mem_uc main_arg7 (by decide))).trans (W4_main_arg7 m ρ c),
     (h c _ (mem_uc main_arg8 (by decide))).trans (W4_main_arg8 m ρ c)⟩) (run_all m ρ)

end Cert.Kernel.Gen

end
-- ==== Proof.Region0.lean ====
/-
  The first kernel (the scaled low-rank projection) as a pipeline region: what its accumulator holds after
  every grid point, the invariant that carries it from point to point, the body's run in each of its three
  cases, and the body obligation at every point.

  The grid is 8 row blocks × 4 reduction steps, the reduction step k = t mod 4 innermost. At k = 0 the body zeroes
  the accumulator; at every k it adds x-block · A-blockᵀ; at k = 3 it multiplies by the scale row and stores the
  result block, which the pipeline writes back exactly there. Everything is stated at the contents `V` the region is
  entered from, and for any float instance.
-/
import proofs.«106228_j62697932587275_1_alg».proof.Proof.Gen.KernelIdeal.Launch
import proofs.«106228_j62697932587275_1_alg».proof.Proof.Gen.KernelIdeal.Skeleton
import proofs.«106228_j62697932587275_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two branches, decided over the grid -/

/-- The accumulator is zeroed where the reduction coordinate is 0, -/
abbrev cond0_0 (i : grid0.Coords) : Prop := (Scalar.cmpi .ne (Scalar.extui (Scalar.cmpi .eq (BitVec.ofNat 32 (i 1).val) 0#32)) 0#32) = 1#1
/-- and the result block is stored where it is the last one, 3. -/
abbrev cond0_1 (i : grid0.Coords) : Prop := k0_cond2 i = 1#1
/-- In point numbers (the reduction coordinate is the point number mod 4): -/
theorem hcond0_0 : ∀ t : Fin cfg0.N, cond0_0 (grid0.coords t) ↔ t.val % 4 = 0 :=
  (by decide +kernel : ∀ t : Fin grid0.N, cond0_0 (grid0.coords t) ↔ t.val % 4 = 0)
theorem hcond0_1 : ∀ t : Fin cfg0.N, cond0_1 (grid0.coords t) ↔ t.val % 4 = 3 :=
  (by decide +kernel : ∀ t : Fin grid0.N, cond0_1 (grid0.coords t) ↔ t.val % 4 = 3)
/-- The result window is idle, and not written back, exactly at the points that do not store it. -/
theorem idle0_3 : ∀ t : Fin cfg0.N, ¬t.val % 4 = 3 → cfg0.idle 3 (grid0.coords t) = true :=
  (by decide +kernel : ∀ t : Fin grid0.N, ¬t.val % 4 = 3 → cfg0.idle 3 (grid0.coords t) = true)
theorem noflush0_3 : ∀ t : Fin cfg0.N, ¬t.val % 4 = 3 → (cfg0.win 3).flush t = false :=
  (by decide +kernel : ∀ t : Fin grid0.N, ¬t.val % 4 = 3 → win0_3.flush t = false)
theorem live0_3 : ∀ t : Fin cfg0.N, t.val % 4 = 3 → cfg0.idle 3 (grid0.coords t) = false :=
  (by decide +kernel : ∀ t : Fin grid0.N, t.val % 4 = 3 → cfg0.idle 3 (grid0.coords t) = false)

/-! ## The body's run, case by case

On whole staging memrefs at named contents. The accumulator `arg6` is loaded and stored whole, so each case leaves
in it one payload of what it held; the result buffer `arg5` is stored, whole, in the last case only. -/

set_option maxHeartbeats 1000000 in
/-- Reduction step 0: the accumulator, whatever it held, ends at the product added to the zero block; the result
    buffer is untouched. -/
theorem run0_first (c : Dev nD) (E : Set ℕ) (i : grid0.Coords)
    (arg2 : Memref sig .tc .vmem S1024x1024 .f32) (harg2 : arg2.IsWhole) (arg3 : Memref sig .tc .vmem S56x1024 .f32) (harg3 : arg3.IsWhole)
    (arg4 : Memref sig .tc .vmem S1x56 .f32) (harg4 : arg4.IsWhole) (arg5 : Memref sig .tc .vmem S1024x56 .f32) (harg5 : arg5.IsWhole)
    (arg6 : Memref sig .tc .vmem S1024x56 .f32) (harg6 : arg6.IsWhole)
    (hc0 : cond0_0 i) (hc1 : ¬cond0_1 i)
    (x : Vec F S1024x1024 .f32) (a : Vec F S56x1024 .f32) (s : Vec F S1x56 .f32) (o : Vec F S1024x56 .f32)
    (K : PUnit → sProp 𝕄) :
    iprop(owns (c : Thread nD τ) arg2 fullShare x ∗ owns (c : Thread nD τ) arg3 fullShare a ∗ owns (c : Thread nD τ) arg4 fullShare s
        ∗ owns (c : Thread nD τ) arg5 fullShare o ∗ (∃ d, owns (c : Thread nD τ) arg6 fullShare d)
        ∗ (iprop(owns (c : Thread nD τ) arg2 fullShare x ∗ owns (c : Thread nD τ) arg3 fullShare a ∗ owns (c : Thread nD τ) arg4 fullShare s
            ∗ owns (c : Thread nD τ) arg5 fullShare o ∗ owns (c : Thread nD τ) arg6 fullShare (k0_pay2 x a k0_pay1)) -∗ K ⟨⟩))
      ⊢ wp frame (wpE (defs₀ (F := F)) Variants.none c none) E (cc0_lowrank_kernel i arg2 harg2 arg3 harg3 arg4 harg4 arg5 harg5 arg6 harg6) K := by
  simp only [cc0_lowrank_kernel_eq_skeleton]; unfold cc0_lowrank_kernel_skel
  unfold owns
  iintro ⟨⟨%f2, %hf2, H2⟩, ⟨%f3, %hf3, H3⟩, ⟨%f4, %hf4, H4⟩, ⟨%f5, %hf5, H5⟩, ⟨%d6, %f6, -, H6⟩, Hk⟩
  obtain rfl := harg2.eq_unread hf2; obtain rfl := harg3.eq_unread hf3; obtain rfl := harg4.eq_unread hf4
  obtain rfl := harg5.eq_unread hf5
  sl_exec (disch := first | exact hc0 | exact hc1)
  sl_step
  iapply Hk
  have hz : (![0, 0] : Fin 2 → Nat) = fun _ => 0 := by funext a; match a with | ⟨0, _⟩ => rfl | ⟨1, _⟩ => rfl
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  iexists _; isplitr
  swap; · iexact H6
  ipureintro
  sl_unfold_words
  refine (View.read_writes_eq_canon _ _ _ (fun y => ⟨_, List.mem_cons_self .., View.mem_set_unit_zero hz inb_S1024x56_S1024x56_0_0 y⟩)).trans ?_
  rw [View.canon_cons_unit_zero (S := S1024x56) hz]
  simp only [View.readAt_eq_ld, Memref.IsWhole.read_unread, View.ld_unit_zero (S := S1024x1024) hz, View.ld_unit_zero (S := S56x1024) hz,
    View.ld_unit_zero (S := S1024x56) hz, View.readCov_unit_zero (S := S1024x56) _ hz]

set_option maxHeartbeats 1000000 in
/-- Reduction steps 1 and 2: the accumulator ends at the product added to what it held; the result buffer is
    untouched. -/
theorem run0_mid (c : Dev nD) (E : Set ℕ) (i : grid0.Coords)
    (arg2 : Memref sig .tc .vmem S1024x1024 .f32) (harg2 : arg2.IsWhole) (arg3 : Memref sig .tc .vmem S56x1024 .f32) (harg3 : arg3.IsWhole)
    (arg4 : Memref sig .tc .vmem S1x56 .f32) (harg4 : arg4.IsWhole) (arg5 : Memref sig .tc .vmem S1024x56 .f32) (harg5 : arg5.IsWhole)
    (arg6 : Memref sig .tc .vmem S1024x56 .f32) (harg6 : arg6.IsWhole)
    (hc0 : ¬cond0_0 i) (hc1 : ¬cond0_1 i)
    (x : Vec F S1024x1024 .f32) (a : Vec F S56x1024 .f32) (s : Vec F S1x56 .f32) (o : Vec F S1024x56 .f32) (acc : Vec F S1024x56 .f32)
    (K : PUnit → sProp 𝕄) :
    iprop(owns (c : Thread nD τ) arg2 fullShare x ∗ owns (c : Thread nD τ) arg3 fullShare a ∗ owns (c : Thread nD τ) arg4 fullShare s
        ∗ owns (c : Thread nD τ) arg5 fullShare o ∗ owns (c : Thread nD τ) arg6 fullShare acc
        ∗ (iprop(owns (c : Thread nD τ) arg2 fullShare x ∗ owns (c : Thread nD τ) arg3 fullShare a ∗ owns (c : Thread nD τ) arg4 fullShare s
            ∗ owns (c : Thread nD τ) arg5 fullShare o ∗ owns (c : Thread nD τ) arg6 fullShare (k0_pay2 x a acc)) -∗ K ⟨⟩))
      ⊢ wp frame (wpE (defs₀ (F := F)) Variants.none c none) E (cc0_lowrank_kernel i arg2 harg2 arg3 harg3 arg4 harg4 arg5 harg5 arg6 harg6) K := by
  simp only [cc0_lowrank_kernel_eq_skeleton]; unfold cc0_lowrank_kernel_skel
  unfold owns
  iintro ⟨⟨%f2, %hf2, H2⟩, ⟨%f3, %hf3, H3⟩, ⟨%f4, %hf4, H4⟩, ⟨%f5, %hf5, H5⟩, ⟨%f6, %hf6, H6⟩, Hk⟩
  obtain rfl := harg2.eq_unread hf2; obtain rfl := harg3.eq_unread hf3; obtain rfl := harg4.eq_unread hf4
  obtain rfl := harg5.eq_unread hf5; obtain rfl := harg6.eq_unread hf6
  sl_exec (disch := first | exact hc0 | exact hc1)
  sl_step
  iapply Hk
  have hz : (![0, 0] : Fin 2 → Nat) = fun _ => 0 := by funext a; match a with | ⟨0, _⟩ => rfl | ⟨1, _⟩ => rfl
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  iexists _; isplitr
  swap; · iexact H6
  ipureintro
  refine (View.read_writes_eq_canon _ _ _ (fun y => ⟨_, List.mem_singleton_self _, View.mem_set_unit_zero hz inb_S1024x56_S1024x56_0_0 y⟩)).trans ?_
  rw [View.canon_unit_zero hz]
  simp only [View.readAt_eq_ld, Memref.IsWhole.read_unread, View.ld_unit_zero (S := S1024x1024) hz, View.ld_unit_zero (S := S56x1024) hz, View.ld_unit_zero (S := S1024x56) hz]
set_option maxHeartbeats 1000000 in
/-- Reduction step 3: the accumulator as before, and the result buffer, whatever it held, ends at the accumulator
    times the scale row. -/
theorem run0_last (c : Dev nD) (E : Set ℕ) (i : grid0.Coords)
    (arg2 : Memref sig .tc .vmem S1024x1024 .f32) (harg2 : arg2.IsWhole) (arg3 : Memref sig .tc .vmem S56x1024 .f32) (harg3 : arg3.IsWhole)
    (arg4 : Memref sig .tc .vmem S1x56 .f32) (harg4 : arg4.IsWhole) (arg5 : Memref sig .tc .vmem S1024x56 .f32) (harg5 : arg5.IsWhole)
    (arg6 : Memref sig .tc .vmem S1024x56 .f32) (harg6 : arg6.IsWhole)
    (hc0 : ¬cond0_0 i) (hc1 : cond0_1 i)
    (x : Vec F S1024x1024 .f32) (a : Vec F S56x1024 .f32) (s : Vec F S1x56 .f32) (acc : Vec F S1024x56 .f32)
    (K : PUnit → sProp 𝕄) :
    iprop(owns (c : Thread nD τ) arg2 fullShare x ∗ owns (c : Thread nD τ) arg3 fullShare a ∗ owns (c : Thread nD τ) arg4 fullShare s
        ∗ (∃ d, owns (c : Thread nD τ) arg5 fullShare d) ∗ owns (c : Thread nD τ) arg6 fullShare acc
        ∗ (iprop(owns (c : Thread nD τ) arg2 fullShare x ∗ owns (c : Thread nD τ) arg3 fullShare a ∗ owns (c : Thread nD τ) arg4 fullShare s
            ∗ owns (c : Thread nD τ) arg5 fullShare (k0_pay3 (k0_pay2 x a acc) s) ∗ owns (c : Thread nD τ) arg6 fullShare (k0_pay2 x a acc)) -∗ K ⟨⟩))
      ⊢ wp frame (wpE (defs₀ (F := F)) Variants.none c none) E (cc0_lowrank_kernel i arg2 harg2 arg3 harg3 arg4 harg4 arg5 harg5 arg6 harg6) K := by
  simp only [cc0_lowrank_kernel_eq_skeleton]; unfold cc0_lowrank_kernel_skel
  unfold owns
  iintro ⟨⟨%f2, %hf2, H2⟩, ⟨%f3, %hf3, H3⟩, ⟨%f4, %hf4, H4⟩, ⟨%d5, %f5, -, H5⟩, ⟨%f6, %hf6, H6⟩, Hk⟩
  obtain rfl := harg2.eq_unread hf2; obtain rfl := harg3.eq_unread hf3; obtain rfl := harg4.eq_unread hf4
  obtain rfl := harg6.eq_unread hf6
  sl_exec (disch := first | exact hc0 | exact hc1)
  sl_step
  iapply Hk
  have hz : (![0, 0] : Fin 2 → Nat) = fun _ => 0 := by funext a; match a with | ⟨0, _⟩ => rfl | ⟨1, _⟩ => rfl
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    sl_unfold_words
    refine (View.read_writes_eq_canon _ _ _ (fun y => ⟨_, List.mem_singleton_self _, View.mem_set_unit_zero hz inb_S1024x56_S1024x56_0_0 y⟩)).trans ?_
    rw [View.canon_unit_zero (S := S1024x56) hz]
    simp only [View.readAt_eq_ld, Memref.IsWhole.read_unread, View.ld_unit_zero (S := S1024x1024) hz, View.ld_unit_zero (S := S56x1024) hz,
      View.ld_unit_zero (S := S1024x56) hz, View.ld_unit_zero (S := S1x56) hz, View.readCov_unit_zero (S := S1024x56) _ hz]
  iexists _; isplitr
  swap; · iexact H6
  ipureintro
  sl_unfold_words
  refine (View.read_writes_eq_canon _ _ _ (fun y => ⟨_, List.mem_singleton_self _, View.mem_set_unit_zero hz inb_S1024x56_S1024x56_0_0 y⟩)).trans ?_
  rw [View.canon_unit_zero (S := S1024x56) hz]
  simp only [View.readAt_eq_ld, Memref.IsWhole.read_unread, View.ld_unit_zero (S := S1024x1024) hz, View.ld_unit_zero (S := S56x1024) hz,
    View.ld_unit_zero (S := S1024x56) hz]

section Region0

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, whether the pipeline fetched it there or the
    block index did not move since the last fetch. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The three input blocks at a point, at their literal types: the x block [1024,1024], the A block [56,1024],
    the scale row [1,56]. -/
abbrev xb0 (c : Dev nD) (t : Fin cfg0.N) : Vec F S1024x1024 .f32 := iblk0 V c 0 t
abbrev ab0 (c : Dev nD) (t : Fin cfg0.N) : Vec F S56x1024 .f32 := iblk0 V c 1 t
abbrev sb0 (c : Dev nD) (t : Fin cfg0.N) : Vec F S1x56 .f32 := iblk0 V c 2 t

/-! ## The accumulation -/

/-- What the accumulator holds after the body at point `n`: at a point with reduction step 0 the product added to
    the zero block, at any other the product added to what the point before left. -/
def acc0 (c : Dev nD) : (n : ℕ) → n < cfg0.N → Vec F S1024x56 .f32
  | 0, h => k0_pay2 (xb0 V c ⟨0, h⟩) (ab0 V c ⟨0, h⟩) k0_pay1
  | n + 1, h =>
    if (n + 1) % 4 = 0 then k0_pay2 (xb0 V c ⟨n + 1, h⟩) (ab0 V c ⟨n + 1, h⟩) k0_pay1
    else k0_pay2 (xb0 V c ⟨n + 1, h⟩) (ab0 V c ⟨n + 1, h⟩) (acc0 c n (Nat.lt_of_succ_lt h))

/-- At a point whose reduction step is 0 the accumulator restarts from zero. -/
theorem acc0_reset (c : Dev nD) (t : Fin cfg0.N) (h0 : t.val % 4 = 0) :
    acc0 V c t.val t.isLt = k0_pay2 (xb0 V c t) (ab0 V c t) k0_pay1 := by
  obtain ⟨n, hn⟩ := t
  cases n with
  | zero => rfl
  | succ n => exact (if_pos h0)

/-- At any other point it continues from what the point before left. -/
theorem acc0_step (c : Dev nD) (t : Fin cfg0.N) (h0 : ¬t.val % 4 = 0) :
    acc0 V c t.val t.isLt = k0_pay2 (xb0 V c t) (ab0 V c t) (acc0 V c (t.val - 1) (Nat.lt_of_le_of_lt (Nat.sub_le _ _) t.isLt)) := by
  obtain ⟨n, hn⟩ := t
  cases n with
  | zero => exact absurd (Nat.zero_mod _) h0
  | succ n => exact (if_neg h0)

/-! ## The scratch accumulator and the invariant -/

/-- The kernel's scratch accumulator, a whole scoped buffer of its own. -/
abbrev scM0 : Memref sig .tc .vmem S1024x56 .f32 := Memref.whole cc0_scratch0

/-- The scoped buffers the first kernel neither stages nor uses as scratch, each at some contents. -/
abbrev rest0 (c : Dev nD) : sProp 𝕄 :=
  Pipeline.scopedRestBut (Ix := Unit) (Name := ℕ) (U := UR sig nD τ) (Lvl := ℕ) (Val := Elt F) spec0 c [cc0_scratch0]

/-- The scoped rest with the scratch accumulator split off as an owned memref. -/
theorem PhiA0_eq (c : Dev nD) :
    (Pipeline.ΦA spec0 c : sProp 𝕄)
      = iprop(((∃ d, owns (c : Thread nD τ) scM0 fullShare d) ∗ rest0 c) ∗ (∃ r, prngReg c r)) := by
  unfold Pipeline.ΦA
  rw [Pipeline.scopedRest_split_of_list spec0 c [cc0_scratch0] (by decide) (by decide)]
  simp only [scM0, owns_whole, bigSepL]
  rfl

/-- The invariant before position `n`: before the first point every scoped buffer is at anything; afterwards the
    accumulator holds what the point before left in it. -/
def Phi0 (c : Dev nD) : (n : ℕ) → n ≤ cfg0.N → sProp 𝕄
  | 0, _ => Pipeline.ΦA spec0 c
  | n + 1, hn => iprop((owns (c : Thread nD τ) scM0 fullShare (acc0 V c n hn) ∗ rest0 c) ∗ (∃ r, prngReg c r))

theorem Phi0_zero (c : Dev nD) (n : ℕ) (h : n ≤ cfg0.N) (hz : n = 0) : Phi0 V c n h = Pipeline.ΦA spec0 c := by
  subst hz; rfl
theorem Phi0_succ (c : Dev nD) (n : ℕ) (hn : n < cfg0.N) :
    Phi0 V c (n + 1) hn = iprop((owns (c : Thread nD τ) scM0 fullShare (acc0 V c n hn) ∗ rest0 c) ∗ (∃ r, prngReg c r)) := rfl
theorem Phi0_pos (c : Dev nD) (n : ℕ) (h : n ≤ cfg0.N) (hz : n ≠ 0) :
    Phi0 V c n h = iprop((owns (c : Thread nD τ) scM0 fullShare (acc0 V c (n - 1) (by omega)) ∗ rest0 c) ∗ (∃ r, prngReg c r)) := by
  cases n with
  | zero => exact absurd rfl hz
  | succ n => rfl

/-! ## The proof data -/

/-- The first kernel's proof data on core `c`: the arrays as the region finds them; after the body each input's buffer
    at its block, the result's at the accumulator times the scale row (read only at the points that store it); the
    invariant `Phi0`; nothing owed, full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => k0_pay3 (acc0 V c t.val t.isLt) (sb0 V c t)
  Φ t := Phi0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = k0_pay3 (acc0 V c t.val t.isLt) (sb0 V c t) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem Phi0_castSucc (c : Dev nD) (t : Fin cfg0.N) :
    (dat0 V c).Φ t.castSucc = Phi0 V c t.val (Nat.le_of_lt t.isLt) := by
  dsimp only [dat0]; simp only [Fin.coe_castSucc]

/-! ## The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t ∗ (dat0 V c).leavesExact 3 t)

set_option maxHeartbeats 4000000 in
/-- The body at any point. The inputs' buffers hold their blocks; the point number mod 4 says which case runs; the
    invariant hands the accumulator over at what the point before left (at anything before the first point) and
    takes it back at this point's contents; an idle result buffer goes back as it came. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = Phi0 V c (t.val + 1) t.isLt from rfl, Phi0_succ]
  rw [show (dat0 V c).leavesExact 0 t = owns (c : Thread nD τ) (st0_0 t) fullShare ((dat0 V c).after 0 t) from rfl, after0_0,
    show (dat0 V c).leavesExact 1 t = owns (c : Thread nD τ) (st0_1 t) fullShare ((dat0 V c).after 1 t) from rfl, after0_1,
    show (dat0 V c).leavesExact 2 t = owns (c : Thread nD τ) (st0_2 t) fullShare ((dat0 V c).after 2 t) from rfl, after0_2]
  by_cases h0 : t.val % 4 = 0
  · have h1 : ¬t.val % 4 = 3 := by omega
    rw [Dat.leavesExact_idle (dat0 V c) 3 t (idle0_3 t h1) (noflush0_3 t h1), acc0_reset V c t h0]
    by_cases hz : t.val = 0
    · rw [Phi0_castSucc V c t, Phi0_zero V c _ _ hz, PhiA0_eq]
      iintro ⟨⟨⟨HS, Hrest⟩, Hg⟩, Ho, ⟨%d0, H0⟩, ⟨%d1, H1⟩, ⟨%d2, H2⟩, ⟨%d3, H3⟩⟩
      iapply (run0_first c Set.univ (grid0.coords t) _ _ _ _ _ _ _ _ _ _ ((hcond0_0 t).mpr h0) (fun h => h1 ((hcond0_1 t).mp h))
        (xb0 V c t) (ab0 V c t) (sb0 V c t) _ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      isplitl [H2]; · iexact H2
      iexists _; iexact H3
    · rw [Phi0_castSucc V c t, Phi0_pos V c _ _ hz]
      iintro ⟨⟨⟨HS, Hrest⟩, Hg⟩, Ho, ⟨%d0, H0⟩, ⟨%d1, H1⟩, ⟨%d2, H2⟩, ⟨%d3, H3⟩⟩
      iapply (run0_first c Set.univ (grid0.coords t) _ _ _ _ _ _ _ _ _ _ ((hcond0_0 t).mpr h0) (fun h => h1 ((hcond0_1 t).mp h))
        (xb0 V c t) (ab0 V c t) (sb0 V c t) _ _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h1 : t.val % 4 = 3
    · rw [show (dat0 V c).leavesExact 3 t = owns (c : Thread nD τ) (st0_3 t) fullShare ((dat0 V c).after 3 t) from by
        unfold Dat.leavesExact; rw [live0_3 t h1], after0_3, acc0_step V c t h0]
      rw [Phi0_castSucc V c t, Phi0_pos V c _ _ hz]
      iintro ⟨⟨⟨HS, Hrest⟩, Hg⟩, Ho, ⟨%d0, H0⟩, ⟨%d1, H1⟩, ⟨%d2, H2⟩, ⟨%d3, H3⟩⟩
      iapply (run0_last c Set.univ (grid0.coords t) _ _ _ _ _ _ _ _ _ _ (fun h => h0 ((hcond0_0 t).mp h)) ((hcond0_1 t).mpr h1)
        (xb0 V c t) (ab0 V c t) (sb0 V c t) _ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      isplitl [H2]; · iexact H2
      iexact H3
    · rw [Dat.leavesExact_idle (dat0 V c) 3 t (idle0_3 t h1) (noflush0_3 t h1), acc0_step V c t h0]
      rw [Phi0_castSucc V c t, Phi0_pos V c _ _ hz]
      iintro ⟨⟨⟨HS, Hrest⟩, Hg⟩, Ho, ⟨%d0, H0⟩, ⟨%d1, H1⟩, ⟨%d2, H2⟩, ⟨%d3, H3⟩⟩
      iapply (run0_mid c Set.univ (grid0.coords t) _ _ _ _ _ _ _ _ _ _ (fun h => h0 ((hcond0_0 t).mp h)) (fun h => h1 ((hcond0_1 t).mp h))
        (xb0 V c t) (ab0 V c t) (sb0 V c t) _ _ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      isplitl [H2]; · iexact H2
      iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the region is entered with is the invariant before the first point, -/
theorem hin0 (c : Dev nD) : Pipeline.ΦA spec0 c ⊢ (dat0 V c).Φ 0 := by
  rw [show (dat0 V c).Φ 0 = Phi0 V c 0 (Nat.zero_le _) from rfl, Phi0_zero V c 0 _ rfl]

/-- and after the last point the invariant gives it back, the accumulator's contents forgotten. -/
theorem hout0 (c : Dev nD) : (dat0 V c).Φ (Fin.last cfg0.N) ⊢ Pipeline.ΦA spec0 c := by
  rw [show (dat0 V c).Φ (Fin.last cfg0.N) = Phi0 V c (Fin.last cfg0.N).val (Nat.le_of_lt_succ (Fin.last cfg0.N).isLt) from rfl,
    Phi0_pos V c _ _ (by rw [Fin.val_last]; have : cfg0.N = 32 := N_0; omega), PhiA0_eq]
  iintro ⟨⟨HS, Hrest⟩, Hg⟩
  isplitl [HS Hrest]
  · isplitl [HS]; · iexists _; iexact HS
    iexact Hrest
  iexact Hg

end Region0

end Cert.KernelIdeal.Gen

end
-- ==== Proof.Region1.lean ====
/-
  The second kernel (the base product plus the rank-56 correction) as a pipeline region: what its accumulator
  holds after every grid point, the invariant that carries it, the body's run in each of its three cases, and the
  body obligation at every point.

  The grid is 8 row blocks × 4 column blocks × 4 reduction steps, the reduction step k = t mod 4 innermost. At
  k = 0 the body zeroes the accumulator; at every k it adds x-block · W-blockᵀ; at k = 3 it then adds
  low-block · B-blockᵀ and copies the accumulator into the result block, which the pipeline writes back exactly
  there. Everything is stated at the contents `V` the region is entered from, and for any float instance.
-/
import proofs.«106228_j62697932587275_1_alg».proof.Proof.Gen.KernelIdeal.Launch
import proofs.«106228_j62697932587275_1_alg».proof.Proof.Gen.KernelIdeal.Skeleton
import proofs.«106228_j62697932587275_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A load through the whole-shape rectangle of what a list of stores left whose LAST store went through that
    rectangle reads that store's payload, whatever the earlier stores were. -/
theorem View.readCov_cons_unit_zero {Val : EltTy → Type} [∀ e, Nonempty (Val e)] {S : Shape} {e : EltTy} {sig : RefSig} {κ : Kind} {sp : Space}
    (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self .., by
    show y ∈ (Rect.whole S).set; rw [Rect.set_whole]; exact Finset.mem_univ y⟩), View.canon_cons_unit_zero rfl, View.ld_unit_zero rfl]

/-! ## The body's two branches, decided over the grid -/

/-- The accumulator is zeroed where the reduction coordinate is 0, -/
abbrev cond1_0 (i : grid1.Coords) : Prop := (Scalar.cmpi .ne (Scalar.extui (Scalar.cmpi .eq (BitVec.ofNat 32 (i 2).val) 0#32)) 0#32) = 1#1
/-- and the correction is added and the result block stored where it is the last one, 3. -/
abbrev cond1_1 (i : grid1.Coords) : Prop := k1_cond2 i = 1#1
/-- In point numbers (the reduction coordinate is the point number mod 4): -/
theorem hcond1_0 : ∀ t : Fin cfg1.N, cond1_0 (grid1.coords t) ↔ t.val % 4 = 0 :=
  (by decide +kernel : ∀ t : Fin grid1.N, cond1_0 (grid1.coords t) ↔ t.val % 4 = 0)
theorem hcond1_1 : ∀ t : Fin cfg1.N, cond1_1 (grid1.coords t) ↔ t.val % 4 = 3 :=
  (by decide +kernel : ∀ t : Fin grid1.N, cond1_1 (grid1.coords t) ↔ t.val % 4 = 3)
/-- The result window is idle, and not written back, exactly at the points that do not store it. -/
theorem idle1_4 : ∀ t : Fin cfg1.N, ¬t.val % 4 = 3 → cfg1.idle 4 (grid1.coords t) = true :=
  (by decide +kernel : ∀ t : Fin grid1.N, ¬t.val % 4 = 3 → cfg1.idle 4 (grid1.coords t) = true)
theorem noflush1_4 : ∀ t : Fin cfg1.N, ¬t.val % 4 = 3 → (cfg1.win 4).flush t = false :=
  (by decide +kernel : ∀ t : Fin grid1.N, ¬t.val % 4 = 3 → win1_4.flush t = false)
theorem live1_4 : ∀ t : Fin cfg1.N, t.val % 4 = 3 → cfg1.idle 4 (grid1.coords t) = false :=
  (by decide +kernel : ∀ t : Fin grid1.N, t.val % 4 = 3 → cfg1.idle 4 (grid1.coords t) = false)

/-! ## The body's run, case by case

On whole staging memrefs at named contents. The accumulator `arg8` is loaded and stored whole, so each case leaves
in it a payload of what it held; the result buffer `arg7` is stored, whole, in the last case only. -/

set_option maxHeartbeats 1000000 in
/-- Reduction step 0: the accumulator, whatever it held, ends at the product added to the zero block; the result
    buffer is untouched. -/
theorem run1_first (c : Dev nD) (E : Set ℕ) (i : grid1.Coords)
    (arg3 : Memref sig .tc .vmem S1024x1024 .f32) (harg3 : arg3.IsWhole) (arg4 : Memref sig .tc .vmem S1024x1024 .f32) (harg4 : arg4.IsWhole)
    (arg5 : Memref sig .tc .vmem S1024x56 .f32) (harg5 : arg5.IsWhole) (arg6 : Memref sig .tc .vmem S1024x56 .f32) (harg6 : arg6.IsWhole)
    (arg7 : Memref sig .tc .vmem S1024x1024 .f32) (harg7 : arg7.IsWhole) (arg8 : Memref sig .tc .vmem S1024x1024 .f32) (harg8 : arg8.IsWhole)
    (hc0 : cond1_0 i) (hc1 : ¬cond1_1 i)
    (x : Vec F S1024x1024 .f32) (w : Vec F S1024x1024 .f32) (lo : Vec F S1024x56 .f32) (bb : Vec F S1024x56 .f32) (o : Vec F S1024x1024 .f32)
    (K : PUnit → sProp 𝕄) :
    iprop(owns (c : Thread nD τ) arg3 fullShare x ∗ owns (c : Thread nD τ) arg4 fullShare w ∗ owns (c : Thread nD τ) arg5 fullShare lo
        ∗ owns (c : Thread nD τ) arg6 fullShare bb ∗ owns (c : Thread nD τ) arg7 fullShare o ∗ (∃ d, owns (c : Thread nD τ) arg8 fullShare d)
        ∗ (iprop(owns (c : Thread nD τ) arg3 fullShare x ∗ owns (c : Thread nD τ) arg4 fullShare w ∗ owns (c : Thread nD τ) arg5 fullShare lo
            ∗ owns (c : Thread nD τ) arg6 fullShare bb ∗ owns (c : Thread nD τ) arg7 fullShare o
            ∗ owns (c : Thread nD τ) arg8 fullShare (k1_pay2 x w k1_pay1)) -∗ K ⟨⟩))
      ⊢ wp frame (wpE (defs₀ (F := F)) Variants.none c none) E
          (cc1_main_kernel i arg3 harg3 arg4 harg4 arg5 harg5 arg6 harg6 arg7 harg7 arg8 harg8) K := by
  simp only [cc1_main_kernel_eq_skeleton]; unfold cc1_main_kernel_skel
  unfold owns
  iintro ⟨⟨%f3, %hf3, H3⟩, ⟨%f4, %hf4, H4⟩, ⟨%f5, %hf5, H5⟩, ⟨%f6, %hf6, H6⟩, ⟨%f7, %hf7, H7⟩, ⟨%d8, %f8, -, H8⟩, Hk⟩
  obtain rfl := harg3.eq_unread hf3; obtain rfl := harg4.eq_unread hf4; obtain rfl := harg5.eq_unread hf5
  obtain rfl := harg6.eq_unread hf6; obtain rfl := harg7.eq_unread hf7
  sl_exec (disch := first | exact hc0 | exact hc1)
  sl_step
  iapply Hk
  have hz : (![0, 0] : Fin 2 → Nat) = fun _ => 0 := by funext a; match a with | ⟨0, _⟩ => rfl | ⟨1, _⟩ => rfl
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  iexists _; isplitr
  swap; · iexact H8
  ipureintro
  sl_unfold_words
  refine (View.read_writes_eq_canon _ _ _ (fun y => ⟨_, List.mem_cons_self .., View.mem_set_unit_zero hz inb_S1024x1024_S1024x1024_0_0 y⟩)).trans ?_
  rw [View.canon_cons_unit_zero (S := S1024x1024) hz]
  simp only [View.readAt_eq_ld, Memref.IsWhole.read_unread, View.ld_unit_zero (S := S1024x1024) hz,
    View.readCov_unit_zero (S := S1024x1024) _ hz]

set_option maxHeartbeats 1000000 in
/-- Reduction steps 1 and 2: the accumulator ends at the product added to what it held; the result buffer is
    untouched. -/
theorem run1_mid (c : Dev nD) (E : Set ℕ) (i : grid1.Coords)
    (arg3 : Memref sig .tc .vmem S1024x1024 .f32) (harg3 : arg3.IsWhole) (arg4 : Memref sig .tc .vmem S1024x1024 .f32) (harg4 : arg4.IsWhole)
    (arg5 : Memref sig .tc .vmem S1024x56 .f32) (harg5 : arg5.IsWhole) (arg6 : Memref sig .tc .vmem S1024x56 .f32) (harg6 : arg6.IsWhole)
    (arg7 : Memref sig .tc .vmem S1024x1024 .f32) (harg7 : arg7.IsWhole) (arg8 : Memref sig .tc .vmem S1024x1024 .f32) (harg8 : arg8.IsWhole)
    (hc0 : ¬cond1_0 i) (hc1 : ¬cond1_1 i)
    (x : Vec F S1024x1024 .f32) (w : Vec F S1024x1024 .f32) (lo : Vec F S1024x56 .f32) (bb : Vec F S1024x56 .f32) (o : Vec F S1024x1024 .f32)
    (acc : Vec F S1024x1024 .f32) (K : PUnit → sProp 𝕄) :
    iprop(owns (c : Thread nD τ) arg3 fullShare x ∗ owns (c : Thread nD τ) arg4 fullShare w ∗ owns (c : Thread nD τ) arg5 fullShare lo
        ∗ owns (c : Thread nD τ) arg6 fullShare bb ∗ owns (c : Thread nD τ) arg7 fullShare o ∗ owns (c : Thread nD τ) arg8 fullShare acc
        ∗ (iprop(owns (c : Thread nD τ) arg3 fullShare x ∗ owns (c : Thread nD τ) arg4 fullShare w ∗ owns (c : Thread nD τ) arg5 fullShare lo
            ∗ owns (c : Thread nD τ) arg6 fullShare bb ∗ owns (c : Thread nD τ) arg7 fullShare o
            ∗ owns (c : Thread nD τ) arg8 fullShare (k1_pay2 x w acc)) -∗ K ⟨⟩))
      ⊢ wp frame (wpE (defs₀ (F := F)) Variants.none c none) E
          (cc1_main_kernel i arg3 harg3 arg4 harg4 arg5 harg5 arg6 harg6 arg7 harg7 arg8 harg8) K := by
  simp only [cc1_main_kernel_eq_skeleton]; unfold cc1_main_kernel_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg3.eq_unread hf3; obtain rfl := harg4.eq_unread hf4; obtain rfl := harg5.eq_unread hf5
  obtain rfl := harg6.eq_unread hf6; obtain rfl := harg7.eq_unread hf7; obtain rfl := harg8.eq_unread hf8
  sl_exec (disch := first | exact hc0 | exact hc1)
  sl_step
  iapply Hk
  have hz : (![0, 0] : Fin 2 → Nat) = fun _ => 0 := by funext a; match a with | ⟨0, _⟩ => rfl | ⟨1, _⟩ => rfl
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  iexists _; isplitr
  swap; · iexact H8
  ipureintro
  sl_unfold_words
  refine (View.read_writes_eq_canon _ _ _ (fun y => ⟨_, List.mem_singleton_self _, View.mem_set_unit_zero hz inb_S1024x1024_S1024x1024_0_0 y⟩)).trans ?_
  rw [View.canon_unit_zero (S := S1024x1024) hz]
  simp only [View.readAt_eq_ld, Memref.IsWhole.read_unread, View.ld_unit_zero (S := S1024x1024) hz]

set_option maxHeartbeats 1000000 in
/-- Reduction step 3: the accumulator ends at the rank-56 correction added to the product added to what it held,
    and the result buffer, whatever it held, ends at the same block. -/
theorem run1_last (c : Dev nD) (E : Set ℕ) (i : grid1.Coords)
    (arg3 : Memref sig .tc .vmem S1024x1024 .f32) (harg3 : arg3.IsWhole) (arg4 : Memref sig .tc .vmem S1024x1024 .f32) (harg4 : arg4.IsWhole)
    (arg5 : Memref sig .tc .vmem S1024x56 .f32) (harg5 : arg5.IsWhole) (arg6 : Memref sig .tc .vmem S1024x56 .f32) (harg6 : arg6.IsWhole)
    (arg7 : Memref sig .tc .vmem S1024x1024 .f32) (harg7 : arg7.IsWhole) (arg8 : Memref sig .tc .vmem S1024x1024 .f32) (harg8 : arg8.IsWhole)
    (hc0 : ¬cond1_0 i) (hc1 : cond1_1 i)
    (x : Vec F S1024x1024 .f32) (w : Vec F S1024x1024 .f32) (lo : Vec F S1024x56 .f32) (bb : Vec F S1024x56 .f32)
    (acc : Vec F S1024x1024 .f32) (K : PUnit → sProp 𝕄) :
    iprop(owns (c : Thread nD τ) arg3 fullShare x ∗ owns (c : Thread nD τ) arg4 fullShare w ∗ owns (c : Thread nD τ) arg5 fullShare lo
        ∗ owns (c : Thread nD τ) arg6 fullShare bb ∗ (∃ d, owns (c : Thread nD τ) arg7 fullShare d) ∗ owns (c : Thread nD τ) arg8 fullShare acc
        ∗ (iprop(owns (c : Thread nD τ) arg3 fullShare x ∗ owns (c : Thread nD τ) arg4 fullShare w ∗ owns (c : Thread nD τ) arg5 fullShare lo
            ∗ owns (c : Thread nD τ) arg6 fullShare bb ∗ owns (c : Thread nD τ) arg7 fullShare (k1_pay3 lo bb (k1_pay2 x w acc))
            ∗ owns (c : Thread nD τ) arg8 fullShare (k1_pay3 lo bb (k1_pay2 x w acc))) -∗ K ⟨⟩))
      ⊢ wp frame (wpE (defs₀ (F := F)) Variants.none c none) E
          (cc1_main_kernel i arg3 harg3 arg4 harg4 arg5 harg5 arg6 harg6 arg7 harg7 arg8 harg8) K := by
  simp only [cc1_main_kernel_eq_skeleton]; unfold cc1_main_kernel_skel
  unfold owns
  iintro ⟨⟨%f3, %hf3, H3⟩, ⟨%f4, %hf4, H4⟩, ⟨%f5, %hf5, H5⟩, ⟨%f6, %hf6, H6⟩, ⟨%d7, %f7, -, H7⟩, ⟨%f8, %hf8, H8⟩, Hk⟩
  obtain rfl := harg3.eq_unread hf3; obtain rfl := harg4.eq_unread hf4; obtain rfl := harg5.eq_unread hf5
  obtain rfl := harg6.eq_unread hf6; obtain rfl := harg8.eq_unread hf8
  sl_exec (disch := first | exact hc0 | exact hc1)
  sl_step
  iapply Hk
  have hz : (![0, 0] : Fin 2 → Nat) = fun _ => 0 := by funext a; match a with | ⟨0, _⟩ => rfl | ⟨1, _⟩ => rfl
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr
    swap; · iexact H7
    ipureintro
    sl_unfold_words
    refine (View.read_writes_eq_canon _ _ _ (fun y => ⟨_, List.mem_singleton_self _, View.mem_set_unit_zero hz inb_S1024x1024_S1024x1024_0_0 y⟩)).trans ?_
    rw [View.canon_unit_zero (S := S1024x1024) hz]
    simp only [View.readAt_eq_ld, Memref.IsWhole.read_unread, View.ld_unit_zero (S := S1024x1024) hz, View.ld_unit_zero (S := S1024x56) hz,
      View.readCov_unit_zero (S := S1024x1024) _ hz, View.readCov_cons_unit_zero (S := S1024x1024) _ hz]
  iexists _; isplitr
  swap; · iexact H8
  ipureintro
  sl_unfold_words
  refine (View.read_writes_eq_canon _ _ _ (fun y => ⟨_, List.mem_cons_self .., View.mem_set_unit_zero hz inb_S1024x1024_S1024x1024_0_0 y⟩)).trans ?_
  rw [View.canon_cons_unit_zero (S := S1024x1024) hz]
  simp only [View.readAt_eq_ld, Memref.IsWhole.read_unread, View.ld_unit_zero (S := S1024x1024) hz, View.ld_unit_zero (S := S1024x56) hz,
    View.readCov_unit_zero (S := S1024x1024) _ hz, View.readCov_cons_unit_zero (S := S1024x1024) _ hz]

section Region1

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, whether the pipeline fetched it there or the
    block index did not move since the last fetch. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- The four input blocks at a point, at their literal types: the x block and the W block [1024,1024], the low block
    and the B block [1024,56]. -/
abbrev xb1 (c : Dev nD) (t : Fin cfg1.N) : Vec F S1024x1024 .f32 := iblk1 V c 0 t
abbrev wb1 (c : Dev nD) (t : Fin cfg1.N) : Vec F S1024x1024 .f32 := iblk1 V c 1 t
abbrev lb1 (c : Dev nD) (t : Fin cfg1.N) : Vec F S1024x56 .f32 := iblk1 V c 2 t
abbrev bb1 (c : Dev nD) (t : Fin cfg1.N) : Vec F S1024x56 .f32 := iblk1 V c 3 t

/-! ## The accumulation -/

/-- One point's step on what the accumulator held: the product added, and at reduction step 3 the rank-56
    correction added on top. -/
def step1 (c : Dev nD) (n : ℕ) (h : n < cfg1.N) (s : Vec F S1024x1024 .f32) : Vec F S1024x1024 .f32 :=
  if n % 4 = 3 then k1_pay3 (lb1 V c ⟨n, h⟩) (bb1 V c ⟨n, h⟩) (k1_pay2 (xb1 V c ⟨n, h⟩) (wb1 V c ⟨n, h⟩) s)
  else k1_pay2 (xb1 V c ⟨n, h⟩) (wb1 V c ⟨n, h⟩) s

/-- What the accumulator holds after the body at point `n`: at a point with reduction step 0 the step from the zero
    block, at any other the step from what the point before left. -/
def acc1 (c : Dev nD) : (n : ℕ) → n < cfg1.N → Vec F S1024x1024 .f32
  | 0, h => k1_pay2 (xb1 V c ⟨0, h⟩) (wb1 V c ⟨0, h⟩) k1_pay1
  | n + 1, h =>
    if (n + 1) % 4 = 0 then k1_pay2 (xb1 V c ⟨n + 1, h⟩) (wb1 V c ⟨n + 1, h⟩) k1_pay1
    else step1 V c (n + 1) h (acc1 c n (Nat.lt_of_succ_lt h))

theorem acc1_reset (c : Dev nD) (t : Fin cfg1.N) (h0 : t.val % 4 = 0) :
    acc1 V c t.val t.isLt = k1_pay2 (xb1 V c t) (wb1 V c t) k1_pay1 := by
  obtain ⟨n, hn⟩ := t
  cases n with
  | zero => rfl
  | succ n => exact (if_pos h0)

theorem acc1_step (c : Dev nD) (t : Fin cfg1.N) (h0 : ¬t.val % 4 = 0) :
    acc1 V c t.val t.isLt = step1 V c t.val t.isLt (acc1 V c (t.val - 1) (Nat.lt_of_le_of_lt (Nat.sub_le _ _) t.isLt)) := by
  obtain ⟨n, hn⟩ := t
  cases n with
  | zero => exact absurd (Nat.zero_mod _) h0
  | succ n => exact (if_neg h0)

theorem step1_mid (c : Dev nD) (t : Fin cfg1.N) (h1 : ¬t.val % 4 = 3) (s : Vec F S1024x1024 .f32) :
    step1 V c t.val t.isLt s = k1_pay2 (xb1 V c t) (wb1 V c t) s := if_neg h1
theorem step1_last (c : Dev nD) (t : Fin cfg1.N) (h1 : t.val % 4 = 3) (s : Vec F S1024x1024 .f32) :
    step1 V c t.val t.isLt s = k1_pay3 (lb1 V c t) (bb1 V c t) (k1_pay2 (xb1 V c t) (wb1 V c t) s) := if_pos h1

/-! ## The scratch accumulator and the invariant -/

/-- The kernel's scratch accumulator, a whole scoped buffer of its own. -/
abbrev scM1 : Memref sig .tc .vmem S1024x1024 .f32 := Memref.whole cc1_scratch0

/-- The scoped buffers the second kernel neither stages nor uses as scratch, each at some contents. -/
abbrev rest1 (c : Dev nD) : sProp 𝕄 :=
  Pipeline.scopedRestBut (Ix := Unit) (Name := ℕ) (U := UR sig nD τ) (Lvl := ℕ) (Val := Elt F) spec1 c [cc1_scratch0]

/-- The scoped rest with the scratch accumulator split off as an owned memref. -/
theorem PhiA1_eq (c : Dev nD) :
    (Pipeline.ΦA spec1 c : sProp 𝕄)
      = iprop(((∃ d, owns (c : Thread nD τ) scM1 fullShare d) ∗ rest1 c) ∗ (∃ r, prngReg c r)) := by
  unfold Pipeline.ΦA
  rw [Pipeline.scopedRest_split_of_list spec1 c [cc1_scratch0] (by decide) (by decide)]
  simp only [scM1, owns_whole, bigSepL]
  rfl

/-- The invariant before position `n`: before the first point every scoped buffer is at anything; afterwards the
    accumulator holds what the point before left in it. -/
def Phi1 (c : Dev nD) : (n : ℕ) → n ≤ cfg1.N → sProp 𝕄
  | 0, _ => Pipeline.ΦA spec1 c
  | n + 1, hn => iprop((owns (c : Thread nD τ) scM1 fullShare (acc1 V c n hn) ∗ rest1 c) ∗ (∃ r, prngReg c r))

theorem Phi1_zero (c : Dev nD) (n : ℕ) (h : n ≤ cfg1.N) (hz : n = 0) : Phi1 V c n h = Pipeline.ΦA spec1 c := by
  subst hz; rfl
theorem Phi1_succ (c : Dev nD) (n : ℕ) (hn : n < cfg1.N) :
    Phi1 V c (n + 1) hn = iprop((owns (c : Thread nD τ) scM1 fullShare (acc1 V c n hn) ∗ rest1 c) ∗ (∃ r, prngReg c r)) := rfl
theorem Phi1_pos (c : Dev nD) (n : ℕ) (h : n ≤ cfg1.N) (hz : n ≠ 0) :
    Phi1 V c n h = iprop((owns (c : Thread nD τ) scM1 fullShare (acc1 V c (n - 1) (by omega)) ∗ rest1 c) ∗ (∃ r, prngReg c r)) := by
  cases n with
  | zero => exact absurd rfl hz
  | succ n => rfl

/-! ## The proof data -/

/-- The second kernel's proof data on core `c`: the arrays as the region finds them; after the body each input's
    buffer at its block, the result's at the accumulator (read only at the points that store it); the invariant
    `Phi1`; nothing owed, full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => acc1 V c t.val t.isLt
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = acc1 V c t.val t.isLt := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem Phi1_castSucc (c : Dev nD) (t : Fin cfg1.N) :
    (dat1 V c).Φ t.castSucc = Phi1 V c t.val (Nat.le_of_lt t.isLt) := by
  dsimp only [dat1]; simp only [Fin.coe_castSucc]

/-! ## The body obligation -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t ∗ (dat1 V c).leavesExact 3 t
    ∗ (dat1 V c).leavesExact 4 t)

set_option maxHeartbeats 4000000 in
/-- The body at any point. The inputs' buffers hold their blocks; the point number mod 4 says which case runs; the
    invariant hands the accumulator over at what the point before left (at anything before the first point) and
    takes it back at this point's contents; an idle result buffer goes back as it came. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = Phi1 V c (t.val + 1) t.isLt from rfl, Phi1_succ]
  rw [show (dat1 V c).leavesExact 0 t = owns (c : Thread nD τ) (st1_0 t) fullShare ((dat1 V c).after 0 t) from rfl, after1_0,
    show (dat1 V c).leavesExact 1 t = owns (c : Thread nD τ) (st1_1 t) fullShare ((dat1 V c).after 1 t) from rfl, after1_1,
    show (dat1 V c).leavesExact 2 t = owns (c : Thread nD τ) (st1_2 t) fullShare ((dat1 V c).after 2 t) from rfl, after1_2,
    show (dat1 V c).leavesExact 3 t = owns (c : Thread nD τ) (st1_3 t) fullShare ((dat1 V c).after 3 t) from rfl, after1_3]
  by_cases h0 : t.val % 4 = 0
  · have h1 : ¬t.val % 4 = 3 := by omega
    rw [Dat.leavesExact_idle (dat1 V c) 4 t (idle1_4 t h1) (noflush1_4 t h1), acc1_reset V c t h0]
    by_cases hz : t.val = 0
    · rw [Phi1_castSucc V c t, Phi1_zero V c _ _ hz, PhiA1_eq]
      iintro ⟨⟨⟨HS, Hrest⟩, Hg⟩, Ho, ⟨%d0, H0⟩, ⟨%d1, H1⟩, ⟨%d2, H2⟩, ⟨%d3, H3⟩, ⟨%d4, H4⟩⟩
      iapply (run1_first c Set.univ (grid1.coords t) _ _ _ _ _ _ _ _ _ _ _ _ ((hcond1_0 t).mpr h0) (fun h => h1 ((hcond1_1 t).mp h))
        (xb1 V c t) (wb1 V c t) (lb1 V c t) (bb1 V c t) _ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      isplitl [H2]; · iexact H2
      isplitl [H3]; · iexact H3
      iexists _; iexact H4
    · rw [Phi1_castSucc V c t, Phi1_pos V c _ _ hz]
      iintro ⟨⟨⟨HS, Hrest⟩, Hg⟩, Ho, ⟨%d0, H0⟩, ⟨%d1, H1⟩, ⟨%d2, H2⟩, ⟨%d3, H3⟩, ⟨%d4, H4⟩⟩
      iapply (run1_first c Set.univ (grid1.coords t) _ _ _ _ _ _ _ _ _ _ _ _ ((hcond1_0 t).mpr h0) (fun h => h1 ((hcond1_1 t).mp h))
        (xb1 V c t) (wb1 V c t) (lb1 V c t) (bb1 V c t) _ _)
      isplitl [H0]; · iexact H0
      isplitl [H1]; · iexact H1
      isplitl [H2]; · iexact H2
      isplitl [H3]; · iexact H3
      isplitl [H4]; · iexact H4
      isplitl [HS]; · iexists _; iexact HS
      iintro ⟨H0, H1, H2, H3, H4, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun e => h0 (by rw [e])
    by_cases h1 : t.val % 4 = 3
    · rw [show (dat1 V c).leavesExact 4 t = owns (c : Thread nD τ) (st1_4 t) fullShare ((dat1 V c).after 4 t) from by
        unfold Dat.leavesExact; rw [live1_4 t h1], after1_4, acc1_step V c t h0, step1_last V c t h1]
      rw [Phi1_castSucc V c t, Phi1_pos V c _ _ hz]
      iintro ⟨⟨⟨HS, Hrest⟩, Hg⟩, Ho, ⟨%d0, H0⟩, ⟨%d1, H1⟩, ⟨%d2, H2⟩, ⟨%d3, H3⟩, ⟨%d4, H4⟩⟩
      iapply (run1_last c Set.univ (grid1.coords t) _ _ _ _ _ _ _ _ _ _ _ _ (fun h => h0 ((hcond1_0 t).mp h)) ((hcond1_1 t).mpr h1)
        (xb1 V c t) (wb1 V c t) (lb1 V c t) (bb1 V c t) _ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      isplitl [H2]; · iexact H2
      isplitl [H3]; · iexact H3
      iexact H4
    · rw [Dat.leavesExact_idle (dat1 V c) 4 t (idle1_4 t h1) (noflush1_4 t h1), acc1_step V c t h0, step1_mid V c t h1]
      rw [Phi1_castSucc V c t, Phi1_pos V c _ _ hz]
      iintro ⟨⟨⟨HS, Hrest⟩, Hg⟩, Ho, ⟨%d0, H0⟩, ⟨%d1, H1⟩, ⟨%d2, H2⟩, ⟨%d3, H3⟩, ⟨%d4, H4⟩⟩
      iapply (run1_mid c Set.univ (grid1.coords t) _ _ _ _ _ _ _ _ _ _ _ _ (fun h => h0 ((hcond1_0 t).mp h)) (fun h => h1 ((hcond1_1 t).mp h))
        (xb1 V c t) (wb1 V c t) (lb1 V c t) (bb1 V c t) _ _ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the region is entered with is the invariant before the first point, -/
theorem hin1 (c : Dev nD) : Pipeline.ΦA spec1 c ⊢ (dat1 V c).Φ 0 := by
  rw [show (dat1 V c).Φ 0 = Phi1 V c 0 (Nat.zero_le _) from rfl, Phi1_zero V c 0 _ rfl]

/-- and after the last point the invariant gives it back, the accumulator's contents forgotten. -/
theorem hout1 (c : Dev nD) : (dat1 V c).Φ (Fin.last cfg1.N) ⊢ Pipeline.ΦA spec1 c := by
  rw [show (dat1 V c).Φ (Fin.last cfg1.N) = Phi1 V c (Fin.last cfg1.N).val (Nat.le_of_lt_succ (Fin.last cfg1.N).isLt) from rfl,
    Phi1_pos V c _ _ (by rw [Fin.val_last]; have : cfg1.N = 128 := N_1; omega), PhiA1_eq]
  iintro ⟨⟨HS, Hrest⟩, Hg⟩
  isplitl [HS Hrest]
  · isplitl [HS]; · iexists _; iexact HS
    iexact Hrest
  iexact Hg

end Region1

end Cert.KernelIdeal.Gen

end
-- ==== Proof.Run.lean ====
/-
  The kernel program's run: @main is twenty host operations, the first kernel's region, the second kernel's region,
  and one last reshape. The buffers' contents at each boundary are named by a fold from the launch memory — a host
  stretch's operations applied, a region's arrays at what its write-backs leave — and the run is launched over
  those four segments. Every weakly fair execution terminates with every unscoped buffer at the last boundary's
  contents; the arguments are read back through the fold to their launch contents, and the result buffer to the
  reshape of what the second region leaves in its output array.
-/
import proofs.«106228_j62697932587275_1_alg».proof.Proof.Region0
import proofs.«106228_j62697932587275_1_alg».proof.Proof.Region1
import proofs.«106228_j62697932587275_1_alg».proof.Proof.Gen.KernelIdeal.Regions
import Idealize.ShloMosaic.Lib.StableHlo.Run

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => (s₀ m ρ).mem ((c : Dev nD), b)
/-- After the host operations before the first region. -/
abbrev W1 : Dev nD → Valuation τ sig (Elt F) := fun c => StableHlo.after hostOps0 (W0 m ρ c)
/-- The same read at the TensorCore's references: what the first region's proof data take. -/
abbrev A1 : (c : Dev nD) → (b : Ref sig .tc) → Buf (Elt F) ((c : Thread nD τ).loc b) := fun c b => W1 m ρ c b
/-- At the first region's exit: its arrays at what its write-backs leave, every other buffer as entered. -/
def W2 (c : Dev nD) : Valuation τ sig (Elt F) :=
  Pipeline.withArrays spec0 c (W1 m ρ c) fun w => (dat0 (A1 m ρ) c).arrAt w cfg0.N
theorem W2_arr (c : Dev nD) (w : Fin cfg0.W) :
    W2 m ρ c (Proc.devRef .tc (Pipeline.arrRef spec0 w)) = (dat0 (A1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references: what the second region's proof data take. -/
abbrev A2 : (c : Dev nD) → (b : Ref sig .tc) → Buf (Elt F) ((c : Thread nD τ).loc b) := fun c b => W2 m ρ c b
theorem hF0 (c : Dev nD) (w : Fin cfg0.W) : (dat0 (A1 m ρ) c).arrAt w cfg0.N = A2 m ρ c (Pipeline.arrRef spec0 w) :=
  (W2_arr m ρ c w).symm
theorem hrest0 (c : Dev nD) : ∀ b, b ∉ Finset.univ.image (Pipeline.arrRef spec0) → A2 m ρ c b = A1 m ρ c b :=
  fun b hb => W2_of_ne m ρ c b fun w e => hb (Finset.mem_image.mpr ⟨w, Finset.mem_univ _, e⟩)

/-- At the second region's exit: its arrays at what its write-backs leave, every other buffer as entered. -/
def W3 (c : Dev nD) : Valuation τ sig (Elt F) :=
  Pipeline.withArrays spec1 c (W2 m ρ c) fun w => (dat1 (A2 m ρ) c).arrAt w cfg1.N
theorem W3_arr (c : Dev nD) (w : Fin cfg1.W) :
    W3 m ρ c (Proc.devRef .tc (Pipeline.arrRef spec1 w)) = (dat1 (A2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev A3 : (c : Dev nD) → (b : Ref sig .tc) → Buf (Elt F) ((c : Thread nD τ).loc b) := fun c b => W3 m ρ c b
theorem hF1 (c : Dev nD) (w : Fin cfg1.W) : (dat1 (A2 m ρ) c).arrAt w cfg1.N = A3 m ρ c (Pipeline.arrRef spec1 w) :=
  (W3_arr m ρ c w).symm
theorem hrest1 (c : Dev nD) : ∀ b, b ∉ Finset.univ.image (Pipeline.arrRef spec1) → A3 m ρ c b = A2 m ρ c b :=
  fun b hb => W3_of_ne m ρ c b fun w e => hb (Finset.mem_image.mpr ⟨w, Finset.mem_univ _, e⟩)

/-- After the last host operation: the end. -/
abbrev W4 : Dev nD → Valuation τ sig (Elt F) := fun c => StableHlo.after hostOps2 (W3 m ρ c)

/-! ## What each boundary keeps -/

/-- A buffer no operation of the first host stretch writes is as launched after it, -/
theorem W1_keep (c : Dev nD) (r : Ref sig .tc) (h : r ∉ hostOps0_W) : W1 m ρ c (Proc.devRef .tc r) = W0 m ρ c (Proc.devRef .tc r) :=
  StableHlo.after_of_writes_sub hostOps0 _ hostOps0_writes h
/-- and one the last reshape does not write is unchanged by it. -/
theorem W4_keep (c : Dev nD) (r : Ref sig .tc) (h : r ∉ hostOps2_W) : W4 m ρ c (Proc.devRef .tc r) = W3 m ρ c (Proc.devRef .tc r) :=
  StableHlo.after_of_writes_sub hostOps2 _ hostOps2_writes h

/-- An argument that is no window's array of either region reaches the end as launched. -/
theorem W4_arg (c : Dev nD) (r : Ref sig .tc) (h2 : r ∉ hostOps2_W) (h1 : ∀ w, Pipeline.arrRef spec1 w ≠ r)
    (h0 : ∀ w, Pipeline.arrRef spec0 w ≠ r) (hh : r ∉ hostOps0_W) :
    W4 m ρ c (Proc.devRef .tc r) = m ((c : Thread nD τ).loc r) :=
  (W4_keep m ρ c r h2).trans <| (W3_of_ne m ρ c r h1).trans <| (W2_of_ne m ρ c r h0).trans <| (W1_keep m ρ c r hh).trans rfl

theorem W4_main_arg0 (c : Dev nD) : W4 m ρ c (Proc.devRef .tc main_arg0) = m ((c : Thread nD τ).loc main_arg0) :=
  W4_arg m ρ c main_arg0 (by decide) (by decide) (by decide) (by decide)
/-- The base weight is the second region's window 1, an input: the region leaves it as it found it. -/
theorem W4_main_arg1 (c : Dev nD) : W4 m ρ c (Proc.devRef .tc main_arg1) = m ((c : Thread nD τ).loc main_arg1) :=
  (W4_keep m ρ c main_arg1 (by decide)).trans <|
    ((W3_arr m ρ c 1).trans (((dat1 (A2 m ρ) c).arrAt_in 1 rfl _).trans (A_eq1 (A2 m ρ) c 1))).trans <|
    (W2_of_ne m ρ c main_arg1 (by decide)).trans <| (W1_keep m ρ c main_arg1 (by decide)).trans rfl
theorem W4_main_arg2 (c : Dev nD) : W4 m ρ c (Proc.devRef .tc main_arg2) = m ((c : Thread nD τ).loc main_arg2) :=
  W4_arg m ρ c main_arg2 (by decide) (by decide) (by decide) (by decide)
theorem W4_main_arg3 (c : Dev nD) : W4 m ρ c (Proc.devRef .tc main_arg3) = m ((c : Thread nD τ).loc main_arg3) :=
  W4_arg m ρ c main_arg3 (by decide) (by decide) (by decide) (by decide)
theorem W4_main_arg4 (c : Dev nD) : W4 m ρ c (Proc.devRef .tc main_arg4) = m ((c : Thread nD τ).loc main_arg4) :=
  W4_arg m ρ c main_arg4 (by decide) (by decide) (by decide) (by decide)
theorem W4_main_arg5 (c : Dev nD) : W4 m ρ c (Proc.devRef .tc main_arg5) = m ((c : Thread nD τ).loc main_arg5) :=
  W4_arg m ρ c main_arg5 (by decide) (by decide) (by decide) (by decide)
theorem W4_main_arg6 (c : Dev nD) : W4 m ρ c (Proc.devRef .tc main_arg6) = m ((c : Thread nD τ).loc main_arg6) :=
  W4_arg m ρ c main_arg6 (by decide) (by decide) (by decide) (by decide)
theorem W4_main_arg7 (c : Dev nD) : W4 m ρ c (Proc.devRef .tc main_arg7) = m ((c : Thread nD τ).loc main_arg7) :=
  W4_arg m ρ c main_arg7 (by decide) (by decide) (by decide) (by decide)
theorem W4_main_arg8 (c : Dev nD) : W4 m ρ c (Proc.devRef .tc main_arg8) = m ((c : Thread nD τ).loc main_arg8) :=
  W4_arg m ρ c main_arg8 (by decide) (by decide) (by decide) (by decide)

/-- The result buffer ends at the reshape to [4,2048,4096] of what the second region leaves in its output array. -/
theorem W4_result (c : Dev nD) :
    (W4 m ρ c (Proc.devRef .tc main_v19) : S4x2048x4096.Idx → Elt F .f32)
      = shapeCast S4x2048x4096 ((dat1 (A2 m ρ) c).arrAt 4 cfg1.N : S8192x4096.Idx → Elt F .f32) shapeCasts_S8192x4096_S4x2048x4096 := by
  rw [← W3_arr m ρ c 4]
  show StableHlo.after hostOps2 (W3 m ρ c) (Proc.devRef .tc main_v19) = _
  after_results
  rfl

/-! ## The proof data family and the thread state -/

/-- Each region's proof data at its entry contents. -/
def pdats : (p : Fin 2) → (c : Dev nD) → Dat τ (Elt F) Unit ℕ (UR sig nD τ) ℕ (Pipeline.pin (pcfgs (F := F)) adm p) c
  | ⟨0, _⟩ => fun c => dat0 (A1 m ρ) c
  | ⟨1, _⟩ => fun c => dat1 (A2 m ρ) c
abbrev noVar : Variants := Variants.none
/-- No core owes another anything: no level is assigned. -/
abbrev L0 : GSem nD τ sig → Finset Unit := fun _ => ∅
abbrev lv0 : GSem nD τ sig → Unit → ℕ := fun _ _ => 0
/-- What rides beside the buffers through every segment: the generator register at some state, and the core owing
    nothing. -/
abbrev Rr (c : Dev nD) : sProp 𝕄 := iprop((∃ r, prngReg c r) ∗ ∃ W, owes (c : Thread nD τ) (0 : CellTallies nD τ sig Unit) W)
/-- A host stretch as a segment over the unscoped references, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ noVar L0 lv0 :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rr
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tend (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- The first region: entered from every unscoped buffer at `W1`, left at `W2`. Its arrays are split out of the
    unscoped buffers and put back at the exit contents; the generator register goes into the invariant and comes
    out; nothing is owed; the kernel has no semaphore of its own. -/
def reg0 : Pipeline.RegionSeg (pcfgs (F := F)) adm (pdats m ρ) () defs₀ noVar L0 lv0 0 where
  win := launch0.win.to₀
  block_pos := launch0.block_pos
  stage_whole := launch0.stage_whole
  K := PEmpty
  osem k := k.elim
  ho := Pipeline.OwnSemFacts.none _
  hbody c := (body_obligation0 (A1 m ρ) c).loose
  hwaits := Pipeline.hwaits_of_owed_zero _ _ _ _ L0 lv0 0 fun _ _ => rfl
  pre c := iprop(StableHlo.held (c : Thread nD τ) (Pipeline.ucRefs τ sig) (W1 m ρ c) ∗ Rr c)
  post c := iprop(StableHlo.held (c : Thread nD τ) (Pipeline.ucRefs τ sig) (W2 m ρ c) ∗ Rr c)
  X c := iprop(∃ r, prngReg c r)
  Y c := iprop(∃ r, prngReg c r)
  Z c := Pipeline.unscopedRest (Ix := Unit) (Name := ℕ) (U := UR sig nD τ) (Lvl := ℕ) spec0 c (A1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (A1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine Idealize.SL.BI.BIBase.Entails.trans ?_ (hin0 (A1 m ρ) c)
    unfold Pipeline.ΦA
    iintro ⟨Hp, -, Hr⟩
    isplitl [Hr]; · iexact Hr
    iexact Hp
  hout c := by
    rw [Pipeline.ownSems0_none]
    refine Idealize.SL.BI.BIBase.Entails.trans (hout0 (A1 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (A1 m ρ c) (A2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered from every unscoped buffer at `W2`, left at `W3`, in the same way. -/
def reg1 : Pipeline.RegionSeg (pcfgs (F := F)) adm (pdats m ρ) () defs₀ noVar L0 lv0 1 where
  win := launch1.win.to₀
  block_pos := launch1.block_pos
  stage_whole := launch1.stage_whole
  K := PEmpty
  osem k := k.elim
  ho := Pipeline.OwnSemFacts.none _
  hbody c := (body_obligation1 (A2 m ρ) c).loose
  hwaits := Pipeline.hwaits_of_owed_zero _ _ _ _ L0 lv0 1 fun _ _ => rfl
  pre c := iprop(StableHlo.held (c : Thread nD τ) (Pipeline.ucRefs τ sig) (W2 m ρ c) ∗ Rr c)
  post c := iprop(StableHlo.held (c : Thread nD τ) (Pipeline.ucRefs τ sig) (W3 m ρ c) ∗ Rr c)
  X c := iprop(∃ r, prngReg c r)
  Y c := iprop(∃ r, prngReg c r)
  Z c := Pipeline.unscopedRest (Ix := Unit) (Name := ℕ) (U := UR sig nD τ) (Lvl := ℕ) spec1 c (A2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (A2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine Idealize.SL.BI.BIBase.Entails.trans ?_ (hin1 (A2 m ρ) c)
    unfold Pipeline.ΦA
    iintro ⟨Hp, -, Hr⟩
    isplitl [Hr]; · iexact Hr
    iexact Hp
  hout c := by
    rw [Pipeline.ownSems0_none]
    refine Idealize.SL.BI.BIBase.Entails.trans (hout1 (A2 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (A2 m ρ c) (A3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's four segments in order. -/
abbrev items : List (Pipeline.Seg (pcfgs (F := F)) adm (pdats m ρ) () defs₀ noVar L0 lv0) :=
  [ .host (hseg hostOps0 hostOps0_sub hostOps0_fresh (W0 m ρ)),
    .region (reg0 m ρ),
    .region (reg1 m ρ),
    .host (hseg hostOps2 hostOps2_sub hostOps2_fresh (W3 m ρ)) ]
/-- @main is the run of the segments. -/
theorem main_run (c : Dev nD) : main (F := F) c = Pipeline.Seg.run (items m ρ) := (main_chain c).trans (by chain_rfl)

set_option backward.isDefEq.respectTransparency.types false in
/-- THE RUN. From any memory with zero counters, every weakly fair execution of @main on the TensorCores terminates,
    nothing faulting, and in every final state every unscoped buffer holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ noVar L0 lv0 m ρ main (items m ρ)
    (fun c Q => by rw [main_run m ρ c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ Rr c)) (Tₙ := Tend m ρ)
    (hch := ⟨fun _ => .rfl, fun _ => .rfl, fun _ => .rfl, fun _ => .rfl, fun c => by
      show iprop(StableHlo.held (c : Thread nD τ) (Pipeline.ucRefs τ sig) (W4 m ρ c) ∗ Rr c)
        ⊢ iprop(Tend m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L0 lv0 fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- THE FRAME: every argument array ends holding its launch contents. -/
theorem frame_run : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c),
     (h c _ (mem_uc main_arg7 (by decide))).trans (W4_main_arg7 m ρ c),
     (h c _ (mem_uc main_arg8 (by decide))).trans (W4_main_arg8 m ρ c)⟩) (run_all m ρ)

end Cert.KernelIdeal.Gen

end
-- ==== Proof.PayAt.lean ====
import proofs.«106228_j62697932587275_1_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

/-!
# The six payloads of the two kernel bodies, read at one entry

Over the extended reals a cast of a shape to itself and a change of float format are the identity, the zero
word is `0`, and a matrix product with both operands contracted along their second axis, taken into a zero
accumulator, is at entry `(p, c)` the sum over `k` of `lhs (p, k) * rhs (c, k)`. So each payload, read at one
entry, is a closed expression in the entries of the arrays it was computed from:

* the two clearing payloads are `0` at every entry;
* the accumulating payload of the first body and the two accumulating payloads of the second add to the
  accumulator's entry the row-by-row product `∑ k, lhs (p, k) * rhs (c, k)`;
* the scaling payload multiplies the accumulator's entry `(p, r)` by entry `r` of the one-row scale.
-/

noncomputable section

namespace Cert.KernelIdeal.PayAt

open Cert.KernelIdeal Cert.KernelIdeal.Gen Idealize.ShloMosaic Idealize.ShloMosaic.ValueIdx

/-! ## The operand indices of the three contractions, axis by axis

For a product that contracts axis 1 of both operands and keeps axis 0 of each, the left operand's index at
result entry `i` and contraction position `q` is `(i 0, q)` and the right operand's is `(i 1, q)`. -/

/-! ### `[1024, 1024] × [56, 1024] → [1024, 56]` -/

theorem lhs_xa_0 (i : S1024x56.Idx) (q : dot_S1024x1024_S56x1024_S1024x56_1_1_0_0_n_n.contr.Idx) :
    (dot_S1024x1024_S56x1024_S1024x56_1_1_0_0_n_n.lhsIdx i q 0).val = (i 0).val := by
  unfold DotDims.lhsIdx
  rw [dif_neg (show ¬(0 : Fin S1024x1024.rank) ∈ dot_S1024x1024_S56x1024_S1024x56_1_1_0_0_n_n.lhsBatch by decide), dif_pos (show (0 : Fin S1024x1024.rank) ∈ dot_S1024x1024_S56x1024_S1024x56_1_1_0_0_n_n.lhsNonContracting by decide)]
  rfl
theorem lhs_xa_1 (i : S1024x56.Idx) (q : dot_S1024x1024_S56x1024_S1024x56_1_1_0_0_n_n.contr.Idx) :
    (dot_S1024x1024_S56x1024_S1024x56_1_1_0_0_n_n.lhsIdx i q 1).val = (q ⟨0, by decide⟩).val :=
  dot_S1024x1024_S56x1024_S1024x56_1_1_0_0_n_n.lhsIdx_val_of_single rfl i q
theorem rhs_xa_0 (i : S1024x56.Idx) (q : dot_S1024x1024_S56x1024_S1024x56_1_1_0_0_n_n.contr.Idx) :
    (dot_S1024x1024_S56x1024_S1024x56_1_1_0_0_n_n.rhsIdx i q 0).val = (i 1).val := by
  unfold DotDims.rhsIdx
  rw [dif_neg (show ¬(0 : Fin S56x1024.rank) ∈ dot_S1024x1024_S56x1024_S1024x56_1_1_0_0_n_n.rhsBatch by decide), dif_pos (show (0 : Fin S56x1024.rank) ∈ dot_S1024x1024_S56x1024_S1024x56_1_1_0_0_n_n.rhsNonContracting by decide)]
  rfl
theorem rhs_xa_1 (i : S1024x56.Idx) (q : dot_S1024x1024_S56x1024_S1024x56_1_1_0_0_n_n.contr.Idx) :
    (dot_S1024x1024_S56x1024_S1024x56_1_1_0_0_n_n.rhsIdx i q 1).val = (q ⟨0, by decide⟩).val :=
  dot_S1024x1024_S56x1024_S1024x56_1_1_0_0_n_n.rhsIdx_val_of_single rfl i q

/-! ### `[1024, 1024] × [1024, 1024] → [1024, 1024]` -/

theorem lhs_xw_0 (i : S1024x1024.Idx) (q : dot_S1024x1024_S1024x1024_S1024x1024_1_1_0_0_n_n.contr.Idx) :
    (dot_S1024x1024_S1024x1024_S1024x1024_1_1_0_0_n_n.lhsIdx i q 0).val = (i 0).val := by
  unfold DotDims.lhsIdx
  rw [dif_neg (show ¬(0 : Fin S1024x1024.rank) ∈ dot_S1024x1024_S1024x1024_S1024x1024_1_1_0_0_n_n.lhsBatch by decide), dif_pos (show (0 : Fin S1024x1024.rank) ∈ dot_S1024x1024_S1024x1024_S1024x1024_1_1_0_0_n_n.lhsNonContracting by decide)]
  rfl
theorem lhs_xw_1 (i : S1024x1024.Idx) (q : dot_S1024x1024_S1024x1024_S1024x1024_1_1_0_0_n_n.contr.Idx) :
    (dot_S1024x1024_S1024x1024_S1024x1024_1_1_0_0_n_n.lhsIdx i q 1).val = (q ⟨0, by decide⟩).val :=
  dot_S1024x1024_S1024x1024_S1024x1024_1_1_0_0_n_n.lhsIdx_val_of_single rfl i q
theorem rhs_xw_0 (i : S1024x1024.Idx) (q : dot_S1024x1024_S1024x1024_S1024x1024_1_1_0_0_n_n.contr.Idx) :
    (dot_S1024x1024_S1024x1024_S1024x1024_1_1_0_0_n_n.rhsIdx i q 0).val = (i 1).val := by
  unfold DotDims.rhsIdx
  rw [dif_neg (show ¬(0 : Fin S1024x1024.rank) ∈ dot_S1024x1024_S1024x1024_S1024x1024_1_1_0_0_n_n.rhsBatch by decide), dif_pos (show (0 : Fin S1024x1024.rank) ∈ dot_S1024x1024_S1024x1024_S1024x1024_1_1_0_0_n_n.rhsNonContracting by decide)]
  rfl
theorem rhs_xw_1 (i : S1024x1024.Idx) (q : dot_S1024x1024_S1024x1024_S1024x1024_1_1_0_0_n_n.contr.Idx) :
    (dot_S1024x1024_S1024x1024_S1024x1024_1_1_0_0_n_n.rhsIdx i q 1).val = (q ⟨0, by decide⟩).val :=
  dot_S1024x1024_S1024x1024_S1024x1024_1_1_0_0_n_n.rhsIdx_val_of_single rfl i q

/-! ### `[1024, 56] × [1024, 56] → [1024, 1024]` -/

theorem lhs_lb_0 (i : S1024x1024.Idx) (q : dot_S1024x56_S1024x56_S1024x1024_1_1_0_0_n_n.contr.Idx) :
    (dot_S1024x56_S1024x56_S1024x1024_1_1_0_0_n_n.lhsIdx i q 0).val = (i 0).val := by
  unfold DotDims.lhsIdx
  rw [dif_neg (show ¬(0 : Fin S1024x56.rank) ∈ dot_S1024x56_S1024x56_S1024x1024_1_1_0_0_n_n.lhsBatch by decide), dif_pos (show (0 : Fin S1024x56.rank) ∈ dot_S1024x56_S1024x56_S1024x1024_1_1_0_0_n_n.lhsNonContracting by decide)]
  rfl
theorem lhs_lb_1 (i : S1024x1024.Idx) (q : dot_S1024x56_S1024x56_S1024x1024_1_1_0_0_n_n.contr.Idx) :
    (dot_S1024x56_S1024x56_S1024x1024_1_1_0_0_n_n.lhsIdx i q 1).val = (q ⟨0, by decide⟩).val :=
  dot_S1024x56_S1024x56_S1024x1024_1_1_0_0_n_n.lhsIdx_val_of_single rfl i q
theorem rhs_lb_0 (i : S1024x1024.Idx) (q : dot_S1024x56_S1024x56_S1024x1024_1_1_0_0_n_n.contr.Idx) :
    (dot_S1024x56_S1024x56_S1024x1024_1_1_0_0_n_n.rhsIdx i q 0).val = (i 1).val := by
  unfold DotDims.rhsIdx
  rw [dif_neg (show ¬(0 : Fin S1024x56.rank) ∈ dot_S1024x56_S1024x56_S1024x1024_1_1_0_0_n_n.rhsBatch by decide), dif_pos (show (0 : Fin S1024x56.rank) ∈ dot_S1024x56_S1024x56_S1024x1024_1_1_0_0_n_n.rhsNonContracting by decide)]
  rfl
theorem rhs_lb_1 (i : S1024x1024.Idx) (q : dot_S1024x56_S1024x56_S1024x1024_1_1_0_0_n_n.contr.Idx) :
    (dot_S1024x56_S1024x56_S1024x1024_1_1_0_0_n_n.rhsIdx i q 1).val = (q ⟨0, by decide⟩).val :=
  dot_S1024x56_S1024x56_S1024x1024_1_1_0_0_n_n.rhsIdx_val_of_single rfl i q

/-! ## The three products into a zero accumulator, read at an entry -/

/-- Entry `(p, c)` of the product of a `[1024, 1024]` by the transpose of a `[56, 1024]` array: `∑ j, l (p, j) * r (c, j)`. -/
theorem matmul_xa_apply (l : FVec Ideal S1024x1024 .bf16) (r : FVec Ideal S56x1024 .bf16) (p : Fin 1024) (c : Fin 56) :
    matmul dot_S1024x1024_S56x1024_S1024x56_1_1_0_0_n_n none l r (constant (F := Ideal) S1024x56 .f32 0x00000000#32) (ix2 p c)
      = ∑ j : Fin 1024, l (ix2 p j) * r (ix2 c j) := by
  simp only [matmul]
  rw [Ideal.matmul_constant_zero_apply, ← Equiv.sum_comp (contrEquiv1 dot_S1024x1024_S56x1024_S1024x56_1_1_0_0_n_n 1024 rfl rfl).symm]
  refine Finset.sum_congr rfl fun k _ => ?_
  have hk := contrEquiv1_symm_val dot_S1024x1024_S56x1024_S1024x56_1_1_0_0_n_n 1024 rfl rfl k
  have el : dot_S1024x1024_S56x1024_S1024x56_1_1_0_0_n_n.lhsIdx (ix2 p c) ((contrEquiv1 dot_S1024x1024_S56x1024_S1024x56_1_1_0_0_n_n 1024 rfl rfl).symm k) = ix2 p k := funext fun a => Fin.ext (by
    match a with
    | ⟨0, _⟩ => exact lhs_xa_0 _ _
    | ⟨1, _⟩ => exact (lhs_xa_1 _ _).trans hk)
  have er : dot_S1024x1024_S56x1024_S1024x56_1_1_0_0_n_n.rhsIdx (ix2 p c) ((contrEquiv1 dot_S1024x1024_S56x1024_S1024x56_1_1_0_0_n_n 1024 rfl rfl).symm k) = ix2 c k := funext fun a => Fin.ext (by
    match a with
    | ⟨0, _⟩ => exact rhs_xa_0 _ _
    | ⟨1, _⟩ => exact (rhs_xa_1 _ _).trans hk)
  rw [el, er]

/-- Entry `(p, c)` of the product of a `[1024, 1024]` by the transpose of a `[1024, 1024]` array: `∑ j, l (p, j) * r (c, j)`. -/
theorem matmul_xw_apply (l : FVec Ideal S1024x1024 .bf16) (r : FVec Ideal S1024x1024 .bf16) (p : Fin 1024) (c : Fin 1024) :
    matmul dot_S1024x1024_S1024x1024_S1024x1024_1_1_0_0_n_n none l r (constant (F := Ideal) S1024x1024 .f32 0x00000000#32) (ix2 p c)
      = ∑ j : Fin 1024, l (ix2 p j) * r (ix2 c j) := by
  simp only [matmul]
  rw [Ideal.matmul_constant_zero_apply, ← Equiv.sum_comp (contrEquiv1 dot_S1024x1024_S1024x1024_S1024x1024_1_1_0_0_n_n 1024 rfl rfl).symm]
  refine Finset.sum_congr rfl fun k _ => ?_
  have hk := contrEquiv1_symm_val dot_S1024x1024_S1024x1024_S1024x1024_1_1_0_0_n_n 1024 rfl rfl k
  have el : dot_S1024x1024_S1024x1024_S1024x1024_1_1_0_0_n_n.lhsIdx (ix2 p c) ((contrEquiv1 dot_S1024x1024_S1024x1024_S1024x1024_1_1_0_0_n_n 1024 rfl rfl).symm k) = ix2 p k := funext fun a => Fin.ext (by
    match a with
    | ⟨0, _⟩ => exact lhs_xw_0 _ _
    | ⟨1, _⟩ => exact (lhs_xw_1 _ _).trans hk)
  have er : dot_S1024x1024_S1024x1024_S1024x1024_1_1_0_0_n_n.rhsIdx (ix2 p c) ((contrEquiv1 dot_S1024x1024_S1024x1024_S1024x1024_1_1_0_0_n_n 1024 rfl rfl).symm k) = ix2 c k := funext fun a => Fin.ext (by
    match a with
    | ⟨0, _⟩ => exact rhs_xw_0 _ _
    | ⟨1, _⟩ => exact (rhs_xw_1 _ _).trans hk)
  rw [el, er]

/-- Entry `(p, c)` of the product of a `[1024, 56]` by the transpose of a `[1024, 56]` array: `∑ j, l (p, j) * r (c, j)`. -/
theorem matmul_lb_apply (l : FVec Ideal S1024x56 .bf16) (r : FVec Ideal S1024x56 .bf16) (p : Fin 1024) (c : Fin 1024) :
    matmul dot_S1024x56_S1024x56_S1024x1024_1_1_0_0_n_n none l r (constant (F := Ideal) S1024x1024 .f32 0x00000000#32) (ix2 p c)
      = ∑ j : Fin 56, l (ix2 p j) * r (ix2 c j) := by
  simp only [matmul]
  rw [Ideal.matmul_constant_zero_apply, ← Equiv.sum_comp (contrEquiv1 dot_S1024x56_S1024x56_S1024x1024_1_1_0_0_n_n 56 rfl rfl).symm]
  refine Finset.sum_congr rfl fun k _ => ?_
  have hk := contrEquiv1_symm_val dot_S1024x56_S1024x56_S1024x1024_1_1_0_0_n_n 56 rfl rfl k
  have el : dot_S1024x56_S1024x56_S1024x1024_1_1_0_0_n_n.lhsIdx (ix2 p c) ((contrEquiv1 dot_S1024x56_S1024x56_S1024x1024_1_1_0_0_n_n 56 rfl rfl).symm k) = ix2 p k := funext fun a => Fin.ext (by
    match a with
    | ⟨0, _⟩ => exact lhs_lb_0 _ _
    | ⟨1, _⟩ => exact (lhs_lb_1 _ _).trans hk)
  have er : dot_S1024x56_S1024x56_S1024x1024_1_1_0_0_n_n.rhsIdx (ix2 p c) ((contrEquiv1 dot_S1024x56_S1024x56_S1024x1024_1_1_0_0_n_n 56 rfl rfl).symm k) = ix2 c k := funext fun a => Fin.ext (by
    match a with
    | ⟨0, _⟩ => exact rhs_lb_0 _ _
    | ⟨1, _⟩ => exact (rhs_lb_1 _ _).trans hk)
  rw [el, er]

/-! ## The first body's payloads -/

/-- The clearing payload of the first body is `0` at every entry. -/
theorem pay1_0 (p : Fin 1024) (r : Fin 56) : k0_pay1 (F := Ideal) (ix2 p r) = 0 := by
  unfold k0_pay1
  refine (congrFun (shapeCast_self _ _) _).trans ?_
  exact Ideal.ofBits_zero_f32

/-- The accumulating payload of the first body: the accumulator's entry plus `∑ j, x (p, j) * a (r, j)`. -/
theorem pay2_0 (x : Vec Ideal S1024x1024 .f32) (a : Vec Ideal S56x1024 .f32) (acc : Vec Ideal S1024x56 .f32)
    (p : Fin 1024) (r : Fin 56) :
    k0_pay2 (F := Ideal) x a acc (ix2 p r) = acc (ix2 p r) + ∑ j : Fin 1024, x (ix2 p j) * a (ix2 r j) := by
  unfold k0_pay2
  refine (congrFun (shapeCast_self _ _) _).trans ?_
  refine (addf_apply _ _ _).trans ?_
  refine congrArg (acc (ix2 p r) + ·) ?_
  refine (matmul_xa_apply _ _ p r).trans ?_
  refine Finset.sum_congr rfl fun j _ => ?_
  rw [truncf_apply, truncf_apply, shapeCast_self, shapeCast_self]

/-- The scaling payload of the first body: the accumulator's entry `(p, r)` times entry `r` of the scale row. -/
theorem pay3_0 (acc : Vec Ideal S1024x56 .f32) (s : Vec Ideal S1x56 .f32) (p : Fin 1024) (r : Fin 56) :
    k0_pay3 (F := Ideal) acc s (ix2 p r) = acc (ix2 p r) * s (ix2 0 r) := by
  unfold k0_pay3
  refine (mulf_apply _ _ _).trans ?_
  refine congrArg (acc (ix2 p r) * ·) ?_
  refine (broadcastTo_1b_ab_apply _ _ p r).trans ?_
  rw [shapeCast_self, shapeCast_self]

/-! ## The second body's payloads -/

/-- The clearing payload of the second body is `0` at every entry. -/
theorem pay1_1 (p q : Fin 1024) : k1_pay1 (F := Ideal) (ix2 p q) = 0 := by
  unfold k1_pay1
  refine (congrFun (shapeCast_self _ _) _).trans ?_
  exact Ideal.ofBits_zero_f32

/-- The first accumulating payload of the second body: the accumulator's entry plus `∑ j, x (p, j) * w (q, j)`. -/
theorem pay2_1 (x w acc : Vec Ideal S1024x1024 .f32) (p q : Fin 1024) :
    k1_pay2 (F := Ideal) x w acc (ix2 p q) = acc (ix2 p q) + ∑ j : Fin 1024, x (ix2 p j) * w (ix2 q j) := by
  unfold k1_pay2
  refine (congrFun (shapeCast_self _ _) _).trans ?_
  refine (addf_apply _ _ _).trans ?_
  refine congrArg (acc (ix2 p q) + ·) ?_
  refine (matmul_xw_apply _ _ p q).trans ?_
  refine Finset.sum_congr rfl fun j _ => ?_
  rw [truncf_apply, truncf_apply, shapeCast_self]

/-- The second accumulating payload of the second body: the accumulator's entry plus `∑ r, low (p, r) * bb (q, r)`. -/
theorem pay3_1 (low bb : Vec Ideal S1024x56 .f32) (acc : Vec Ideal S1024x1024 .f32) (p q : Fin 1024) :
    k1_pay3 (F := Ideal) low bb acc (ix2 p q) = acc (ix2 p q) + ∑ r : Fin 56, low (ix2 p r) * bb (ix2 q r) := by
  unfold k1_pay3
  refine (congrFun (shapeCast_self _ _) _).trans ?_
  refine (addf_apply _ _ _).trans ?_
  refine congrArg (acc (ix2 p q) + ·) ?_
  refine (matmul_lb_apply _ _ p q).trans ?_
  refine Finset.sum_congr rfl fun j _ => ?_
  rw [truncf_apply, truncf_apply, shapeCast_self, shapeCast_self]

end Cert.KernelIdeal.PayAt

end
-- ==== Proof.Spec.lean ====
/-
  What the two programs compute, as plain functions on extended reals, entry by entry.

  The layer: base[b,s,o] = Σ_d x[b,s,d]·W[o,d]; for each of the three adapters (ranks 8, 16, 32)
  the low-rank product out_i[b,s,o] = Σ_r (Σ_d x[b,s,d]·A_i[r,d])·B_i[o,r]; the result is
  base + (α₀·out₀ + α₁·out₁ + α₂·out₂)·½.

  The reference forms it in that order (`refAt`). The kernel joins the three adapters into one
  rank-56 pair (Acat, Bcat), folds α_i·½ into one factor per rank column, and sums the 4096-long
  contractions in four runs of 1024, starting from zero (`lowAt`, `outAt`).
-/
import Idealize.ShloMosaic.PureOps.Ideal
import Idealize.ShloMosaic.Lib.ValueIdx

noncomputable section

open scoped BigOperators

namespace Cert.Spec

open Idealize.ShloMosaic Idealize.ShloMosaic.ValueIdx

/-- An array of extended reals with one, two or three axes of the given extents. -/
abbrev T1 (a : ℕ) : Type := (⟨1, ![a]⟩ : Shape).Idx → EReal
abbrev T2 (a b : ℕ) : Type := (⟨2, ![a, b]⟩ : Shape).Idx → EReal
abbrev T3 (a b c : ℕ) : Type := (⟨3, ![a, b, c]⟩ : Shape).Idx → EReal

/-- The factor ½ as both programs spell it: the binary32 word 0x3F000000. -/
def half : EReal := Ideal.ofBits .f32 0x3F000000#32

/-- One adapter of rank R at (b, s, o): Σ_r (Σ_d x[b,s,d]·A[r,d])·B[o,r]. -/
def adapt {R : ℕ} (x : T3 4 2048 4096) (A : T2 R 4096) (B : T2 4096 R) (b : Fin 4) (s : Fin 2048) (o : Fin 4096) : EReal :=
  ∑ r : Fin R, (∑ d : Fin 4096, x (ix3 b s d) * A (ix2 r d)) * B (ix2 o r)

/-- The reference's result at (b, s, o). -/
def refAt (x : T3 4 2048 4096) (W : T2 4096 4096) (A8 : T2 8 4096) (B8 : T2 4096 8) (A16 : T2 16 4096) (B16 : T2 4096 16)
    (A32 : T2 32 4096) (B32 : T2 4096 32) (al : T1 3) (b : Fin 4) (s : Fin 2048) (o : Fin 4096) : EReal :=
  (∑ d : Fin 4096, x (ix3 b s d) * W (ix2 o d))
    + (((0 + al (ix1 0) * adapt x A8 B8 b s o) + al (ix1 1) * adapt x A16 B16 b s o) + al (ix1 2) * adapt x A32 B32 b s o) * half

/-- A sum over 4096 terms taken as the kernels take it: from zero, four runs of 1024 consecutive terms. -/
def runs4 (f : Fin 4096 → EReal) : EReal :=
  0 + ∑ k : Fin 4, ∑ j : Fin 1024, f ⟨1024 * k.val + j.val, by omega⟩

/-- The first kernel's result at (m, r): the scaled low-rank projection. -/
def lowAt (x2 : T2 8192 4096) (Ac : T2 56 4096) (sc : T2 1 56) (m : Fin 8192) (r : Fin 56) : EReal :=
  runs4 (fun d => x2 (ix2 m d) * Ac (ix2 r d)) * sc (ix2 0 r)

/-- The second kernel's result at (m, o): the base product plus the rank-56 correction. -/
def outAt (x2 : T2 8192 4096) (W : T2 4096 4096) (low : T2 8192 56) (Bc : T2 4096 56) (m : Fin 8192) (o : Fin 4096) : EReal :=
  runs4 (fun d => x2 (ix2 m d) * W (ix2 o d)) + ∑ r : Fin 56, low (ix2 m r) * Bc (ix2 o r)

/-- Row r of the joined rank-56 table Acat: rows 0–7 are A8's, 8–23 are A16's, 24–55 are A32's. -/
def catA (A8 : T2 8 4096) (A16 : T2 16 4096) (A32 : T2 32 4096) (r : Fin 56) (d : Fin 4096) : EReal :=
  if h : r.val < 8 then A8 (ix2 ⟨r.val, h⟩ d)
  else if h2 : r.val < 24 then A16 (ix2 ⟨r.val - 8, by omega⟩ d)
  else A32 (ix2 ⟨r.val - 24, by omega⟩ d)

/-- Column r of the joined table Bcat: columns 0–7 are B8's, 8–23 are B16's, 24–55 are B32's. -/
def catB (B8 : T2 4096 8) (B16 : T2 4096 16) (B32 : T2 4096 32) (o : Fin 4096) (r : Fin 56) : EReal :=
  if h : r.val < 8 then B8 (ix2 o ⟨r.val, h⟩)
  else if h2 : r.val < 24 then B16 (ix2 o ⟨r.val - 8, by omega⟩)
  else B32 (ix2 o ⟨r.val - 24, by omega⟩)

/-- The mixing weight of rank column r: α₀ on columns 0–7, α₁ on 8–23, α₂ on 24–55. -/
def catAl (al : T1 3) (r : Fin 56) : EReal :=
  if r.val < 8 then al (ix1 0) else if r.val < 24 then al (ix1 1) else al (ix1 2)

/-- The kernel program's result at (b, s, o), in terms of the arguments. -/
def kerAt (x : T3 4 2048 4096) (W : T2 4096 4096) (A8 : T2 8 4096) (B8 : T2 4096 8) (A16 : T2 16 4096) (B16 : T2 4096 16)
    (A32 : T2 32 4096) (B32 : T2 4096 32) (al : T1 3) (b : Fin 4) (s : Fin 2048) (o : Fin 4096) : EReal :=
  runs4 (fun d => x (ix3 b s d) * W (ix2 o d))
    + ∑ r : Fin 56, (runs4 (fun d => x (ix3 b s d) * catA A8 A16 A32 r d) * (catAl al r * half)) * catB B8 B16 B32 o r

end Cert.Spec

end
-- ==== Proof.Out0Value.lean ====
import proofs.«106228_j62697932587275_1_alg».proof.Proof.Region0
import proofs.«106228_j62697932587275_1_alg».proof.Proof.PayAt
import proofs.«106228_j62697932587275_1_alg».proof.Proof.Spec
import Idealize.ShloMosaic.Lib.Pipeline.Value
import Idealize.ShloMosaic.Lib.ValueIdx

/-!
# What the first kernel's region leaves in its output array, entry by entry

The grid has 8 row blocks and, innermost, 4 reduction steps: point `t` works on row block `t / 4` at step `t % 4`.
At step `k` the body adds to its accumulator the product of the `[1024, 1024]` block `(t / 4, k)` of `x` by the
transpose of the `[56, 1024]` block `(0, k)` of `A`, starting from zero at `k = 0`; at `k = 3` it multiplies by the
scale row and the block is written back as row block `t / 4` of the output. So entry `(m, r)` of the output is
`(0 + ∑ k < 4, ∑ j < 1024, x (m, 1024 k + j) * A (r, 1024 k + j)) * s (0, r)`.
-/

noncomputable section

open scoped BigOperators

namespace Cert.KernelIdeal.Out0

open Cert.KernelIdeal Cert.KernelIdeal.Gen Idealize.ShloMosaic Idealize.ShloMosaic.ValueIdx
open Idealize.ShloMosaic.TcCoe Idealize.SL.Sem
open Idealize.ShloMosaic.Pipeline (Dat)

variable (V : (c : Dev nD) → (b : Ref sig .tc) → Buf (Elt Ideal) ((c : Thread nD τ).loc b)) (c : Dev nD)

/-! ## The block index maps over the grid -/

/-- At point `t`: the `x` window is at block `(t / 4, t % 4)`, the `A` window at `(0, t % 4)`, the scale row at `(0, 0)`
    and the output window at `(t / 4, 0)`. -/
theorem idx_facts : ∀ t : Fin cfg0.N,
    win0_0.index t (0 : Fin 2) = t.val / 4 ∧ win0_0.index t (1 : Fin 2) = t.val % 4
    ∧ win0_1.index t (0 : Fin 2) = 0 ∧ win0_1.index t (1 : Fin 2) = t.val % 4
    ∧ win0_2.index t (0 : Fin 2) = 0 ∧ win0_2.index t (1 : Fin 2) = 0
    ∧ win0_3.index t (0 : Fin 2) = t.val / 4 ∧ win0_3.index t (1 : Fin 2) = 0 :=
  (by decide +kernel : ∀ t : Fin grid0.N,
    win0_0.index t (0 : Fin 2) = t.val / 4 ∧ win0_0.index t (1 : Fin 2) = t.val % 4
    ∧ win0_1.index t (0 : Fin 2) = 0 ∧ win0_1.index t (1 : Fin 2) = t.val % 4
    ∧ win0_2.index t (0 : Fin 2) = 0 ∧ win0_2.index t (1 : Fin 2) = 0
    ∧ win0_3.index t (0 : Fin 2) = t.val / 4 ∧ win0_3.index t (1 : Fin 2) = 0)

/-! ## The input blocks read at coordinates -/

/-- Entry `(p, j)` of the `x` block at point `t` is entry `(1024 (t / 4) + p, 1024 (t % 4) + j)` of `x`. -/
theorem xb0_apply (t : Fin cfg0.N) (p j : Fin 1024) (a : Fin 8192) (b : Fin 4096)
    (ha : a.val = 1024 * (t.val / 4) + p.val) (hb : b.val = 1024 * (t.val % 4) + j.val) :
    xb0 V c t (ix2 p j) = (V c main_v0 : S8192x4096.Idx → EReal) (ix2 a b) := by
  obtain ⟨e0, e1, -⟩ := idx_facts t
  show V c main_v0 (((cfg0.win 0).blk t).view.emb (ix2 p j)) = V c main_v0 (ix2 a b)
  refine congrArg (V c main_v0) (funext fun ax => Fin.ext ?_)
  match ax with
  | ⟨0, _⟩ => show win0_0.index t (0 : Fin 2) * 1024 + 1 * p.val = a.val; omega
  | ⟨1, _⟩ => show win0_0.index t (1 : Fin 2) * 1024 + 1 * j.val = b.val; omega

/-- Entry `(r, j)` of the `A` block at point `t` is entry `(r, 1024 (t % 4) + j)` of `A`. -/
theorem ab0_apply (t : Fin cfg0.N) (r : Fin 56) (j : Fin 1024) (b : Fin 4096)
    (hb : b.val = 1024 * (t.val % 4) + j.val) :
    ab0 V c t (ix2 r j) = (V c main_v1 : S56x4096.Idx → EReal) (ix2 r b) := by
  obtain ⟨-, -, e0, e1, -⟩ := idx_facts t
  show V c main_v1 (((cfg0.win 1).blk t).view.emb (ix2 r j)) = V c main_v1 (ix2 r b)
  refine congrArg (V c main_v1) (funext fun ax => Fin.ext ?_)
  match ax with
  | ⟨0, _⟩ => show win0_1.index t (0 : Fin 2) * 56 + 1 * r.val = r.val; omega
  | ⟨1, _⟩ => show win0_1.index t (1 : Fin 2) * 1024 + 1 * j.val = b.val; omega

/-- The scale block at every point is the scale row itself. -/
theorem sb0_apply (t : Fin cfg0.N) (r : Fin 56) :
    sb0 V c t (ix2 0 r) = (V c main_v16 : S1x56.Idx → EReal) (ix2 0 r) := by
  obtain ⟨-, -, -, -, e0, e1, -⟩ := idx_facts t
  show V c main_v16 (((cfg0.win 2).blk t).view.emb (ix2 0 r)) = V c main_v16 (ix2 0 r)
  refine congrArg (V c main_v16) (funext fun ax => Fin.ext ?_)
  match ax with
  | ⟨0, _⟩ => show win0_2.index t (0 : Fin 2) * 1 + 1 * 0 = 0; omega
  | ⟨1, _⟩ => show win0_2.index t (1 : Fin 2) * 56 + 1 * r.val = r.val; omega

/-! ## The accumulator at the points that write back -/

/-- The product of the two blocks of point `n` at entry `(p, r)`: `∑ j, x-block (p, j) * A-block (r, j)` (`0` past the grid). -/
def prod0 (n : ℕ) (p : Fin 1024) (r : Fin 56) : EReal :=
  if h : n < cfg0.N then ∑ j : Fin 1024, xb0 V c ⟨n, h⟩ (ix2 p j) * ab0 V c ⟨n, h⟩ (ix2 r j) else 0

/-- The same at an index of the accumulator's shape. -/
def prodIdx (n : ℕ) (i : S1024x56.Idx) : EReal := prod0 V c n ⟨(i 0).val, idx2_lt0 i⟩ ⟨(i 1).val, idx2_lt1 i⟩

theorem prodIdx_ix2 (n : ℕ) (p : Fin 1024) (r : Fin 56) : prodIdx V c n (ix2 p r) = prod0 V c n p r := rfl

/-- The zero block is `0` at every index. -/
theorem zero_apply (i : S1024x56.Idx) : k0_pay1 (F := Ideal) i = 0 := by
  obtain ⟨p, r, rfl⟩ : ∃ (p : Fin 1024) (r : Fin 56), i = ix2 p r := ⟨i 0, i 1, eq_ix2 i⟩
  exact PayAt.pay1_0 p r

/-- One step of the accumulation at an index: what was there plus the point's product. -/
theorem step_apply (n : ℕ) (h : n < cfg0.N) (acc : Vec Ideal S1024x56 .f32) (i : S1024x56.Idx) :
    k0_pay2 (F := Ideal) (xb0 V c ⟨n, h⟩) (ab0 V c ⟨n, h⟩) acc i = acc i + prodIdx V c n i := by
  obtain ⟨p, r, rfl⟩ : ∃ (p : Fin 1024) (r : Fin 56), i = ix2 p r := ⟨i 0, i 1, eq_ix2 i⟩
  rw [PayAt.pay2_0, prodIdx_ix2, prod0, dif_pos h]

/-- After the last of the four steps of row block `q` the accumulator holds, at `(p, r)`, zero plus the four points'
    products in order. -/
theorem acc0_last (q : ℕ) (hq : 4 * q + 3 < cfg0.N) (p : Fin 1024) (r : Fin 56) :
    acc0 V c (4 * q + 3) hq (ix2 p r) = 0 + ∑ s ∈ Finset.range 4, prod0 V c (4 * q + s) p r := by
  rw [Pipeline.eq_accAt (N := cfg0.N) (fun n h => acc0 V c n h) 4
    (fun n h => k0_pay2 (xb0 V c ⟨n, h⟩) (ab0 V c ⟨n, h⟩) (k0_pay1 (F := Ideal)))
    (fun n h s => k0_pay2 (xb0 V c ⟨n, h⟩) (ab0 V c ⟨n, h⟩) s)
    (fun n h e => acc0_reset V c ⟨n, h⟩ e)
    (fun n h e => acc0_step V c ⟨n + 1, h⟩ e) q 3 (by decide) hq]
  exact Pipeline.accAt_add_apply (N := cfg0.N)
    (fun n h => k0_pay2 (xb0 V c ⟨n, h⟩) (ab0 V c ⟨n, h⟩) (k0_pay1 (F := Ideal)))
    (fun n h s => k0_pay2 (xb0 V c ⟨n, h⟩) (ab0 V c ⟨n, h⟩) s)
    (fun _ => 0) (fun n i => prodIdx V c n i) (4 * q) 3
    (fun h i => (step_apply V c (4 * q) h (k0_pay1 (F := Ideal)) i).trans (congrArg (· + prodIdx V c (4 * q) i) (zero_apply i)))
    (fun n h acc i _ _ => step_apply V c n h acc i) 3 le_rfl hq (ix2 p r)

/-- The same at any point `t` with `t % 4 = 3`, whose row block is `t / 4`. -/
theorem acc0_at (t : ℕ) (ht : t < cfg0.N) (h3 : t % 4 = 3) (p : Fin 1024) (r : Fin 56) :
    acc0 V c t ht (ix2 p r) = 0 + ∑ s ∈ Finset.range 4, prod0 V c (4 * (t / 4) + s) p r := by
  have e : 4 * (t / 4) + 3 = t := by omega
  have same : ∀ (u : ℕ) (hu : u < cfg0.N), u = t → acc0 V c u hu = acc0 V c t ht := fun u hu e => by subst e; rfl
  rw [← same (4 * (t / 4) + 3) (by omega) e]
  exact acc0_last V c (t / 4) _ p r

/-! ## A point's product in terms of the whole arrays -/

/-- The three input arrays as the region finds them, at their literal types. -/
abbrev xArr : Cert.Spec.T2 8192 4096 := V c main_v0
abbrev aArr : Cert.Spec.T2 56 4096 := V c main_v1
abbrev sArr : Cert.Spec.T2 1 56 := V c main_v16

/-- The product of step `k` of row block `q` at `(p, r)` runs over columns `1024 k … 1024 k + 1023` of row `1024 q + p` of `x`
    and of row `r` of `A`. -/
theorem prod0_eq (q : ℕ) (hq : q < 8) (k : Fin 4) (p : Fin 1024) (r : Fin 56) (m : Fin 8192) (hm : m.val = 1024 * q + p.val) :
    prod0 V c (4 * q + k.val) p r
      = ∑ j : Fin 1024, xArr V c (ix2 m ⟨1024 * k.val + j.val, by omega⟩) * aArr V c (ix2 r ⟨1024 * k.val + j.val, by omega⟩) := by
  have hN : cfg0.N = 32 := N_0
  have hlt : 4 * q + k.val < cfg0.N := by omega
  rw [prod0, dif_pos hlt]
  refine Finset.sum_congr rfl fun j _ => ?_
  rw [xb0_apply V c ⟨4 * q + k.val, hlt⟩ p j m ⟨1024 * k.val + j.val, by omega⟩ (by simp only; omega) (by simp only; omega),
    ab0_apply V c ⟨4 * q + k.val, hlt⟩ r j ⟨1024 * k.val + j.val, by omega⟩ (by simp only; omega)]

/-! ## The output array -/

/-- The whole output array as one function of the three input arrays. -/
def lowArr : S8192x56.Idx → EReal := fun i =>
  Cert.Spec.lowAt (V c main_v0) (V c main_v1) (V c main_v16) ⟨(i 0).val, idx2_lt0 i⟩ ⟨(i 1).val, idx2_lt1 i⟩

theorem lowArr_ix2 (m : Fin 8192) (r : Fin 56) :
    lowArr V c (ix2 m r) = Cert.Spec.lowAt (V c main_v0) (V c main_v1) (V c main_v16) m r := rfl

/-- What a point with `t % 4 = 3` writes back is its block of that function. -/
theorem flushed_eq (t : Fin cfg0.N) (hf : (cfg0.win 3).flush t = true) :
    (dat0 V c).flushed 3 t = ((cfg0.win 3).blk t).view.read (Elt Ideal) (lowArr V c) := by
  have hN : cfg0.N = 32 := N_0
  have h3 : t.val % 4 = 3 := (flush0_3 t).mp hf
  have ht : t.val < 32 := hN ▸ t.isLt
  obtain ⟨-, -, -, -, -, -, e0, e1⟩ := idx_facts t
  show (cfg0.win 3).cut (grid0.coords t) ((dat0 V c).after 3 t) = _
  rw [after0_3]
  funext y
  have hy0 : (y 0).val < 1024 := (y 0).isLt
  have hy1 : (y 1).val < 56 := (y 1).isLt
  have hL : (cfg0.win 3).cut (grid0.coords t) (k0_pay3 (acc0 V c t.val t.isLt) (sb0 V c t)) y
      = k0_pay3 (acc0 V c t.val t.isLt) (sb0 V c t) (ix2 ⟨(y 0).val, hy0⟩ ⟨(y 1).val, hy1⟩) := by
    show k0_pay3 (acc0 V c t.val t.isLt) (sb0 V c t) _ = _
    refine congrArg _ (funext fun a => ?_)
    match a with
    | ⟨0, _⟩ => rfl
    | ⟨1, _⟩ => rfl
  have hR : ((cfg0.win 3).blk t).view.read (Elt Ideal) (lowArr V c) y
      = lowArr V c (ix2 ⟨1024 * (t.val / 4) + (y 0).val, by omega⟩ ⟨(y 1).val, hy1⟩) := by
    show lowArr V c (((cfg0.win 3).blk t).view.emb y) = _
    refine congrArg (lowArr V c) (funext fun a => Fin.ext ?_)
    match a with
    | ⟨0, _⟩ => show win0_3.index t (0 : Fin 2) * 1024 + 1 * (y 0).val = 1024 * (t.val / 4) + (y 0).val; omega
    | ⟨1, _⟩ => show win0_3.index t (1 : Fin 2) * 56 + 1 * (y 1).val = (y 1).val; omega
  rw [hL, hR, PayAt.pay3_0, lowArr_ix2, acc0_at V c t.val t.isLt h3, sb0_apply]
  unfold Cert.Spec.lowAt Cert.Spec.runs4
  refine congrArg (· * _) (congrArg (0 + ·) ?_)
  rw [← Fin.sum_univ_eq_sum_range (fun s => prod0 V c (4 * (t.val / 4) + s) ⟨(y 0).val, hy0⟩ ⟨(y 1).val, hy1⟩) 4]
  refine Finset.sum_congr rfl fun k _ => ?_
  exact prod0_eq V c (t.val / 4) (by omega) k ⟨(y 0).val, hy0⟩ ⟨(y 1).val, hy1⟩ ⟨1024 * (t.val / 4) + (y 0).val, by omega⟩ rfl

/-- An index of the output array is in point `t`'s block iff each coordinate is in the block's range on its axis. -/
theorem mem_blk (t : Fin cfg0.N) (i : S8192x56.Idx) :
    i ∈ ((cfg0.win 3).blk t).view.set ↔ ∀ a : Fin 2, win0_3.index t a * S1024x56.size a ≤ (i a).val
      ∧ (i a).val < win0_3.index t a * S1024x56.size a + S1024x56.size a := by
  show i ∈ ((View.whole main_v17).slice (win0_3.rect t)).set ↔ _
  rw [View.set_slice_whole, Rect.mem_set_unit]
  exact Iff.rfl

/-- Every entry `(m, r)` lies in the block written back at the last step of its row block, point `4 (m / 1024) + 3`. -/
theorem cover (i : S8192x56.Idx) :
    ∃ t : Fin cfg0.N, (cfg0.win 3).flush t = true ∧ i ∈ ((cfg0.win 3).blk t).view.set := by
  have hN : cfg0.N = 32 := N_0
  have hi0 : (i 0).val < 8192 := (i 0).isLt
  have hi1 : (i 1).val < 56 := (i 1).isLt
  have hlt : 4 * ((i 0).val / 1024) + 3 < cfg0.N := by omega
  obtain ⟨-, -, -, -, -, -, e0, e1⟩ := idx_facts ⟨4 * ((i 0).val / 1024) + 3, hlt⟩
  refine ⟨⟨4 * ((i 0).val / 1024) + 3, hlt⟩, (flush0_3 _).mpr (by simp only; omega), ?_⟩
  rw [mem_blk]
  intro a
  match a with
  | ⟨0, _⟩ =>
    show win0_3.index ⟨4 * ((i 0).val / 1024) + 3, hlt⟩ (0 : Fin 2) * 1024 ≤ (i 0).val
      ∧ (i 0).val < win0_3.index ⟨4 * ((i 0).val / 1024) + 3, hlt⟩ (0 : Fin 2) * 1024 + 1024
    rw [e0]; simp only; omega
  | ⟨1, _⟩ =>
    show win0_3.index ⟨4 * ((i 0).val / 1024) + 3, hlt⟩ (1 : Fin 2) * 56 ≤ (i 1).val
      ∧ (i 1).val < win0_3.index ⟨4 * ((i 0).val / 1024) + 3, hlt⟩ (1 : Fin 2) * 56 + 56
    rw [e1]; omega

/-- After the region the output array holds that function. -/
theorem low_arr : (dat0 (F := Ideal) V c).arrAt 3 cfg0.N = lowArr V c :=
  (dat0 V c).arrAt_eq_of_cover 3 (lowArr V c) (flushed_eq V c) (cover)

/-- Entry by entry: the output at `(m, r)` is the scaled low-rank projection of the specification. -/
theorem low_final (m : Fin 8192) (r : Fin 56) :
    ((dat0 (F := Ideal) V c).arrAt 3 cfg0.N : S8192x56.Idx → EReal) (ix2 m r)
      = Cert.Spec.lowAt (V c main_v0) (V c main_v1) (V c main_v16) m r := by
  rw [low_arr]; rfl

end Cert.KernelIdeal.Out0

end
-- ==== Proof.Out1Value.lean ====
/-
  What the second kernel's region leaves in its result array, entry by entry, at the extended reals.

  The grid is 8 row blocks × 4 column blocks × 4 reduction steps, point t = 16·i + 4·j + k. The accumulator is zeroed
  at k = 0, gains x-block · W-blockᵀ at every k, and at k = 3 gains low-block · B-blockᵀ and is written back as block
  (i, j) of the result. Reading the four blocks as entries of their arrays turns the accumulator at a write-back point
  into 0 + Σ_{k<4} Σ_{j<1024} x[m, 1024k+j]·W[o, 1024k+j], plus Σ_{r<56} low[m, r]·B[o, r], at m = 1024·i + p,
  o = 1024·j + q: the specification's `outAt`. The 32 written blocks tile the result array, so it ends at `outAt`
  everywhere.
-/
import proofs.«106228_j62697932587275_1_alg».proof.Proof.Region1
import proofs.«106228_j62697932587275_1_alg».proof.Proof.PayAt
import proofs.«106228_j62697932587275_1_alg».proof.Proof.Spec
import Idealize.ShloMosaic.Lib.Pipeline.Value
import Idealize.ShloMosaic.Lib.ValueIdx

noncomputable section

open scoped BigOperators

namespace Cert.KernelIdeal.Out1

open Cert.KernelIdeal Cert.KernelIdeal.Gen Idealize.ShloMosaic Idealize.ShloMosaic.ValueIdx
open Idealize.ShloMosaic.TcCoe Idealize.SL.Sem

variable (V : (c : Dev nD) → (b : Ref sig .tc) → Buf (Elt Ideal) ((c : Thread nD τ).loc b)) (c : Dev nD)

/-! ### The block indices over the grid

Point t = 16·i + 4·j + k has row block i = t / 16, column block j = (t / 4) mod 4 and reduction step k = t mod 4. -/

theorem idx_facts : ∀ t : Fin cfg1.N,
    win1_0.index t (0 : Fin 2) = t.val / 16 ∧ win1_0.index t (1 : Fin 2) = t.val % 4
    ∧ win1_1.index t (0 : Fin 2) = (t.val / 4) % 4 ∧ win1_1.index t (1 : Fin 2) = t.val % 4
    ∧ win1_2.index t (0 : Fin 2) = t.val / 16 ∧ win1_2.index t (1 : Fin 2) = 0
    ∧ win1_3.index t (0 : Fin 2) = (t.val / 4) % 4 ∧ win1_3.index t (1 : Fin 2) = 0
    ∧ win1_4.index t (0 : Fin 2) = t.val / 16 ∧ win1_4.index t (1 : Fin 2) = (t.val / 4) % 4 :=
  (by decide +kernel : ∀ t : Fin grid1.N, _)

/-! ### The input blocks as entries of their arrays

A block's coordinate in the array is the block index times the block's extent plus the coordinate inside the block. -/

/-- The x block at point t: rows 1024·(t/16) + p, columns 1024·(t mod 4) + j of x. -/
theorem xb1_at (t : Fin cfg1.N) (p : Fin 1024) (j : Fin 1024) (k : S8192x4096.Idx)
    (hk0 : (k 0).val = 1024 * (t.val / 16) + p.val) (hk1 : (k 1).val = 1024 * (t.val % 4) + j.val) :
    xb1 (F := Ideal) V c t (ix2 p j) = (V c main_v0 : S8192x4096.Idx → EReal) k := by
  obtain ⟨a0, a1, b0, b1, l0, l1, r0, r1, -⟩ := idx_facts t
  show iblk1 V c 0 t (ix2 p j) = _
  unfold iblk1
  rw [View.read_apply]
  show V c main_v0 _ = V c main_v0 _
  congr 1
  funext a
  apply Fin.ext
  match a with
  | ⟨0, _⟩ => show win1_0.index t 0 * 1024 + 1 * p.val = (k 0).val; rw [a0, hk0]; omega
  | ⟨1, _⟩ => show win1_0.index t 1 * 1024 + 1 * j.val = (k 1).val; rw [a1, hk1]; omega

/-- The W block at point t: rows 1024·((t/4) mod 4) + q, columns 1024·(t mod 4) + j of W. -/
theorem wb1_at (t : Fin cfg1.N) (p : Fin 1024) (j : Fin 1024) (k : S4096x4096.Idx)
    (hk0 : (k 0).val = 1024 * ((t.val / 4) % 4) + p.val) (hk1 : (k 1).val = 1024 * (t.val % 4) + j.val) :
    wb1 (F := Ideal) V c t (ix2 p j) = (V c main_arg1 : S4096x4096.Idx → EReal) k := by
  obtain ⟨a0, a1, b0, b1, l0, l1, r0, r1, -⟩ := idx_facts t
  show iblk1 V c 1 t (ix2 p j) = _
  unfold iblk1
  rw [View.read_apply]
  show V c main_arg1 _ = V c main_arg1 _
  congr 1
  funext a
  apply Fin.ext
  match a with
  | ⟨0, _⟩ => show win1_1.index t 0 * 1024 + 1 * p.val = (k 0).val; rw [b0, hk0]; omega
  | ⟨1, _⟩ => show win1_1.index t 1 * 1024 + 1 * j.val = (k 1).val; rw [b1, hk1]; omega

/-- The low block at point t: rows 1024·(t/16) + p of the rank-56 projection, every column. -/
theorem lb1_at (t : Fin cfg1.N) (p : Fin 1024) (j : Fin 56) (k : S8192x56.Idx)
    (hk0 : (k 0).val = 1024 * (t.val / 16) + p.val) (hk1 : (k 1).val = j.val) :
    lb1 (F := Ideal) V c t (ix2 p j) = (V c main_v17 : S8192x56.Idx → EReal) k := by
  obtain ⟨a0, a1, b0, b1, l0, l1, r0, r1, -⟩ := idx_facts t
  show iblk1 V c 2 t (ix2 p j) = _
  unfold iblk1
  rw [View.read_apply]
  show V c main_v17 _ = V c main_v17 _
  congr 1
  funext a
  apply Fin.ext
  match a with
  | ⟨0, _⟩ => show win1_2.index t 0 * 1024 + 1 * p.val = (k 0).val; rw [l0, hk0]; omega
  | ⟨1, _⟩ => show win1_2.index t 1 * 56 + 1 * j.val = (k 1).val; rw [l1, hk1]; omega

/-- The B block at point t: rows 1024·((t/4) mod 4) + q of the joined B table, every column. -/
theorem bb1_at (t : Fin cfg1.N) (p : Fin 1024) (j : Fin 56) (k : S4096x56.Idx)
    (hk0 : (k 0).val = 1024 * ((t.val / 4) % 4) + p.val) (hk1 : (k 1).val = j.val) :
    bb1 (F := Ideal) V c t (ix2 p j) = (V c main_v2 : S4096x56.Idx → EReal) k := by
  obtain ⟨a0, a1, b0, b1, l0, l1, r0, r1, -⟩ := idx_facts t
  show iblk1 V c 3 t (ix2 p j) = _
  unfold iblk1
  rw [View.read_apply]
  show V c main_v2 _ = V c main_v2 _
  congr 1
  funext a
  apply Fin.ext
  match a with
  | ⟨0, _⟩ => show win1_3.index t 0 * 1024 + 1 * p.val = (k 0).val; rw [r0, hk0]; omega
  | ⟨1, _⟩ => show win1_3.index t 1 * 56 + 1 * j.val = (k 1).val; rw [r1, hk1]; omega

/-! ### The accumulator, entry by entry

One reduction step adds the x block times the transposed W block; the step after a reset starts from zero; the last
step of a run of four also adds the low block times the transposed B block. -/

/-- One step's product at (p, q). -/
abbrev stepSum (t : Fin cfg1.N) (p q : Fin 1024) : EReal :=
  ∑ j : Fin 1024, xb1 (F := Ideal) V c t (ix2 p j) * wb1 (F := Ideal) V c t (ix2 q j)

theorem acc1_at_reset (n : ℕ) (h : n < cfg1.N) (h0 : n % 4 = 0) (p q : Fin 1024) :
    acc1 (F := Ideal) V c n h (ix2 p q) = 0 + stepSum V c ⟨n, h⟩ p q := by
  have e : acc1 (F := Ideal) V c n h = _ := acc1_reset V c ⟨n, h⟩ h0
  rw [e, PayAt.pay2_1, PayAt.pay1_1]

theorem acc1_at_mid (n : ℕ) (h : n < cfg1.N) (h0 : ¬n % 4 = 0) (h3 : ¬n % 4 = 3) (p q : Fin 1024) :
    acc1 (F := Ideal) V c n h (ix2 p q)
      = acc1 (F := Ideal) V c (n - 1) (Nat.lt_of_le_of_lt (Nat.sub_le _ _) h) (ix2 p q) + stepSum V c ⟨n, h⟩ p q := by
  have e : acc1 (F := Ideal) V c n h
      = k1_pay2 (xb1 V c ⟨n, h⟩) (wb1 V c ⟨n, h⟩) (acc1 V c (n - 1) (Nat.lt_of_le_of_lt (Nat.sub_le _ _) h)) :=
    (acc1_step V c ⟨n, h⟩ h0).trans (step1_mid V c ⟨n, h⟩ h3 _)
  rw [e, PayAt.pay2_1]

theorem acc1_at_last (n : ℕ) (h : n < cfg1.N) (h3 : n % 4 = 3) (p q : Fin 1024) :
    acc1 (F := Ideal) V c n h (ix2 p q)
      = (acc1 (F := Ideal) V c (n - 1) (Nat.lt_of_le_of_lt (Nat.sub_le _ _) h) (ix2 p q) + stepSum V c ⟨n, h⟩ p q)
        + ∑ r : Fin 56, lb1 (F := Ideal) V c ⟨n, h⟩ (ix2 p r) * bb1 (F := Ideal) V c ⟨n, h⟩ (ix2 q r) := by
  have e : acc1 (F := Ideal) V c n h
      = k1_pay3 (lb1 V c ⟨n, h⟩) (bb1 V c ⟨n, h⟩)
          (k1_pay2 (xb1 V c ⟨n, h⟩) (wb1 V c ⟨n, h⟩) (acc1 V c (n - 1) (Nat.lt_of_le_of_lt (Nat.sub_le _ _) h))) :=
    (acc1_step V c ⟨n, h⟩ (by show ¬n % 4 = 0; omega)).trans (step1_last V c ⟨n, h⟩ h3 _)
  rw [e, PayAt.pay3_1, PayAt.pay2_1]

/-! ### The four arrays the region reads, at their literal types -/

abbrev X : Cert.Spec.T2 8192 4096 := V c main_v0
abbrev W : Cert.Spec.T2 4096 4096 := V c main_arg1
abbrev L : Cert.Spec.T2 8192 56 := V c main_v17
abbrev B : Cert.Spec.T2 4096 56 := V c main_v2

/-- One step's product in terms of the arrays: at a point with reduction step k, the products over columns
    1024·k … 1024·k + 1023. -/
theorem stepSum_eq (s : Fin cfg1.N) (k : Fin 4) (hk : s.val % 4 = k.val) (p q : Fin 1024) (m : Fin 8192) (o : Fin 4096)
    (hm : m.val = 1024 * (s.val / 16) + p.val) (ho : o.val = 1024 * ((s.val / 4) % 4) + q.val) :
    stepSum V c s p q
      = ∑ j : Fin 1024, X V c (ix2 m ⟨1024 * k.val + j.val, by omega⟩) * W V c (ix2 o ⟨1024 * k.val + j.val, by omega⟩) :=
  Finset.sum_congr rfl fun j _ => congrArg₂ (· * ·)
    (xb1_at V c s p j (ix2 m ⟨1024 * k.val + j.val, by omega⟩) hm (by show 1024 * k.val + j.val = _; rw [hk]))
    (wb1_at V c s q j (ix2 o ⟨1024 * k.val + j.val, by omega⟩) ho (by show 1024 * k.val + j.val = _; rw [hk]))

/-- The rank-56 correction in terms of the arrays. -/
theorem corr_eq (s : Fin cfg1.N) (p q : Fin 1024) (m : Fin 8192) (o : Fin 4096)
    (hm : m.val = 1024 * (s.val / 16) + p.val) (ho : o.val = 1024 * ((s.val / 4) % 4) + q.val) :
    (∑ r : Fin 56, lb1 (F := Ideal) V c s (ix2 p r) * bb1 (F := Ideal) V c s (ix2 q r) : EReal)
      = ∑ r : Fin 56, L V c (ix2 m r) * B V c (ix2 o r) :=
  Finset.sum_congr rfl fun r _ => congrArg₂ (· * ·)
    (lb1_at V c s p r (ix2 m r) hm rfl) (bb1_at V c s q r (ix2 o r) ho rfl)

/-- At a point that ends a run of four reduction steps the accumulator holds, at (p, q), the specification's entry
    (1024·(t/16) + p, 1024·((t/4) mod 4) + q): the four products from zero, then the correction. -/
theorem acc_closed (t : Fin cfg1.N) (h3 : t.val % 4 = 3) (p q : Fin 1024) (m : Fin 8192) (o : Fin 4096)
    (hm : m.val = 1024 * (t.val / 16) + p.val) (ho : o.val = 1024 * ((t.val / 4) % 4) + q.val) :
    acc1 (F := Ideal) V c t.val t.isLt (ix2 p q) = Cert.Spec.outAt (X V c) (W V c) (L V c) (B V c) m o := by
  have hN : cfg1.N = 128 := N_1
  have ht : t.val < cfg1.N := t.isLt
  rw [acc1_at_last V c t.val t.isLt h3, acc1_at_mid V c (t.val - 1) _ (by omega) (by omega),
    acc1_at_mid V c (t.val - 1 - 1) _ (by omega) (by omega), acc1_at_reset V c (t.val - 1 - 1 - 1) _ (by omega)]
  rw [stepSum_eq V c ⟨t.val - 1 - 1 - 1, _⟩ 0 (by show (t.val - 1 - 1 - 1) % 4 = 0; omega) p q m o
      (by show m.val = 1024 * ((t.val - 1 - 1 - 1) / 16) + p.val; omega)
      (by show o.val = 1024 * (((t.val - 1 - 1 - 1) / 4) % 4) + q.val; omega),
    stepSum_eq V c ⟨t.val - 1 - 1, _⟩ 1 (by show (t.val - 1 - 1) % 4 = 1; omega) p q m o
      (by show m.val = 1024 * ((t.val - 1 - 1) / 16) + p.val; omega)
      (by show o.val = 1024 * (((t.val - 1 - 1) / 4) % 4) + q.val; omega),
    stepSum_eq V c ⟨t.val - 1, _⟩ 2 (by show (t.val - 1) % 4 = 2; omega) p q m o
      (by show m.val = 1024 * ((t.val - 1) / 16) + p.val; omega)
      (by show o.val = 1024 * (((t.val - 1) / 4) % 4) + q.val; omega),
    stepSum_eq V c ⟨t.val, t.isLt⟩ 3 (by show t.val % 4 = 3; exact h3) p q m o hm ho,
    corr_eq V c ⟨t.val, t.isLt⟩ p q m o hm ho]
  unfold Cert.Spec.outAt Cert.Spec.runs4
  rw [Fin.sum_univ_four]
  simp only [zero_add]

/-! ### From the blocks to the array -/

/-- What the result array is to end holding: the specification's entry at every index. -/
abbrev G : S8192x4096.Idx → EReal :=
  fun i => Cert.Spec.outAt (X V c) (W V c) (L V c) (B V c) (i 0) (i 1)

/-- What a write-back point writes is its block of `G`. -/
theorem flushed_eq (t : Fin cfg1.N) (hf : (cfg1.win 4).flush t = true) :
    (dat1 (F := Ideal) V c).flushed 4 t = ((cfg1.win 4).blk t).view.read (Elt Ideal) (G V c) := by
  have h3 : t.val % 4 = 3 := (flush1_4 t).mp hf
  obtain ⟨-, -, -, -, -, -, -, -, o0, o1⟩ := idx_facts t
  funext j
  rw [View.read_apply]
  show (dat1 (F := Ideal) V c).after 4 t ((cfg1.win 4).xinj (grid1.coords t) j) = G V c (((cfg1.win 4).blk t).view.emb j)
  rw [after1_4]
  have hp : (j 0).val < 1024 := (j 0).isLt
  have hq : (j 1).val < 1024 := (j 1).isLt
  have hN : cfg1.N = 128 := N_1
  have ht : t.val < cfg1.N := t.isLt
  have e1 : (cfg1.win 4).xinj (grid1.coords t) j = ix2 (⟨(j 0).val, hp⟩ : Fin 1024) (⟨(j 1).val, hq⟩ : Fin 1024) :=
    funext fun a => by match a with | ⟨0, _⟩ => rfl | ⟨1, _⟩ => rfl
  have e2 : ((cfg1.win 4).blk t).view.emb j
      = ix2 (⟨1024 * (t.val / 16) + (j 0).val, by omega⟩ : Fin 8192) (⟨1024 * ((t.val / 4) % 4) + (j 1).val, by omega⟩ : Fin 4096) :=
    funext fun a => Fin.ext (by
      match a with
      | ⟨0, _⟩ => show win1_4.index t 0 * 1024 + 1 * (j 0).val = 1024 * (t.val / 16) + (j 0).val; rw [o0]; omega
      | ⟨1, _⟩ => show win1_4.index t 1 * 1024 + 1 * (j 1).val = 1024 * ((t.val / 4) % 4) + (j 1).val; rw [o1]; omega)
  rw [e1, e2]
  exact acc_closed V c t h3 _ _ _ _ rfl rfl

/-- An index of the result array is in point t's block iff each coordinate is in the block's range on its axis. -/
theorem mem_blk (t : Fin cfg1.N) (i : S8192x4096.Idx) :
    i ∈ ((cfg1.win 4).blk t).view.set
      ↔ ∀ a : Fin 2, win1_4.index t a * S1024x1024.size a ≤ (i a).val ∧ (i a).val < win1_4.index t a * S1024x1024.size a + S1024x1024.size a := by
  show i ∈ ((View.whole main_v18).slice (win1_4.rect t)).set ↔ _
  rw [View.set_slice_whole, Rect.mem_set_unit]
  exact Iff.rfl

/-- Every index lies in the block of a write-back point: entry (r, s) in that of point 16·(r/1024) + 4·(s/1024) + 3. -/
theorem cover (i : S8192x4096.Idx) :
    ∃ t : Fin cfg1.N, (cfg1.win 4).flush t = true ∧ i ∈ ((cfg1.win 4).blk t).view.set := by
  have h0 : (i 0).val < 8192 := (i 0).isLt
  have h1 : (i 1).val < 4096 := (i 1).isLt
  have hN : cfg1.N = 128 := N_1
  refine ⟨⟨16 * ((i 0).val / 1024) + 4 * ((i 1).val / 1024) + 3, by omega⟩, (flush1_4 _).mpr (by show (16 * ((i 0).val / 1024) + 4 * ((i 1).val / 1024) + 3) % 4 = 3; omega), ?_⟩
  rw [mem_blk]
  obtain ⟨-, -, -, -, -, -, -, -, o0, o1⟩ := idx_facts ⟨16 * ((i 0).val / 1024) + 4 * ((i 1).val / 1024) + 3, by omega⟩
  intro a
  match a with
  | ⟨0, _⟩ =>
    show win1_4.index _ 0 * 1024 ≤ (i 0).val ∧ (i 0).val < win1_4.index _ 0 * 1024 + 1024
    rw [o0]
    show (16 * ((i 0).val / 1024) + 4 * ((i 1).val / 1024) + 3) / 16 * 1024 ≤ (i 0).val ∧ (i 0).val < (16 * ((i 0).val / 1024) + 4 * ((i 1).val / 1024) + 3) / 16 * 1024 + 1024
    omega
  | ⟨1, _⟩ =>
    show win1_4.index _ 1 * 1024 ≤ (i 1).val ∧ (i 1).val < win1_4.index _ 1 * 1024 + 1024
    rw [o1]
    show (16 * ((i 0).val / 1024) + 4 * ((i 1).val / 1024) + 3) / 4 % 4 * 1024 ≤ (i 1).val ∧ (i 1).val < (16 * ((i 0).val / 1024) + 4 * ((i 1).val / 1024) + 3) / 4 % 4 * 1024 + 1024
    omega

/-- The result array after the region: the specification's entry everywhere. -/
theorem final : (dat1 (F := Ideal) V c).arrAt 4 cfg1.N = G V c :=
  (dat1 (F := Ideal) V c).arrAt_eq_of_cover 4 (G V c) (flushed_eq V c) (cover)

theorem out_final (m : Fin 8192) (o : Fin 4096) :
    ((dat1 (F := Ideal) V c).arrAt 4 cfg1.N : S8192x4096.Idx → EReal) (ix2 m o)
      = Cert.Spec.outAt (V c main_v0) (V c main_arg1) (V c main_v17) (V c main_v2) m o := by
  rw [final V c]

end Cert.KernelIdeal.Out1

end
-- ==== Proof.HostAt.lean ====
/-
  What the kernel program's host operations before its first kernel leave in four arrays, read at one entry:
  the activations flattened to [8192, 4096]; the three A tables joined by rows into [56, 4096]; the three
  B tables joined by columns into [4096, 56]; and the [1, 56] row of mixing weights, each α_i·½ repeated over
  its adapter's rank columns. No argument array is written.
-/
import proofs.«106228_j62697932587275_1_alg».proof.Proof.Gen.KernelIdeal.Launch
import proofs.«106228_j62697932587275_1_alg».proof.Proof.Spec
import Idealize.ShloMosaic.Lib.StableHlo.Run
import Idealize.ShloMosaic.Lib.ValueIdx
import Idealize.ShloMosaic.Lib.Pipeline.Value
import Idealize.ShloMosaic.Lib.ValueLayout

noncomputable section

namespace Cert.KernelIdeal.HostAt

open Cert.KernelIdeal Cert.KernelIdeal.Gen Idealize.ShloMosaic Idealize.ShloMosaic.ValueIdx Cert.Spec

variable (V0 : Valuation τ sig (Elt Ideal))

/-! ## The activations flattened: row i of [8192, 4096] is row (i / 2048, i % 2048) of [4, 2048, 4096] -/

theorem x2_at (i : Fin 8192) (d : Fin 4096) :
    (StableHlo.after hostOps0 V0 (Proc.devRef .tc main_v0) : S8192x4096.Idx → EReal) (ix2 i d)
      = (V0 (Proc.devRef .tc main_arg0) : S4x2048x4096.Idx → EReal)
          (ix3 ⟨i.val / 2048, by omega⟩ ⟨i.val % 2048, Nat.mod_lt _ (by norm_num)⟩ d) := by
  have e : (StableHlo.after hostOps0 V0 (Proc.devRef .tc main_v0) : S8192x4096.Idx → EReal)
      = shapeCast S8192x4096 (V0 (Proc.devRef .tc main_arg0) : S4x2048x4096.Idx → EReal) shapeCasts_S4x2048x4096_S8192x4096 := by
    after_results
    rfl
  rw [e]
  -- the two indices have one row-major position: ((i / 2048)·2048 + i % 2048)·4096 + d = i·4096 + d
  refine shapeCast_apply (s := S4x2048x4096) (t := S8192x4096) _ _ _ _ ?_
  show ((⟨3, ![4, 2048, 4096]⟩ : Shape).rowMajor _).val = ((⟨2, ![8192, 4096]⟩ : Shape).rowMajor _).val
  rw [Shape.rowMajor_val_three, Shape.rowMajor_val_two]
  show (i.val / 2048 * 2048 + i.val % 2048) * 4096 + d.val = i.val * 4096 + d.val
  omega

/-! ## The A tables joined by rows: rows 0–7, 8–23, 24–55 of [56, 4096] -/

theorem acat_at (r : Fin 56) (d : Fin 4096) :
    (StableHlo.after hostOps0 V0 (Proc.devRef .tc main_v1) : S56x4096.Idx → EReal) (ix2 r d)
      = Cert.Spec.catA (V0 (Proc.devRef .tc main_arg2)) (V0 (Proc.devRef .tc main_arg4)) (V0 (Proc.devRef .tc main_arg6)) r d := by
  have e : (StableHlo.after hostOps0 V0 (Proc.devRef .tc main_v1) : S56x4096.Idx → EReal)
      = concatenate S56x4096 0
          [⟨S8x4096, (V0 (Proc.devRef .tc main_arg2) : S8x4096.Idx → EReal)⟩,
           ⟨S16x4096, (V0 (Proc.devRef .tc main_arg4) : S16x4096.Idx → EReal)⟩,
           ⟨S32x4096, (V0 (Proc.devRef .tc main_arg6) : S32x4096.Idx → EReal)⟩]
          concatenates_S8x4096_S16x4096_S32x4096_S56x4096_d0 := by
    after_results
    rfl
  rw [e]
  unfold Cert.Spec.catA
  by_cases h1 : r.val < 8
  · rw [dif_pos h1]
    refine concatenate_apply_piece (t := S56x4096) 0 _ _ _ 0 (by show (0 : ℕ) < 3; omega) S8x4096 _ rfl rfl 0 rfl
      (ix2 ⟨r.val, h1⟩ d) (fun b hb => ?_) ?_
    · match b with
      | ⟨0, _⟩ => exact absurd rfl hb
      | ⟨1, _⟩ => rfl
    · show 0 + r.val = r.val
      omega
  · rw [dif_neg h1]
    by_cases h2 : r.val < 24
    · rw [dif_pos h2]
      refine concatenate_apply_piece (t := S56x4096) 0 _ _ _ 1 (by show (1 : ℕ) < 3; omega) S16x4096 _ rfl rfl 8 rfl
        (ix2 ⟨r.val - 8, by omega⟩ d) (fun b hb => ?_) ?_
      · match b with
        | ⟨0, _⟩ => exact absurd rfl hb
        | ⟨1, _⟩ => rfl
      · show 8 + (r.val - 8) = r.val
        omega
    · rw [dif_neg h2]
      refine concatenate_apply_piece (t := S56x4096) 0 _ _ _ 2 (by show (2 : ℕ) < 3; omega) S32x4096 _ rfl rfl 24 rfl
        (ix2 ⟨r.val - 24, by omega⟩ d) (fun b hb => ?_) ?_
      · match b with
        | ⟨0, _⟩ => exact absurd rfl hb
        | ⟨1, _⟩ => rfl
      · show 24 + (r.val - 24) = r.val
        omega

/-! ## The B tables joined by columns: columns 0–7, 8–23, 24–55 of [4096, 56] -/

theorem bcat_at (o : Fin 4096) (r : Fin 56) :
    (StableHlo.after hostOps0 V0 (Proc.devRef .tc main_v2) : S4096x56.Idx → EReal) (ix2 o r)
      = Cert.Spec.catB (V0 (Proc.devRef .tc main_arg3)) (V0 (Proc.devRef .tc main_arg5)) (V0 (Proc.devRef .tc main_arg7)) o r := by
  have e : (StableHlo.after hostOps0 V0 (Proc.devRef .tc main_v2) : S4096x56.Idx → EReal)
      = concatenate S4096x56 1
          [⟨S4096x8, (V0 (Proc.devRef .tc main_arg3) : S4096x8.Idx → EReal)⟩,
           ⟨S4096x16, (V0 (Proc.devRef .tc main_arg5) : S4096x16.Idx → EReal)⟩,
           ⟨S4096x32, (V0 (Proc.devRef .tc main_arg7) : S4096x32.Idx → EReal)⟩]
          concatenates_S4096x8_S4096x16_S4096x32_S4096x56_d1 := by
    after_results
    rfl
  rw [e]
  unfold Cert.Spec.catB
  by_cases h1 : r.val < 8
  · rw [dif_pos h1]
    refine concatenate_apply_piece (t := S4096x56) 1 _ _ _ 0 (by show (0 : ℕ) < 3; omega) S4096x8 _ rfl rfl 0 rfl
      (ix2 o ⟨r.val, h1⟩) (fun b hb => ?_) ?_
    · match b with
      | ⟨0, _⟩ => rfl
      | ⟨1, _⟩ => exact absurd rfl hb
    · show 0 + r.val = r.val
      omega
  · rw [dif_neg h1]
    by_cases h2 : r.val < 24
    · rw [dif_pos h2]
      refine concatenate_apply_piece (t := S4096x56) 1 _ _ _ 1 (by show (1 : ℕ) < 3; omega) S4096x16 _ rfl rfl 8 rfl
        (ix2 o ⟨r.val - 8, by omega⟩) (fun b hb => ?_) ?_
      · match b with
        | ⟨0, _⟩ => rfl
        | ⟨1, _⟩ => exact absurd rfl hb
      · show 8 + (r.val - 8) = r.val
        omega
    · rw [dif_neg h2]
      refine concatenate_apply_piece (t := S4096x56) 1 _ _ _ 2 (by show (2 : ℕ) < 3; omega) S4096x32 _ rfl rfl 24 rfl
        (ix2 o ⟨r.val - 24, by omega⟩) (fun b hb => ?_) ?_
      · match b with
        | ⟨0, _⟩ => rfl
        | ⟨1, _⟩ => exact absurd rfl hb
      · show 24 + (r.val - 24) = r.val
        omega

/-! ## The row of mixing weights: column r of [1, 56] holds α_g(r)·½ -/

/-- One mixing weight's scalar as the host forms it — entry k of the weights sliced out, cast to a scalar,
    times the constant ½ — is α_k·½. -/
theorem scal_at (al : S3.Idx → EReal) (k : ℕ) (hk : k < 3) (h : S3.Slices ![k] S1) (j : S_.Idx) :
    mulf (F := Ideal) (shapeCast S_ (extractStridedSlice S1 ![k] al h) shapeCasts_S1_S_ : FVec Ideal S_ .f32)
        (constant (F := Ideal) S_ .f32 0x3F000000#32) j
      = al (ix1 ⟨k, hk⟩) * Cert.Spec.half := by
  rw [mulf_apply, constant_apply]
  unfold Cert.Spec.half
  congr 1
  refine (shapeCast_apply (s := S1) (t := S_) _ _ j (ix1 (0 : Fin 1)) ?_).trans ?_
  · show ((⟨1, ![1]⟩ : Shape).rowMajor _).val = (Shape.rowMajorPi _ _).val
    rw [Shape.rowMajor_val_one, Shape.rowMajorPi_zero]
    rfl
  · refine extractStridedSlice_apply (s := S3) (t := S1) _ _ _ _ (ix1 ⟨k, hk⟩) (fun a => ?_)
    match a with
    | ⟨0, _⟩ => rfl

theorem scale_at (r : Fin 56) :
    (StableHlo.after hostOps0 V0 (Proc.devRef .tc main_v16) : S1x56.Idx → EReal) (ix2 (0 : Fin 1) r)
      = Cert.Spec.catAl (V0 (Proc.devRef .tc main_arg8)) r * Cert.Spec.half := by
  have e : (StableHlo.after hostOps0 V0 (Proc.devRef .tc main_v16) : S1x56.Idx → EReal)
      = shapeCast S1x56
          (concatenate S56 0
            [⟨S8, broadcastInDim S8 ![] bcast_S_S8
              (mulf (F := Ideal) (shapeCast S_ (extractStridedSlice S1 ![0] (V0 (Proc.devRef .tc main_arg8) : S3.Idx → EReal) slices_S3_S1_0) shapeCasts_S1_S_ : FVec Ideal S_ .f32)
                (constant (F := Ideal) S_ .f32 0x3F000000#32))⟩,
             ⟨S16, broadcastInDim S16 ![] bcast_S_S16
              (mulf (F := Ideal) (shapeCast S_ (extractStridedSlice S1 ![1] (V0 (Proc.devRef .tc main_arg8) : S3.Idx → EReal) slices_S3_S1_1) shapeCasts_S1_S_ : FVec Ideal S_ .f32)
                (constant (F := Ideal) S_ .f32 0x3F000000#32))⟩,
             ⟨S32, broadcastInDim S32 ![] bcast_S_S32
              (mulf (F := Ideal) (shapeCast S_ (extractStridedSlice S1 ![2] (V0 (Proc.devRef .tc main_arg8) : S3.Idx → EReal) slices_S3_S1_2) shapeCasts_S1_S_ : FVec Ideal S_ .f32)
                (constant (F := Ideal) S_ .f32 0x3F000000#32))⟩]
            concatenates_S8_S16_S32_S56_d0)
          shapeCasts_S56_S1x56 := by
    after_results
    rfl
  rw [e]
  refine (shapeCast_a_1a_apply _ _ (0 : Fin 1) r).trans ?_
  unfold Cert.Spec.catAl
  by_cases h1 : r.val < 8
  · rw [if_pos h1]
    refine (concatenate_apply_piece (t := S56) 0 _ _ _ 0 (by show (0 : ℕ) < 3; omega) S8 _ rfl rfl 0 rfl
      (ix1 ⟨r.val, h1⟩) (fun b hb => ?_) ?_).trans ?_
    · match b with
      | ⟨0, _⟩ => exact absurd rfl hb
    · show 0 + r.val = r.val
      omega
    · refine (broadcastInDim_apply (s := S_) (t := S8) _ _ _ _ ix0 (fun a => a.elim0)).trans ?_
      exact scal_at _ 0 (by omega) _ _
  · rw [if_neg h1]
    by_cases h2 : r.val < 24
    · rw [if_pos h2]
      refine (concatenate_apply_piece (t := S56) 0 _ _ _ 1 (by show (1 : ℕ) < 3; omega) S16 _ rfl rfl 8 rfl
        (ix1 ⟨r.val - 8, by omega⟩) (fun b hb => ?_) ?_).trans ?_
      · match b with
        | ⟨0, _⟩ => exact absurd rfl hb
      · show 8 + (r.val - 8) = r.val
        omega
      · refine (broadcastInDim_apply (s := S_) (t := S16) _ _ _ _ ix0 (fun a => a.elim0)).trans ?_
        exact scal_at _ 1 (by omega) _ _
    · rw [if_neg h2]
      refine (concatenate_apply_piece (t := S56) 0 _ _ _ 2 (by show (2 : ℕ) < 3; omega) S32 _ rfl rfl 24 rfl
        (ix1 ⟨r.val - 24, by omega⟩) (fun b hb => ?_) ?_).trans ?_
      · match b with
        | ⟨0, _⟩ => exact absurd rfl hb
      · show 24 + (r.val - 24) = r.val
        omega
      · refine (broadcastInDim_apply (s := S_) (t := S32) _ _ _ _ ix0 (fun a => a.elim0)).trans ?_
        exact scal_at _ 2 (by omega) _ _

/-! ## No host operation writes an argument array -/

/-- The activations are as given. -/
theorem x_kept : StableHlo.after hostOps0 V0 (Proc.devRef .tc main_arg0) = V0 (Proc.devRef .tc main_arg0) := by
  after_results
/-- The weight matrix is as given. -/
theorem w_kept : StableHlo.after hostOps0 V0 (Proc.devRef .tc main_arg1) = V0 (Proc.devRef .tc main_arg1) := by
  after_results
/-- The rank-8 adapter's A table is as given. -/
theorem a8_kept : StableHlo.after hostOps0 V0 (Proc.devRef .tc main_arg2) = V0 (Proc.devRef .tc main_arg2) := by
  after_results
/-- The rank-8 adapter's B table is as given. -/
theorem b8_kept : StableHlo.after hostOps0 V0 (Proc.devRef .tc main_arg3) = V0 (Proc.devRef .tc main_arg3) := by
  after_results
/-- The rank-16 adapter's A table is as given. -/
theorem a16_kept : StableHlo.after hostOps0 V0 (Proc.devRef .tc main_arg4) = V0 (Proc.devRef .tc main_arg4) := by
  after_results
/-- The rank-16 adapter's B table is as given. -/
theorem b16_kept : StableHlo.after hostOps0 V0 (Proc.devRef .tc main_arg5) = V0 (Proc.devRef .tc main_arg5) := by
  after_results
/-- The rank-32 adapter's A table is as given. -/
theorem a32_kept : StableHlo.after hostOps0 V0 (Proc.devRef .tc main_arg6) = V0 (Proc.devRef .tc main_arg6) := by
  after_results
/-- The rank-32 adapter's B table is as given. -/
theorem b32_kept : StableHlo.after hostOps0 V0 (Proc.devRef .tc main_arg7) = V0 (Proc.devRef .tc main_arg7) := by
  after_results
/-- The mixing weights are as given. -/
theorem al_kept : StableHlo.after hostOps0 V0 (Proc.devRef .tc main_arg8) = V0 (Proc.devRef .tc main_arg8) := by
  after_results

end Cert.KernelIdeal.HostAt

end
-- ==== Proof.KernelValue.lean ====
/-
  The kernel program's result at one entry, in terms of the nine arguments. The result buffer is the reshape to
  [4, 2048, 4096] of the second kernel's output array; entry (b, s, o) of it is that array's entry (2048·b + s, o),
  which is the base product plus the rank-56 correction over what the second kernel reads: the flattened
  activations, the base weight, the first kernel's scaled projection, and the joined B table. Each of these, read
  at one entry, is a function of the arguments; substituted entry by entry under the sums they give `kerAt`.
-/
import proofs.«106228_j62697932587275_1_alg».proof.Proof.Run
import proofs.«106228_j62697932587275_1_alg».proof.Proof.HostAt
import proofs.«106228_j62697932587275_1_alg».proof.Proof.Spec
import Idealize.ShloMosaic.Lib.ValueIdx
import Idealize.ShloMosaic.Lib.Pipeline.Value

noncomputable section

open scoped BigOperators

namespace Cert.KernelIdeal.Result

open Cert.KernelIdeal Cert.KernelIdeal.Gen Idealize.ShloMosaic Idealize.ShloMosaic.TcCoe Idealize.ShloMosaic.ValueIdx Cert.Spec

/-- Row 2048·b + s of the flattened activations. -/
def row (b : Fin 4) (s : Fin 2048) : Fin 8192 := ⟨2048 * b.val + s.val, by omega⟩

/-- Row 2048·b + s of the flattened array is row (b, s) of the three-axis one. -/
theorem ix3_row (b : Fin 4) (s : Fin 2048) (d : Fin 4096) (h1 : (row b s).val / 2048 < 4) (h2 : (row b s).val % 2048 < 2048) :
    (ix3 (⟨(row b s).val / 2048, h1⟩ : Fin 4) (⟨(row b s).val % 2048, h2⟩ : Fin 2048) d) = ix3 b s d := by
  have e1 : (⟨(row b s).val / 2048, h1⟩ : Fin 4) = b := Fin.ext (by show (2048 * b.val + s.val) / 2048 = b.val; omega)
  have e2 : (⟨(row b s).val % 2048, h2⟩ : Fin 2048) = s := Fin.ext (by show (2048 * b.val + s.val) % 2048 = s.val; omega)
  rw [e1, e2]

/-- THE ALGEBRA, over arrays named only by what they hold at the entries read: if the second kernel's operands
    are, entry by entry, the flattened activations, the base weight, the first kernel's scaled projection of the
    flattened activations on the joined A table, and the joined B table, then its result at (2048·b + s, o) is
    the kernel program's value at (b, s, o). -/
theorem assemble (X2 X1 : T2 8192 4096) (Wm : T2 4096 4096) (Low : T2 8192 56) (Bc : T2 4096 56) (Ac : T2 56 4096) (Sc : T2 1 56)
    (x : T3 4 2048 4096) (W : T2 4096 4096) (A8 : T2 8 4096) (B8 : T2 4096 8) (A16 : T2 16 4096) (B16 : T2 4096 16)
    (A32 : T2 32 4096) (B32 : T2 4096 32) (al : T1 3) (b : Fin 4) (s : Fin 2048) (o : Fin 4096)
    (hX2 : ∀ d, X2 (ix2 (row b s) d) = x (ix3 b s d))
    (hX1 : ∀ d, X1 (ix2 (row b s) d) = x (ix3 b s d))
    (hW : ∀ d, Wm (ix2 o d) = W (ix2 o d))
    (hA : ∀ r d, Ac (ix2 r d) = catA A8 A16 A32 r d)
    (hB : ∀ r, Bc (ix2 o r) = catB B8 B16 B32 o r)
    (hS : ∀ r, Sc (ix2 (0 : Fin 1) r) = catAl al r * half)
    (hL : ∀ r, Low (ix2 (row b s) r) = lowAt X1 Ac Sc (row b s) r) :
    outAt X2 Wm Low Bc (row b s) o = kerAt x W A8 B8 A16 B16 A32 B32 al b s o := by
  unfold outAt kerAt
  have hbase : (fun d : Fin 4096 => X2 (ix2 (row b s) d) * Wm (ix2 o d)) = fun d => x (ix3 b s d) * W (ix2 o d) :=
    funext fun d => by rw [hX2, hW]
  have hcorr : ∀ r : Fin 56, Low (ix2 (row b s) r) * Bc (ix2 o r)
      = (runs4 (fun d => x (ix3 b s d) * catA A8 A16 A32 r d) * (catAl al r * half)) * catB B8 B16 B32 o r := fun r => by
    have hf : (fun d : Fin 4096 => X1 (ix2 (row b s) d) * Ac (ix2 r d)) = fun d => x (ix3 b s d) * catA A8 A16 A32 r d :=
      funext fun d => by rw [hX1, hA]
    rw [hL, hB]
    unfold lowAt
    rw [hf, hS]
  rw [hbase, Finset.sum_congr rfl fun r _ => hcorr r]

variable (m : (ℓ : Loc nD τ sig) → Buf (Elt Ideal) ℓ) (ρ : Dev nD → PrngReg) (c : Dev nD)

/-! ## What the second kernel reads, as left by the host operations and the first kernel -/

/-- The flattened activations are an input of the first kernel: it leaves them as it found them. -/
theorem v0_kept : A2 (F := Ideal) m ρ c main_v0 = A1 (F := Ideal) m ρ c main_v0 :=
  (W2_arr m ρ c 0).trans (((dat0 (A1 m ρ) c).arrAt_in 0 rfl _).trans (A_eq0 (A1 m ρ) c 0))
/-- The first kernel's output array is the second kernel's third operand. -/
theorem v17_eq : A2 (F := Ideal) m ρ c main_v17 = (dat0 (F := Ideal) (A1 m ρ) c).arrAt 3 cfg0.N := W2_arr m ρ c 3
/-- The base weight is no array of the first kernel, -/
theorem arg1_kept : A2 (F := Ideal) m ρ c main_arg1 = A1 (F := Ideal) m ρ c main_arg1 := W2_of_ne m ρ c main_arg1 (by decide)
/-- nor is the joined B table. -/
theorem v2_kept : A2 (F := Ideal) m ρ c main_v2 = A1 (F := Ideal) m ρ c main_v2 := W2_of_ne m ρ c main_v2 (by decide)

theorem result_at
    (hlow : ∀ (i : Fin 8192) (r : Fin 56), ((dat0 (F := Ideal) (A1 m ρ) c).arrAt 3 cfg0.N : S8192x56.Idx → EReal) (ix2 i r)
      = Cert.Spec.lowAt (A1 m ρ c main_v0) (A1 m ρ c main_v1) (A1 m ρ c main_v16) i r)
    (hout : ∀ (i : Fin 8192) (o : Fin 4096), ((dat1 (F := Ideal) (A2 m ρ) c).arrAt 4 cfg1.N : S8192x4096.Idx → EReal) (ix2 i o)
      = Cert.Spec.outAt (A2 m ρ c main_v0) (A2 m ρ c main_arg1) (A2 m ρ c main_v17) (A2 m ρ c main_v2) i o)
    (b : Fin 4) (s : Fin 2048) (o : Fin 4096) :
    (W4 (F := Ideal) m ρ c (Proc.devRef .tc main_v19) : S4x2048x4096.Idx → EReal) (ix3 b s o)
      = Cert.Spec.kerAt (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8)) b s o := by
  -- the result buffer is the reshape of the second kernel's output array; entry (b, s, o) is its entry (2048·b + s, o)
  refine (congrFun (W4_result m ρ c) (ix3 b s o)).trans ?_
  refine (shapeCast_apply (s := S8192x4096) (t := S4x2048x4096) _ _ _ (ix2 (row b s) o) ?_).trans ?_
  · show ((⟨2, ![8192, 4096]⟩ : Shape).rowMajor _).val = ((⟨3, ![4, 2048, 4096]⟩ : Shape).rowMajor _).val
    rw [Shape.rowMajor_val_three, Shape.rowMajor_val_two]
    show (2048 * b.val + s.val) * 4096 + o.val = (b.val * 2048 + s.val) * 4096 + o.val
    omega
  refine (hout (row b s) o).trans ?_
  -- the flattened activations at row 2048·b + s
  have hX1 : ∀ d : Fin 4096, (A1 (F := Ideal) m ρ c main_v0 : S8192x4096.Idx → EReal) (ix2 (row b s) d)
      = (m ((c : Thread nD τ).loc main_arg0) : S4x2048x4096.Idx → EReal) (ix3 b s d) := fun d =>
    (HostAt.x2_at (W0 m ρ c) (row b s) d).trans (congrArg _ (ix3_row b s d _ _))
  refine assemble (A2 m ρ c main_v0) (A1 m ρ c main_v0) (A2 m ρ c main_arg1) (A2 m ρ c main_v17) (A2 m ρ c main_v2)
    (A1 m ρ c main_v1) (A1 m ρ c main_v16) _ _ _ _ _ _ _ _ _ b s o ?_ hX1 ?_ ?_ ?_ ?_ ?_
  · -- the second kernel finds the flattened activations as the host operations left them
    exact fun d => (congrFun (v0_kept m ρ c) _).trans (hX1 d)
  · -- the base weight, written by nobody
    exact fun d => (congrFun (arg1_kept m ρ c) _).trans (congrFun (HostAt.w_kept (W0 m ρ c)) _)
  · -- the joined A table
    exact fun r d => HostAt.acat_at (W0 m ρ c) r d
  · -- the joined B table, written by no kernel
    exact fun r => (congrFun (v2_kept m ρ c) _).trans (HostAt.bcat_at (W0 m ρ c) o r)
  · -- the row of mixing weights
    exact fun r => HostAt.scale_at (W0 m ρ c) r
  · -- the first kernel's scaled projection
    exact fun r => (congrFun (v17_eq m ρ c) _).trans (hlow (row b s) r)

end Cert.KernelIdeal.Result

end
-- ==== Proof.RefAt.lean ====
/-
  The reference program's result read at one entry.

  The reference forms base[b,s,o] = Σ_d x[b,s,d]·W[o,d], then for each of the three adapters the low-rank product
  out_i[b,s,o] = Σ_r (Σ_d x[b,s,d]·A_i[r,d])·B_i[o,r], and returns base + (((0 + α₀·out₀) + α₁·out₁) + α₂·out₂)·½.
  Reading each stage at the index (b, s, o) gives exactly the specification's `refAt`: the operand positions of every
  contraction are (b, s, k) on the left and (c, k) on the right, each weight α_i is entry i of the weight vector, the
  constant word 0x00000000 is the real number 0, and the word 0x3F000000 stays as the specification's `half`.
-/
import proofs.«106228_j62697932587275_1_alg».proof.Proof.Gen.ReferenceIdeal.Read
import proofs.«106228_j62697932587275_1_alg».proof.Proof.Spec

noncomputable section

open scoped BigOperators

namespace Cert.Bridge.RefAt

open Cert.ReferenceIdeal Cert.ReferenceIdeal.Gen Cert.ReferenceIdeal.Read Idealize.ShloMosaic Idealize.ShloMosaic.ValueIdx

/-! ### The operand positions of the seven contractions

At the result position (b, s, c) and the contracted position k, each contraction reads its left operand at (b, s, k)
and its right operand at (c, k). -/

theorem lidx_v0 (b : Fin 4) (s : Fin 2048) (c : Fin 4096) (k : Fin 4096) :
    lidx_main_v0 (ix3 b s c) k = ix3 b s k :=
  funext fun a => Fin.ext (by match a with | ⟨0, _⟩ => rfl | ⟨1, _⟩ => rfl | ⟨2, _⟩ => rfl)

theorem ridx_v0 (b : Fin 4) (s : Fin 2048) (c : Fin 4096) (k : Fin 4096) :
    ridx_main_v0 (ix3 b s c) k = ix2 c k :=
  funext fun a => Fin.ext (by match a with | ⟨0, _⟩ => rfl | ⟨1, _⟩ => rfl)

theorem lidx_v2 (b : Fin 4) (s : Fin 2048) (c : Fin 8) (k : Fin 4096) :
    lidx_main_v2 (ix3 b s c) k = ix3 b s k :=
  funext fun a => Fin.ext (by match a with | ⟨0, _⟩ => rfl | ⟨1, _⟩ => rfl | ⟨2, _⟩ => rfl)

theorem ridx_v2 (b : Fin 4) (s : Fin 2048) (c : Fin 8) (k : Fin 4096) :
    ridx_main_v2 (ix3 b s c) k = ix2 c k :=
  funext fun a => Fin.ext (by match a with | ⟨0, _⟩ => rfl | ⟨1, _⟩ => rfl)

theorem lidx_v3 (b : Fin 4) (s : Fin 2048) (c : Fin 4096) (k : Fin 8) :
    lidx_main_v3 (ix3 b s c) k = ix3 b s k :=
  funext fun a => Fin.ext (by match a with | ⟨0, _⟩ => rfl | ⟨1, _⟩ => rfl | ⟨2, _⟩ => rfl)

theorem ridx_v3 (b : Fin 4) (s : Fin 2048) (c : Fin 4096) (k : Fin 8) :
    ridx_main_v3 (ix3 b s c) k = ix2 c k :=
  funext fun a => Fin.ext (by match a with | ⟨0, _⟩ => rfl | ⟨1, _⟩ => rfl)

theorem lidx_v9 (b : Fin 4) (s : Fin 2048) (c : Fin 16) (k : Fin 4096) :
    lidx_main_v9 (ix3 b s c) k = ix3 b s k :=
  funext fun a => Fin.ext (by match a with | ⟨0, _⟩ => rfl | ⟨1, _⟩ => rfl | ⟨2, _⟩ => rfl)

theorem ridx_v9 (b : Fin 4) (s : Fin 2048) (c : Fin 16) (k : Fin 4096) :
    ridx_main_v9 (ix3 b s c) k = ix2 c k :=
  funext fun a => Fin.ext (by match a with | ⟨0, _⟩ => rfl | ⟨1, _⟩ => rfl)

theorem lidx_v10 (b : Fin 4) (s : Fin 2048) (c : Fin 4096) (k : Fin 16) :
    lidx_main_v10 (ix3 b s c) k = ix3 b s k :=
  funext fun a => Fin.ext (by match a with | ⟨0, _⟩ => rfl | ⟨1, _⟩ => rfl | ⟨2, _⟩ => rfl)

theorem ridx_v10 (b : Fin 4) (s : Fin 2048) (c : Fin 4096) (k : Fin 16) :
    ridx_main_v10 (ix3 b s c) k = ix2 c k :=
  funext fun a => Fin.ext (by match a with | ⟨0, _⟩ => rfl | ⟨1, _⟩ => rfl)

theorem lidx_v16 (b : Fin 4) (s : Fin 2048) (c : Fin 32) (k : Fin 4096) :
    lidx_main_v16 (ix3 b s c) k = ix3 b s k :=
  funext fun a => Fin.ext (by match a with | ⟨0, _⟩ => rfl | ⟨1, _⟩ => rfl | ⟨2, _⟩ => rfl)

theorem ridx_v16 (b : Fin 4) (s : Fin 2048) (c : Fin 32) (k : Fin 4096) :
    ridx_main_v16 (ix3 b s c) k = ix2 c k :=
  funext fun a => Fin.ext (by match a with | ⟨0, _⟩ => rfl | ⟨1, _⟩ => rfl)

theorem lidx_v17 (b : Fin 4) (s : Fin 2048) (c : Fin 4096) (k : Fin 32) :
    lidx_main_v17 (ix3 b s c) k = ix3 b s k :=
  funext fun a => Fin.ext (by match a with | ⟨0, _⟩ => rfl | ⟨1, _⟩ => rfl | ⟨2, _⟩ => rfl)

theorem ridx_v17 (b : Fin 4) (s : Fin 2048) (c : Fin 4096) (k : Fin 32) :
    ridx_main_v17 (ix3 b s c) k = ix2 c k :=
  funext fun a => Fin.ext (by match a with | ⟨0, _⟩ => rfl | ⟨1, _⟩ => rfl)

/-! ### The three mixing weights

Each weight is one entry of the length-3 vector, cut out as a one-element vector and recast as a scalar. -/

/-- The scalar shape's one index sits at row-major position 0. -/
theorem scalar_pos (j : S_.Idx) : (S_.rowMajor j).val = 0 := by
  have h : (S_.rowMajor j).val < S_.numel := (S_.rowMajor j).isLt
  have e : S_.numel = 1 := by unfold Shape.numel; exact Fin.prod_univ_zero _
  omega

theorem v5_at (x8 : (⟨S3, .f32⟩ : BufTy).Contents (Elt Ideal)) (j : S_.Idx) :
    val_main_v5 (F := Ideal) x8 j = x8 (ix1 0) := by
  unfold val_main_v5
  refine (shapeCast_apply _ _ j (ix1 (0 : Fin 1)) ?_).trans ?_
  · rw [Shape.rowMajor_val_one, scalar_pos]; rfl
  · rw [val_main_v4_apply]
    exact congrArg x8 (funext fun a => Fin.ext (by match a with | ⟨0, _⟩ => rfl))

theorem v12_at (x8 : (⟨S3, .f32⟩ : BufTy).Contents (Elt Ideal)) (j : S_.Idx) :
    val_main_v12 (F := Ideal) x8 j = x8 (ix1 1) := by
  unfold val_main_v12
  refine (shapeCast_apply _ _ j (ix1 (0 : Fin 1)) ?_).trans ?_
  · rw [Shape.rowMajor_val_one, scalar_pos]; rfl
  · rw [val_main_v11_apply]
    exact congrArg x8 (funext fun a => Fin.ext (by match a with | ⟨0, _⟩ => rfl))

theorem v19_at (x8 : (⟨S3, .f32⟩ : BufTy).Contents (Elt Ideal)) (j : S_.Idx) :
    val_main_v19 (F := Ideal) x8 j = x8 (ix1 2) := by
  unfold val_main_v19
  refine (shapeCast_apply _ _ j (ix1 (0 : Fin 1)) ?_).trans ?_
  · rw [Shape.rowMajor_val_one, scalar_pos]; rfl
  · rw [val_main_v18_apply]
    exact congrArg x8 (funext fun a => Fin.ext (by match a with | ⟨0, _⟩ => rfl))

/-! ### The three low-rank products

Each is a contraction over the rank of a contraction over the 4096 input features. -/

theorem v3_at (x0 : (⟨S4x2048x4096, .f32⟩ : BufTy).Contents (Elt Ideal)) (x2 : (⟨S8x4096, .f32⟩ : BufTy).Contents (Elt Ideal))
    (x3 : (⟨S4096x8, .f32⟩ : BufTy).Contents (Elt Ideal)) (b : Fin 4) (s : Fin 2048) (o : Fin 4096) :
    val_main_v3 (F := Ideal) x0 x2 x3 (ix3 b s o) = Cert.Spec.adapt x0 x2 x3 b s o := by
  rw [val_main_v3_apply]
  simp only [lidx_v3, ridx_v3, val_main_v2_apply, lidx_v2, ridx_v2]
  rfl

theorem v10_at (x0 : (⟨S4x2048x4096, .f32⟩ : BufTy).Contents (Elt Ideal)) (x4 : (⟨S16x4096, .f32⟩ : BufTy).Contents (Elt Ideal))
    (x5 : (⟨S4096x16, .f32⟩ : BufTy).Contents (Elt Ideal)) (b : Fin 4) (s : Fin 2048) (o : Fin 4096) :
    val_main_v10 (F := Ideal) x0 x4 x5 (ix3 b s o) = Cert.Spec.adapt x0 x4 x5 b s o := by
  rw [val_main_v10_apply]
  simp only [lidx_v10, ridx_v10, val_main_v9_apply, lidx_v9, ridx_v9]
  rfl

theorem v17_at (x0 : (⟨S4x2048x4096, .f32⟩ : BufTy).Contents (Elt Ideal)) (x6 : (⟨S32x4096, .f32⟩ : BufTy).Contents (Elt Ideal))
    (x7 : (⟨S4096x32, .f32⟩ : BufTy).Contents (Elt Ideal)) (b : Fin 4) (s : Fin 2048) (o : Fin 4096) :
    val_main_v17 (F := Ideal) x0 x6 x7 (ix3 b s o) = Cert.Spec.adapt x0 x6 x7 b s o := by
  rw [val_main_v17_apply]
  simp only [lidx_v17, ridx_v17, val_main_v16_apply, lidx_v16, ridx_v16]
  rfl

/-! ### The result -/

/-- The reference's result at (b, s, o): the base product plus the weighted sum of the three low-rank products, halved. -/
theorem ref_at (x0 : (⟨Cert.ReferenceIdeal.S4x2048x4096, .f32⟩ : BufTy).Contents (Elt Ideal)) (x1 : (⟨Cert.ReferenceIdeal.S4096x4096, .f32⟩ : BufTy).Contents (Elt Ideal)) (x2 : (⟨Cert.ReferenceIdeal.S8x4096, .f32⟩ : BufTy).Contents (Elt Ideal)) (x3 : (⟨Cert.ReferenceIdeal.S4096x8, .f32⟩ : BufTy).Contents (Elt Ideal)) (x4 : (⟨Cert.ReferenceIdeal.S16x4096, .f32⟩ : BufTy).Contents (Elt Ideal)) (x5 : (⟨Cert.ReferenceIdeal.S4096x16, .f32⟩ : BufTy).Contents (Elt Ideal)) (x6 : (⟨Cert.ReferenceIdeal.S32x4096, .f32⟩ : BufTy).Contents (Elt Ideal)) (x7 : (⟨Cert.ReferenceIdeal.S4096x32, .f32⟩ : BufTy).Contents (Elt Ideal)) (x8 : (⟨Cert.ReferenceIdeal.S3, .f32⟩ : BufTy).Contents (Elt Ideal)) (b : Fin 4) (s : Fin 2048) (o : Fin 4096) :
    Cert.ReferenceIdeal.Read.val_main_v25 (F := Ideal) x0 x1 x2 x3 x4 x5 x6 x7 x8 (ValueIdx.ix3 b s o) = Cert.Spec.refAt x0 x1 x2 x3 x4 x5 x6 x7 x8 b s o := by
  rw [val_main_v25_apply, val_main_v0_apply, val_main_v24_apply, val_main_v22_apply, val_main_v15_apply, val_main_v8_apply,
    val_main_v1_apply, val_main_cst_apply, val_main_v7_apply, val_main_v6_apply, v5_at, v3_at,
    val_main_v14_apply, val_main_v13_apply, v12_at, v10_at,
    val_main_v21_apply, val_main_v20_apply, v19_at, v17_at,
    val_main_v23_apply, val_main_cst_0_apply]
  simp only [lidx_v0, ridx_v0, Ideal.ofBits_def, Ideal.addf_def, Ideal.mulf_def, Ideal.ofBits_zero_f32]
  rfl

end Cert.Bridge.RefAt

end
-- ==== Proof.Algebra.lean ====
/-
  The one algebraic law of this certificate: on real inputs the kernel program's entry equals the
  reference's.

  Three facts carry it.
  (1) A sum over 4096 terms taken from zero in four runs of 1024 is the plain sum: only commutativity
      and associativity of +, so it holds on the extended reals as they are.
  (2) A sum over 56 rank columns is the sum over the first 8, the next 16 and the last 32; on each
      stretch the joined tables Acat, Bcat and the weight column are one adapter's own.
  (3) On the reals, Σ_r (p_r·(α·½))·B_r = (α·Σ_r p_r·B_r)·½, and the three such terms add up to
      (((0 + α₀·out₀) + α₁·out₁) + α₂·out₂)·½. Distributivity is what fails at ±∞ on the extended
      reals, which is why every input entry is assumed to be a real number.
-/
import proofs.«106228_j62697932587275_1_alg».proof.Proof.Spec
import Mathlib.Data.EReal.Basic
import Mathlib.Data.EReal.Operations
import Mathlib.Algebra.BigOperators.Fin
import Mathlib.Algebra.BigOperators.Ring.Finset
import Mathlib.Tactic.Ring
import Mathlib.Tactic.NormNum

noncomputable section

open scoped BigOperators

namespace Cert.Spec

open Idealize.ShloMosaic Idealize.ShloMosaic.ValueIdx

/-! ### Sums in runs -/

/-- A sum over m·n terms taken as m runs of n consecutive terms is the plain sum. -/
theorem sum_runs {M : Type*} [AddCommMonoid M] (m n : ℕ) (f : Fin (m * n) → M) :
    ∑ k : Fin m, ∑ j : Fin n, f (finProdFinEquiv (k, j)) = ∑ d : Fin (m * n), f d := by
  rw [← Fintype.sum_prod_type' (f := fun k j => f (finProdFinEquiv (k, j)))]
  exact Equiv.sum_comp finProdFinEquiv f

/-- Four runs of 1024 from zero: the plain sum over 4096. -/
theorem runs4_eq_sum (f : Fin 4096 → EReal) : runs4 f = ∑ d : Fin 4096, f d := by
  unfold runs4
  rw [zero_add]
  have h := sum_runs (M := EReal) 4 1024 f
  rw [← h]
  refine Finset.sum_congr rfl fun k _ => Finset.sum_congr rfl fun j _ => ?_
  congr 1
  apply Fin.ext
  simp [finProdFinEquiv]
  omega

/-! ### Fifty-six rank columns as 8 + 16 + 32 -/

/-- A sum over 56 terms is the sum over the first 8, the next 16 and the last 32. -/
theorem sum_56 {M : Type*} [AddCommMonoid M] (g : Fin 56 → M) :
    ∑ r : Fin 56, g r
      = ((∑ r : Fin 8, g ⟨r.val, by omega⟩) + ∑ r : Fin 16, g ⟨8 + r.val, by omega⟩)
          + ∑ r : Fin 32, g ⟨24 + r.val, by omega⟩ := by
  have h1 := Fin.sum_univ_add (M := M) (a := 24) (b := 32) g
  have h2 := Fin.sum_univ_add (M := M) (a := 8) (b := 16) (fun i => g (Fin.castAdd 32 i))
  rw [h1, h2]
  rfl

/-- On its first 8 columns the joined table Acat is A8. -/
theorem catA_lo (A8 : T2 8 4096) (A16 : T2 16 4096) (A32 : T2 32 4096) (r : Fin 8) (d : Fin 4096) :
    catA A8 A16 A32 ⟨r.val, by omega⟩ d = A8 (ix2 r d) := by
  unfold catA
  rw [dif_pos (show r.val < 8 from r.isLt)]

/-- On its next 16 columns Acat is A16. -/
theorem catA_mid (A8 : T2 8 4096) (A16 : T2 16 4096) (A32 : T2 32 4096) (r : Fin 16) (d : Fin 4096) :
    catA A8 A16 A32 ⟨8 + r.val, by omega⟩ d = A16 (ix2 r d) := by
  have h3 : (⟨8 + r.val - 8, by omega⟩ : Fin 16) = r := Fin.ext (by simp)
  unfold catA
  rw [dif_neg (show ¬ (8 + r.val < 8) by omega), dif_pos (show 8 + r.val < 24 by omega)]
  exact congrArg (fun q => A16 (ix2 q d)) h3

/-- On its last 32 columns Acat is A32. -/
theorem catA_hi (A8 : T2 8 4096) (A16 : T2 16 4096) (A32 : T2 32 4096) (r : Fin 32) (d : Fin 4096) :
    catA A8 A16 A32 ⟨24 + r.val, by omega⟩ d = A32 (ix2 r d) := by
  have h3 : (⟨24 + r.val - 24, by omega⟩ : Fin 32) = r := Fin.ext (by simp)
  unfold catA
  rw [dif_neg (show ¬ (24 + r.val < 8) by omega), dif_neg (show ¬ (24 + r.val < 24) by omega)]
  exact congrArg (fun q => A32 (ix2 q d)) h3

/-- On its first 8 columns the joined table Bcat is B8. -/
theorem catB_lo (B8 : T2 4096 8) (B16 : T2 4096 16) (B32 : T2 4096 32) (o : Fin 4096) (r : Fin 8) :
    catB B8 B16 B32 o ⟨r.val, by omega⟩ = B8 (ix2 o r) := by
  unfold catB
  rw [dif_pos (show r.val < 8 from r.isLt)]

/-- On its next 16 columns Bcat is B16. -/
theorem catB_mid (B8 : T2 4096 8) (B16 : T2 4096 16) (B32 : T2 4096 32) (o : Fin 4096) (r : Fin 16) :
    catB B8 B16 B32 o ⟨8 + r.val, by omega⟩ = B16 (ix2 o r) := by
  have h3 : (⟨8 + r.val - 8, by omega⟩ : Fin 16) = r := Fin.ext (by simp)
  unfold catB
  rw [dif_neg (show ¬ (8 + r.val < 8) by omega), dif_pos (show 8 + r.val < 24 by omega)]
  exact congrArg (fun q => B16 (ix2 o q)) h3

/-- On its last 32 columns Bcat is B32. -/
theorem catB_hi (B8 : T2 4096 8) (B16 : T2 4096 16) (B32 : T2 4096 32) (o : Fin 4096) (r : Fin 32) :
    catB B8 B16 B32 o ⟨24 + r.val, by omega⟩ = B32 (ix2 o r) := by
  have h3 : (⟨24 + r.val - 24, by omega⟩ : Fin 32) = r := Fin.ext (by simp)
  unfold catB
  rw [dif_neg (show ¬ (24 + r.val < 8) by omega), dif_neg (show ¬ (24 + r.val < 24) by omega)]
  exact congrArg (fun q => B32 (ix2 o q)) h3

/-- The weight column is α₀ on the first 8 columns. -/
theorem catAl_lo (al : T1 3) (r : Fin 8) : catAl al ⟨r.val, by omega⟩ = al (ix1 0) := by
  unfold catAl
  rw [if_pos (show r.val < 8 from r.isLt)]

/-- The weight column is α₁ on the next 16 columns. -/
theorem catAl_mid (al : T1 3) (r : Fin 16) : catAl al ⟨8 + r.val, by omega⟩ = al (ix1 1) := by
  unfold catAl
  rw [if_neg (show ¬ (8 + r.val < 8) by omega), if_pos (show 8 + r.val < 24 by omega)]

/-- The weight column is α₂ on the last 32 columns. -/
theorem catAl_hi (al : T1 3) (r : Fin 32) : catAl al ⟨24 + r.val, by omega⟩ = al (ix1 2) := by
  unfold catAl
  rw [if_neg (show ¬ (24 + r.val < 8) by omega), if_neg (show ¬ (24 + r.val < 24) by omega)]

/-! ### The law on the reals -/

/-- One adapter's term: the weight α·½ comes out of the sum over its rank columns. -/
theorem adapter_real {R : Type*} [Fintype R] (p B : R → ℝ) (a h : ℝ) :
    ∑ r, (p r * (a * h)) * B r = (a * ∑ r, p r * B r) * h := by
  rw [Finset.mul_sum, Finset.sum_mul]
  exact Finset.sum_congr rfl fun r _ => by ring

/-- The three adapters' terms add up to the reference's weighted sum times ½. -/
theorem law_real {R8 R16 R32 : Type*} [Fintype R8] [Fintype R16] [Fintype R32]
    (p8 B8 : R8 → ℝ) (p16 B16 : R16 → ℝ) (p32 B32 : R32 → ℝ) (a0 a1 a2 h : ℝ) :
    ((∑ r, (p8 r * (a0 * h)) * B8 r) + ∑ r, (p16 r * (a1 * h)) * B16 r) + ∑ r, (p32 r * (a2 * h)) * B32 r
      = ((a0 * ∑ r, p8 r * B8 r) + a1 * ∑ r, p16 r * B16 r + a2 * ∑ r, p32 r * B32 r) * h := by
  rw [adapter_real, adapter_real, adapter_real]
  ring

/-! ### From the reals to the extended reals -/

/-- The inclusion of the reals carries finite sums to finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The binary32 word 0x3F000000 denotes the real number ½. -/
theorem half_eq : half = ((1 / 2 : ℝ) : EReal) := by
  unfold half
  simp [Ideal.ofBits, Ideal.ieee, -EReal.coe_mul]
  norm_num

/-! ### The law -/

/-- On real inputs the kernel program's entry equals the reference's. -/
theorem kerAt_eq_refAt (x : T3 4 2048 4096) (W : T2 4096 4096) (A8 : T2 8 4096) (B8 : T2 4096 8) (A16 : T2 16 4096) (B16 : T2 4096 16) (A32 : T2 32 4096) (B32 : T2 4096 32) (al : T1 3)
    (hx : ∀ i, ∃ r : ℝ, x i = (r : EReal)) (hW : ∀ i, ∃ r : ℝ, W i = (r : EReal)) (hA8 : ∀ i, ∃ r : ℝ, A8 i = (r : EReal)) (hB8 : ∀ i, ∃ r : ℝ, B8 i = (r : EReal)) (hA16 : ∀ i, ∃ r : ℝ, A16 i = (r : EReal)) (hB16 : ∀ i, ∃ r : ℝ, B16 i = (r : EReal)) (hA32 : ∀ i, ∃ r : ℝ, A32 i = (r : EReal)) (hB32 : ∀ i, ∃ r : ℝ, B32 i = (r : EReal)) (hal : ∀ i, ∃ r : ℝ, al i = (r : EReal))
    (b : Fin 4) (s : Fin 2048) (o : Fin 4096) : kerAt x W A8 B8 A16 B16 A32 B32 al b s o = refAt x W A8 B8 A16 B16 A32 B32 al b s o := by
  choose xr hx using hx
  choose A8r hA8 using hA8
  choose B8r hB8 using hB8
  choose A16r hA16 using hA16
  choose B16r hB16 using hB16
  choose A32r hA32 using hA32
  choose B32r hB32 using hB32
  choose alr hal using hal
  unfold kerAt refAt adapt
  -- both contractions over 4096 are plain sums; the 56 rank columns fall into the three adapters' own
  simp only [runs4_eq_sum]
  rw [sum_56]
  simp only [catA_lo, catA_mid, catA_hi, catB_lo, catB_mid, catB_hi, catAl_lo, catAl_mid, catAl_hi]
  -- the base product is the same term on both sides
  congr 1
  -- what is left is an equation between real numbers
  simp only [hx, hA8, hB8, hA16, hB16, hA32, hB32, hal, half_eq, zero_add]
  simp only [← EReal.coe_mul, ← coe_sum, ← EReal.coe_add]
  exact congrArg Real.toEReal (law_real _ _ _ _ _ _ _ _ _ _)

end Cert.Spec

end
-- ==== Proof.Finite.lean ====
/-
  From the precondition to real entries.

  The precondition is the conjunction, over the nine inputs, of "every entry x of the input has
  |x| < +∞", where |x| is max x (-x) on the extended reals and +∞ is written as the binary32 word
  0x7F800000. Each "every entry" is a fold of the one-bit comparisons by `and`, started at 1, and the
  nine results are joined by `and`. If the whole evaluates to 1 then each fold is 1, so each
  comparison is 1, so max x (-x) < ⊤ at each entry; an extended real with that property is neither
  ⊤ nor ⊥, hence the image of a real number.
-/
import proofs.«106228_j62697932587275_1_alg».proof.Pre_finite_inputs
import Idealize.ShloMosaic.Lib.ReduceAll
import Idealize.ShloMosaic.Lib.ValueIdx
import Idealize.ShloMosaic.PureOps.Ideal.Laws

namespace Cert.Bridge.Finite

open Idealize.ShloMosaic Cert.Pre_finite_inputs

/-- The shape with no axes has exactly one index. -/
instance : Subsingleton S_.Idx := ⟨fun a b => funext fun d => d.elim0⟩

/-- A one-bit word made from a Boolean is 1 exactly when the Boolean is true. -/
theorem ofBool_eq_one {b : Bool} : BitVec.ofBool b = 1#1 ↔ b = true := by cases b <;> decide

/-- The binary32 word 0x7F800000 encodes +∞. -/
theorem ofBits_inf : Ideal.ofBits .f32 0x7F800000#32 = (⊤ : EReal) := by
  simp [Ideal.ofBits, Ideal.ieee]

/-- An extended real whose absolute value `max x (-x)` lies strictly below +∞ is a real number. -/
theorem real_of_abs_lt_top (x : EReal) (h : max x (-x) < ⊤) : ∃ r : ℝ, x = (r : EReal) := by
  induction x using EReal.rec with
  | bot => simp at h
  | coe r => exact ⟨r, rfl⟩
  | top => simp at h

/-- One conjunct of the precondition. If the conjunction over every index of `|x| < +∞` is 1, each entry of `x` is real. -/
theorem reals_of_all {s : Shape} {axes : List (Fin s.rank)} (x : FVec Ideal s .f32)
    (hb : S_.BroadcastsInDim s (![] : Fin 0 → Fin s.rank)) (hr : s.ReducesTo axes S_) (hu : 0 < S_.numel)
    (init : IVec S_ 1)
    (e : Host.reduce IntOp.andi
          (cmpf .olt (Host.absf x) (broadcastInDim s ![] hb (constant (F := Ideal) S_ .f32 0x7F800000#32)))
          init hr hu ValueIdx.ix0 = 1#1)
    (i : s.Idx) : ∃ r : ℝ, x i = (r : EReal) := by
  have h1 : Ideal.cmp .olt (max (x i) (-(x i))) (Ideal.ofBits .f32 0x7F800000#32) = 1#1 :=
    Host.reduce_andi_all _ init hr hu ValueIdx.ix0 e i
  rw [ofBits_inf] at h1
  refine real_of_abs_lt_top (x i) ?_
  simpa [Ideal.cmp, ofBool_eq_one] using h1

/-- A conjunction of two one-bit arrays is 1 at an index exactly when both are 1 there. -/
theorem andi_apply_eq_one {s : Shape} (x y : IVec s 1) (i : s.Idx) :
    andi x y i = 1#1 ↔ x i = 1#1 ∧ y i = 1#1 := IntOp.andi_eq_one

/-- The precondition, read back: if the nine conjuncts `all(|a_k| < +∞)` together evaluate to 1,
    every entry of every input is a real number. -/
theorem reals_of_pre [Cert.Pre_finite_inputs.Facts] (a0 : FVec Ideal Cert.Pre_finite_inputs.S4x2048x4096 .f32) (a1 : FVec Ideal Cert.Pre_finite_inputs.S4096x4096 .f32) (a2 : FVec Ideal Cert.Pre_finite_inputs.S8x4096 .f32) (a3 : FVec Ideal Cert.Pre_finite_inputs.S4096x8 .f32) (a4 : FVec Ideal Cert.Pre_finite_inputs.S16x4096 .f32) (a5 : FVec Ideal Cert.Pre_finite_inputs.S4096x16 .f32) (a6 : FVec Ideal Cert.Pre_finite_inputs.S32x4096 .f32) (a7 : FVec Ideal Cert.Pre_finite_inputs.S4096x32 .f32) (a8 : FVec Ideal Cert.Pre_finite_inputs.S3 .f32)
    (h : Cert.Pre_finite_inputs.fn (F := Ideal) a0 a1 a2 a3 a4 a5 a6 a7 a8 = fun _ => 1#1) :
    (∀ i, ∃ r : ℝ, a0 i = (r : EReal)) ∧ (∀ i, ∃ r : ℝ, a1 i = (r : EReal)) ∧ (∀ i, ∃ r : ℝ, a2 i = (r : EReal)) ∧ (∀ i, ∃ r : ℝ, a3 i = (r : EReal)) ∧ (∀ i, ∃ r : ℝ, a4 i = (r : EReal)) ∧ (∀ i, ∃ r : ℝ, a5 i = (r : EReal)) ∧ (∀ i, ∃ r : ℝ, a6 i = (r : EReal)) ∧ (∀ i, ∃ r : ℝ, a7 i = (r : EReal)) ∧ (∀ i, ∃ r : ℝ, a8 i = (r : EReal)) := by
  have h0 := congrFun h ValueIdx.ix0
  dsimp only [fn, fn_part1, fn_part2] at h0
  simp only [andi_apply_eq_one] at h0
  obtain ⟨⟨⟨⟨⟨⟨⟨⟨e0, e1⟩, e2⟩, e3⟩, e4⟩, e5⟩, e6⟩, e7⟩, e8⟩ := h0
  exact ⟨reals_of_all a0 _ _ _ _ e0, reals_of_all a1 _ _ _ _ e1, reals_of_all a2 _ _ _ _ e2,
    reals_of_all a3 _ _ _ _ e3, reals_of_all a4 _ _ _ _ e4, reals_of_all a5 _ _ _ _ e5,
    reals_of_all a6 _ _ _ _ e6, reals_of_all a7 _ _ _ _ e7, reals_of_all a8 _ _ _ _ e8⟩

end Cert.Bridge.Finite
-- ==== Proof.lean ====
/-
  The certificate of the LoRA layer kernel against its reference, over the extended reals.

  Both programs compute, at (b, s, o), base + (α₀·out₀ + α₁·out₁ + α₂·out₂)·½ with base = Σ_d x[b,s,d]·W[o,d] and
  out_i = Σ_r (Σ_d x[b,s,d]·A_i[r,d])·B_i[o,r]. The reference forms it in that order. The kernel program joins the three
  adapters into one rank-56 pair, folds α_i·½ into one factor per rank column, and runs two tiled kernels: the first
  leaves the scaled projection (x·Acatᵀ)·scale, the second x·Wᵀ plus that projection times Bcatᵀ, each contraction
  summed in four runs of 1024 into an accumulator kept between grid points. Over the extended reals the two agree only
  where distributivity holds, which is why the precondition — every input finite — is used: with real inputs both sides
  are real and the law is one of sums and products of reals (`Cert.Spec.kerAt_eq_refAt`).

  The three frames: the kernel program's run, at either float instance, is launched segment by segment — host
  operations, the first kernel's region, the second kernel's region, one reshape — with every buffer's contents named at
  each boundary; the arguments are read back to their launch contents. The reference is host operations only. The
  idealization rewrote nothing, so `preserves` has no conjunct.
-/
import proofs.«106228_j62697932587275_1_alg».proof.Defs
import proofs.«106228_j62697932587275_1_alg».proof.Proof.Gen.Kernel
import proofs.«106228_j62697932587275_1_alg».proof.Proof.Gen.KernelIdeal
import proofs.«106228_j62697932587275_1_alg».proof.Proof.Gen.ReferenceIdeal
import proofs.«106228_j62697932587275_1_alg».proof.Proof.Gen.ReferenceIdeal.Run
import proofs.«106228_j62697932587275_1_alg».proof.Proof.Gen.ReferenceIdeal.Read
import proofs.«106228_j62697932587275_1_alg».proof.Proof.Gen.Pre_finite_inputs
import proofs.«106228_j62697932587275_1_alg».proof.Proof.RunB
import proofs.«106228_j62697932587275_1_alg».proof.Proof.Run
import proofs.«106228_j62697932587275_1_alg».proof.Proof.Out0Value
import proofs.«106228_j62697932587275_1_alg».proof.Proof.Out1Value
import proofs.«106228_j62697932587275_1_alg».proof.Proof.KernelValue
import proofs.«106228_j62697932587275_1_alg».proof.Proof.RefAt
import proofs.«106228_j62697932587275_1_alg».proof.Proof.Algebra
import proofs.«106228_j62697932587275_1_alg».proof.Proof.Finite
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_k : Cert.frame_Kernel := fun m ρ _ => Cert.Kernel.Gen.frame_run m ρ

/-- So does the idealized one. -/
theorem frame_ki : Cert.frame_KernelIdeal := fun m ρ _ => Cert.KernelIdeal.Gen.frame_run m ρ

/-- The reference is host operations only: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Over the extended reals, from memories that agree on the nine arguments, all of them finite: the kernel
    program's result buffer ends at the last boundary's contents, which at every (b, s, o) is `kerAt` of the
    arguments; the reference's ends at `refAt` of the same arguments; and for real arguments the two are equal. -/
theorem algebraic : Cert.algebraic_KernelIdeal_ReferenceIdeal := by
  intro m ρ m' ρ' hpre hagree
  refine ⟨fun c => Cert.KernelIdeal.Gen.W4 m ρ c (Proc.devRef .tc Cert.KernelIdeal.main_v19), ?_, ?_⟩
  · exact (θ_run (Cert.KernelIdeal.defs (F := Ideal)) _ _).mono (fun _ h c =>
      ⟨h c _ (Cert.KernelIdeal.Gen.mem_uc Cert.KernelIdeal.main_v19 (by decide)),
       (h c _ (Cert.KernelIdeal.Gen.mem_uc Cert.KernelIdeal.main_arg0 (by decide))).trans (Cert.KernelIdeal.Gen.W4_main_arg0 m ρ c),
       (h c _ (Cert.KernelIdeal.Gen.mem_uc Cert.KernelIdeal.main_arg1 (by decide))).trans (Cert.KernelIdeal.Gen.W4_main_arg1 m ρ c),
       (h c _ (Cert.KernelIdeal.Gen.mem_uc Cert.KernelIdeal.main_arg2 (by decide))).trans (Cert.KernelIdeal.Gen.W4_main_arg2 m ρ c),
       (h c _ (Cert.KernelIdeal.Gen.mem_uc Cert.KernelIdeal.main_arg3 (by decide))).trans (Cert.KernelIdeal.Gen.W4_main_arg3 m ρ c),
       (h c _ (Cert.KernelIdeal.Gen.mem_uc Cert.KernelIdeal.main_arg4 (by decide))).trans (Cert.KernelIdeal.Gen.W4_main_arg4 m ρ c),
       (h c _ (Cert.KernelIdeal.Gen.mem_uc Cert.KernelIdeal.main_arg5 (by decide))).trans (Cert.KernelIdeal.Gen.W4_main_arg5 m ρ c),
       (h c _ (Cert.KernelIdeal.Gen.mem_uc Cert.KernelIdeal.main_arg6 (by decide))).trans (Cert.KernelIdeal.Gen.W4_main_arg6 m ρ c),
       (h c _ (Cert.KernelIdeal.Gen.mem_uc Cert.KernelIdeal.main_arg7 (by decide))).trans (Cert.KernelIdeal.Gen.W4_main_arg7 m ρ c),
       (h c _ (Cert.KernelIdeal.Gen.mem_uc Cert.KernelIdeal.main_arg8 (by decide))).trans (Cert.KernelIdeal.Gen.W4_main_arg8 m ρ c)⟩)
      (Cert.KernelIdeal.Gen.run_all m ρ)
  · refine (θ_run (Cert.ReferenceIdeal.defs (F := Ideal)) _ _).mono (fun _ h c => ⟨(h c).1.trans ?_, (h c).2⟩)
      (Cert.ReferenceIdeal.Value.run (F := Ideal) m' ρ')
    obtain ⟨e0, e1, e2, e3, e4, e5, e6, e7, e8⟩ := hagree c
    rw [Cert.ReferenceIdeal.Read.val_main_v25_eq, e0, e1, e2, e3, e4, e5, e6, e7, e8]
    obtain ⟨r0, r1, r2, r3, r4, r5, r6, r7, r8⟩ := Cert.Bridge.Finite.reals_of_pre _ _ _ _ _ _ _ _ _ (hpre c)
    funext i
    obtain ⟨b, s, o, rfl⟩ : ∃ (b : Fin 4) (s : Fin 2048) (o : Fin 4096), i = ValueIdx.ix3 b s o := ⟨i 0, i 1, i 2, ValueIdx.eq_ix3 i⟩
    refine (Cert.Bridge.RefAt.ref_at _ _ _ _ _ _ _ _ _ b s o).trans ?_
    refine ((Cert.Spec.kerAt_eq_refAt _ _ _ _ _ _ _ _ _ r0 r1 r2 r3 r4 r5 r6 r7 r8 b s o).symm).trans ?_
    exact (Cert.KernelIdeal.Result.result_at m ρ c (Cert.KernelIdeal.Out0.low_final (Cert.KernelIdeal.Gen.A1 m ρ) c)
      (Cert.KernelIdeal.Out1.out_final (Cert.KernelIdeal.Gen.A2 m ρ) c) b s o).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
